-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg6 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S50000x128 .f32) (main_arg1 : IVec S2x1600000 32) (main_arg2 : IVec S50000 32) (main_arg3 : FVec F S4x128x128 .f32) (main_arg4 : FVec F S4x128 .f32) (main_arg5 : FVec F S4x128x128 .f32) (main_arg6 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x1 : Shape := ⟨2, ![50000, 1]⟩
abbrev S512x128 : Shape := ⟨2, ![512, 128]⟩
abbrev S2000x128 : Shape := ⟨2, ![2000, 128]⟩
abbrev S2000x1 : Shape := ⟨2, ![2000, 1]⟩
abbrev S2000x512 : Shape := ⟨2, ![2000, 512]⟩

abbrev nBuf : Space → Nat
  | .hbm => 109
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S4x128x128, .f32⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S50000x128, .f32⟩
  | .hbm, ⟨70, _⟩ => ⟨S1600000x1, .i32⟩
  | .hbm, ⟨71, _⟩ => ⟨S50000x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S50000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S50000x128, .f32⟩
  | .hbm, ⟨94, _⟩ => ⟨S1600000x1, .i32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S1x128, .f32⟩
  | .hbm, ⟨99, _⟩ => ⟨S128, .f32⟩
  | .hbm, ⟨100, _⟩ => ⟨S1x128x128, .f32⟩
  | .hbm, ⟨101, _⟩ => ⟨S128x128, .f32⟩
  | .hbm, ⟨102, _⟩ => ⟨S1x128, .f32⟩
  | .hbm, ⟨103, _⟩ => ⟨S128, .f32⟩
  | .hbm, ⟨104, _⟩ => ⟨S1x128, .f32⟩
  | .hbm, ⟨105, _⟩ => ⟨S1x128, .f32⟩
  | .hbm, ⟨106, _⟩ => ⟨S50000x128, .f32⟩
  | .hbm, ⟨107, _⟩ => ⟨S50000x1, .i32⟩
  | .hbm, ⟨108, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S2000x128, .f32⟩
  | .local _ .vmem, ⟨41, _⟩ => ⟨S2000x128, .f32⟩
  | .local _ .vmem, ⟨42, _⟩ => ⟨S2000x1, .i32⟩
  | .local _ .vmem, ⟨43, _⟩ => ⟨S2000x1, .i32⟩
  | .local _ .vmem, ⟨44, _⟩ => ⟨S512x128, .f32⟩
  | .local _ .vmem, ⟨45, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_7 : Ref sig .tc := ⟨.hbm, 83, rfl⟩
abbrev main_v67 : Ref sig .tc := ⟨.hbm, 84, rfl⟩
abbrev main_v68 : Ref sig .tc := ⟨.hbm, 85, rfl⟩
abbrev main_c_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_8 : BitVec 32 := 0#32
  let v20 : BitVec 1 := Scalar.cmpi .ne v19 c0_i32_8
  v20

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S50000_S50000x1 : S50000.ShapeCasts S50000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S2000x512_S2000x128_S512x128_0_0_1_1_n_n_wf : DotDims.WF S2000x512 S2000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S512x128.size a
  hwx4_2 : ∀ i : grid4.Coords, EltTy.bits .f32 = 32 ∨ (Rect.block (s := S512x128) S512x128.size (cc4_transform_2 i) (hinb4_2 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v87) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S512x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S1x1600000, .i32⟩
  | 8 => ⟨S1600000, .i32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S50000x128, .f32⟩
  | 22 => ⟨S1600000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S50000x128, .f32⟩
  | 55 => ⟨S1600000x1, .i32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S_, .f32⟩
  | 87 => ⟨S50000x128, .f32⟩
  | 88 => ⟨S1600000x1, .i32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S50000x128, .f32⟩
  | 121 => ⟨S1600000x1, .i32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S512x128, .f32⟩
  | 17 => ⟨S50000x1, .i32⟩
  | 18 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_cst : Ref sig .tc := ⟨.hbm, 66, rfl⟩
abbrev main_call1_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_4 : Ref sig .tc := ⟨.hbm, 77, rfl⟩
abbrev main_v60 : Ref sig .tc := ⟨.hbm, 78, rfl⟩
abbrev main_v61 : Ref sig .tc := ⟨.hbm, 79, rfl⟩
abbrev main_c_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call2_cst : Ref sig .tc := ⟨.hbm, 99, rfl⟩
abbrev main_call2_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_7 : Ref sig .tc := ⟨.hbm, 110, rfl⟩
abbrev main_v88 : Ref sig .tc := ⟨.hbm, 111, rfl⟩
abbrev main_v89 : Ref sig .tc := ⟨.hbm, 112, rfl⟩
abbrev main_c_8 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_9 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_call3_cst : Ref sig .tc := ⟨.hbm, 132, rfl⟩
abbrev main_call3_v0 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_10 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.KB.Mlp0.lean ====
/-
  Region 0 of @main, the first GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.Kernel.Launch
import proofs.«421570_j62362925138436_1_alg».proof.Proof.Gen.Kernel.Skeleton
import proofs.«421570_j62362925138436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_A : Rect S5000x128 := Rect.unit (s := S5000x128) ![0, 0] S5000x128.size inb_S5000x128_S5000x128_0_0
abbrev r0_W : Rect S128x128 := Rect.unit (s := S128x128) ![0, 0] S128x128.size inb_S128x128_S128x128_0_0
abbrev r0_B : Rect S1x128 := Rect.unit (s := S1x128) ![0, 0] S1x128.size inb_S1x128_S1x128_0_0

/-! ## What the body leaves in the output window's buffer -/

/-- The output block after the body: the MLP payload of the six input blocks, as the one whole-buffer store. -/
def out0_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r0_A, k0_pay1 (View.ld x0 r0_A) (View.ld x1 r0_A) (View.ld x2 r0_W) (View.ld x3 r0_B) (View.ld x4 r0_W) (View.ld x5 r0_B)⟩]

/-- The one store covers the buffer. -/
theorem cover0_6 (p0 : Vec F S5000x128 .f32) (y : S5000x128.Idx) :
    ∃ pc ∈ ([⟨r0_A, p0⟩] : List (View.Piece (Elt F) S5000x128 .f32)), y ∈ pc.1.set :=
  View.cover_of_tiled [⟨r0_A, p0⟩] S5000x128.size (by rfl) y

/-! ## The body's triple -/

set_option maxHeartbeats 4000000 in
/-- The kernel body on whole staging memrefs: the inputs' at contents `x0 … x5`, the output's at anything; it runs to
    the continuation with the inputs as they were and the output at `out0_6` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at the MLP payload of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Mlp1.lean ====
/-
  Region 1 of @main, the second GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.Kernel.Launch
import proofs.«421570_j62362925138436_1_alg».proof.Proof.Gen.Kernel.Skeleton
import proofs.«421570_j62362925138436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_A : Rect S5000x128 := Rect.unit (s := S5000x128) ![0, 0] S5000x128.size inb_S5000x128_S5000x128_0_0
abbrev r1_W : Rect S128x128 := Rect.unit (s := S128x128) ![0, 0] S128x128.size inb_S128x128_S128x128_0_0
abbrev r1_B : Rect S1x128 := Rect.unit (s := S1x128) ![0, 0] S1x128.size inb_S1x128_S1x128_0_0

/-! ## What the body leaves in the output window's buffer -/

/-- The output block after the body: the MLP payload of the six input blocks, as the one whole-buffer store. -/
def out1_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r1_A, k1_pay1 (View.ld x0 r1_A) (View.ld x1 r1_A) (View.ld x2 r1_W) (View.ld x3 r1_B) (View.ld x4 r1_W) (View.ld x5 r1_B)⟩]

/-- The one store covers the buffer. -/
theorem cover1_6 (p0 : Vec F S5000x128 .f32) (y : S5000x128.Idx) :
    ∃ pc ∈ ([⟨r1_A, p0⟩] : List (View.Piece (Elt F) S5000x128 .f32)), y ∈ pc.1.set :=
  View.cover_of_tiled [⟨r1_A, p0⟩] S5000x128.size (by rfl) y

/-! ## The body's triple -/

set_option maxHeartbeats 4000000 in
/-- The kernel body on whole staging memrefs: the inputs' at contents `x0 … x5`, the output's at anything; it runs to
    the continuation with the inputs as they were and the output at `out1_6` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at the MLP payload of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Mlp2.lean ====
/-
  Region 2 of @main, the third GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.Kernel.Launch
import proofs.«421570_j62362925138436_1_alg».proof.Proof.Gen.Kernel.Skeleton
import proofs.«421570_j62362925138436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/

abbrev r2_A : Rect S5000x128 := Rect.unit (s := S5000x128) ![0, 0] S5000x128.size inb_S5000x128_S5000x128_0_0
abbrev r2_W : Rect S128x128 := Rect.unit (s := S128x128) ![0, 0] S128x128.size inb_S128x128_S128x128_0_0
abbrev r2_B : Rect S1x128 := Rect.unit (s := S1x128) ![0, 0] S1x128.size inb_S1x128_S1x128_0_0

/-! ## What the body leaves in the output window's buffer -/

/-- The output block after the body: the MLP payload of the six input blocks, as the one whole-buffer store. -/
def out2_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r2_A, k2_pay1 (View.ld x0 r2_A) (View.ld x1 r2_A) (View.ld x2 r2_W) (View.ld x3 r2_B) (View.ld x4 r2_W) (View.ld x5 r2_B)⟩]

/-- The one store covers the buffer. -/
theorem cover2_6 (p0 : Vec F S5000x128 .f32) (y : S5000x128.Idx) :
    ∃ pc ∈ ([⟨r2_A, p0⟩] : List (View.Piece (Elt F) S5000x128 .f32)), y ∈ pc.1.set :=
  View.cover_of_tiled [⟨r2_A, p0⟩] S5000x128.size (by rfl) y

/-! ## The body's triple -/

set_option maxHeartbeats 4000000 in
/-- The kernel body on whole staging memrefs: the inputs' at contents `x0 … x5`, the output's at anything; it runs to
    the continuation with the inputs as they were and the output at `out2_6` of them. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point `t` each
    input's buffer at its block and the output's at the MLP payload of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the kernel's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Mlp3.lean ====
/-
  Region 3 of @main, the fourth GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.Kernel.Launch
import proofs.«421570_j62362925138436_1_alg».proof.Proof.Gen.Kernel.Skeleton
import proofs.«421570_j62362925138436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data
    whose array is the entry contents and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole buffer -/

abbrev r3_A : Rect S5000x128 := Rect.unit (s := S5000x128) ![0, 0] S5000x128.size inb_S5000x128_S5000x128_0_0
abbrev r3_W : Rect S128x128 := Rect.unit (s := S128x128) ![0, 0] S128x128.size inb_S128x128_S128x128_0_0
abbrev r3_B : Rect S1x128 := Rect.unit (s := S1x128) ![0, 0] S1x128.size inb_S1x128_S1x128_0_0

/-! ## What the body leaves in the output window's buffer -/

/-- The output block after the body: the MLP payload of the six input blocks, as the one whole-buffer store. -/
def out3_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r3_A, k3_pay1 (View.ld x0 r3_A) (View.ld x1 r3_A) (View.ld x2 r3_W) (View.ld x3 r3_B) (View.ld x4 r3_W) (View.ld x5 r3_B)⟩]

/-- The one store covers the buffer. -/
theorem cover3_6 (p0 : Vec F S5000x128 .f32) (y : S5000x128.Idx) :
    ∃ pc ∈ ([⟨r3_A, p0⟩] : List (View.Piece (Elt F) S5000x128 .f32)), y ∈ pc.1.set :=
  View.cover_of_tiled [⟨r3_A, p0⟩] S5000x128.size (by rfl) y

/-! ## The body's triple -/

set_option maxHeartbeats 4000000 in
/-- The kernel body on whole staging memrefs: the inputs' at contents `x0 … x5`, the output's at anything; it runs to
    the continuation with the inputs as they were and the output at `out3_6` of them. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__gin_mlp_kernel i arg1 harg1 arg2 harg2 arg3 harg3 arg4 harg4 arg5 harg5 arg6 harg6 arg7 harg7) K := by
  simp only [cc3__gin_mlp_kernel_eq_skeleton]; unfold cc3__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and the output's at the MLP payload of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the kernel's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Pool.lean ====
/-
  Region 4 of @main, the global add pool, at the buffer contents `V` the region is entered with.
  The grid has 25 points; at point t the body sees rows 2000·t … 2000·t+1999 of the node features and of the
  graph ids.  It keeps a 512×128 accumulator in a scratch buffer across the points: cleared at the first point,
  then at every point increased by  onehotᵀ · x  (onehot[n, g] = 1 when node n's graph id is g); at the last
  point the accumulator is copied into the output block, which is written back only there.
-/
import proofs.«421570_j62362925138436_1_alg».proof.Proof.Gen.Kernel.Launch
import proofs.«421570_j62362925138436_1_alg».proof.Proof.Gen.Kernel.Skeleton
import proofs.«421570_j62362925138436_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditionals, from the grid coordinate -/

/-- The condition of the body's first conditional, as the kernel computes it from the grid coordinate. -/
abbrev cond4_0 (i : grid4.Coords) : Prop :=
  (Scalar.cmpi .ne (Scalar.extui (Scalar.cmpi .eq (BitVec.ofNat 32 (i 0).val) 0#32) : BitVec 32) 0#32 : BitVec 1) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the body's second conditional. -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle, and where the output is written back -/

/-- The two inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Away from the last point the output window is idle: the body stores nothing into it, -/
theorem idleAt4_2 : ∀ t : Fin cfg4.N, ¬cond4_1 (grid4.coords t) → cfg4.idle 2 (grid4.coords t) = true :=
  (by decide +kernel : ∀ t : Fin grid4.N, ¬cond4_1 (grid4.coords t) → cfg4.idle 2 (grid4.coords t) = true)
/-- and the pipeline does not write its block back. -/
theorem noFlush4_2 : ∀ t : Fin cfg4.N, ¬cond4_1 (grid4.coords t) → (cfg4.win 2).flush t = false :=
  (by decide +kernel : ∀ t : Fin grid4.N, ¬cond4_1 (grid4.coords t) → win4_2.flush t = false)
/-- At the last point the body stores into it. -/
theorem liveAt4_2 : ∀ t : Fin cfg4.N, cond4_1 (grid4.coords t) → cfg4.idle 2 (grid4.coords t) = false :=
  (by decide +kernel : ∀ t : Fin grid4.N, cond4_1 (grid4.coords t) → cfg4.idle 2 (grid4.coords t) = false)

/-! ## Whole-buffer loads and stores -/

/-- The zero offsets of a rank-2 access, however spelt. -/
theorem zeros2 : (![0, 0] : Fin 2 → ℕ) = fun _ => 0 := by funext a; fin_cases a <;> rfl

/-- A load of the whole buffer reads what the memref reads. -/
theorem readAt_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz inb]

/-- After a store of the whole buffer the memref reads the payload, whatever was stored before. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (P : S.Idx → Elt F e)
    (L : List (View.Piece (Elt F) S e)) :
    v.read (Elt F) (v.writes (Elt F) f (⟨Rect.unit off S.size inb, P⟩ :: L)) = P := by
  rw [View.read_writes_eq_canon v f _ (fun y => ⟨_, List.mem_cons.mpr (Or.inl rfl), View.mem_set_unit_zero hz inb y⟩),
    View.canon_cons_unit_zero hz inb P L]

/-! ## The body's triple, one per control case

Every load and store takes its whole buffer, so after a store the buffer reads as the stored payload and a load reads
the buffer's contents: the accumulator after the body is the update payload of the graph ids, the accumulator before
(cleared first, at the first point) and the features. -/

set_option maxHeartbeats 4000000 in
/-- The kernel body at the first grid point, on whole memrefs: the features and the graph ids at `x` and `ids`, the output's
    buffer at `o`, the accumulator at anything. The accumulator is cleared and then updated; the output's buffer is not touched. -/
theorem sound_kernel4_first (c : Dev nD) (E : Set ℕ) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x128 .f32) (harg3 : arg3.IsWhole) (arg4 : Memref sig .tc .vmem S512x128 .f32) (harg4 : arg4.IsWhole)
    (hc0 : cond4_0 i) (hc1 : ¬cond4_1 i)
    (x : Vec F S2000x128 .f32) (ids : Vec F S2000x1 .i32) (o : Vec F S512x128 .f32)
    (K : PUnit → sProp 𝕄) :
    iprop(owns (c : Thread nD τ) arg1 fullShare x ∗ owns (c : Thread nD τ) arg2 fullShare ids ∗ owns (c : Thread nD τ) arg3 fullShare o
        ∗ (∃ d, owns (c : Thread nD τ) arg4 fullShare d)
        ∗ (iprop(owns (c : Thread nD τ) arg1 fullShare x ∗ owns (c : Thread nD τ) arg2 fullShare ids ∗ owns (c : Thread nD τ) arg3 fullShare o
            ∗ owns (c : Thread nD τ) arg4 fullShare (k4_pay2 ids (k4_pay1 (F := F)) x)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_store_whole _ _ zeros2, View.readCov_unit_zero _ zeros2, readAt_whole _ _ zeros2, readAt_whole _ _ zeros2]

set_option maxHeartbeats 4000000 in
/-- The kernel body at a grid point that is neither the first nor the last: the accumulator at `a` is updated; the output's
    buffer is not touched. -/
theorem sound_kernel4_mid (c : Dev nD) (E : Set ℕ) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x128 .f32) (harg3 : arg3.IsWhole) (arg4 : Memref sig .tc .vmem S512x128 .f32) (harg4 : arg4.IsWhole)
    (hc0 : ¬cond4_0 i) (hc1 : ¬cond4_1 i)
    (x : Vec F S2000x128 .f32) (ids : Vec F S2000x1 .i32) (o a : Vec F S512x128 .f32)
    (K : PUnit → sProp 𝕄) :
    iprop(owns (c : Thread nD τ) arg1 fullShare x ∗ owns (c : Thread nD τ) arg2 fullShare ids ∗ owns (c : Thread nD τ) arg3 fullShare o
        ∗ owns (c : Thread nD τ) arg4 fullShare a
        ∗ (iprop(owns (c : Thread nD τ) arg1 fullShare x ∗ owns (c : Thread nD τ) arg2 fullShare ids ∗ owns (c : Thread nD τ) arg3 fullShare o
            ∗ owns (c : Thread nD τ) arg4 fullShare (k4_pay2 ids a x)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store_whole _ _ zeros2, readAt_whole _ _ zeros2, readAt_whole _ _ zeros2, readAt_whole _ _ zeros2]

set_option maxHeartbeats 4000000 in
/-- The kernel body at the last grid point: the accumulator at `a` is updated and then copied whole into the output's
    buffer, which is handed over at anything. -/
theorem sound_kernel4_last (c : Dev nD) (E : Set ℕ) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x128 .f32) (harg3 : arg3.IsWhole) (arg4 : Memref sig .tc .vmem S512x128 .f32) (harg4 : arg4.IsWhole)
    (hc0 : ¬cond4_0 i) (hc1 : cond4_1 i)
    (x : Vec F S2000x128 .f32) (ids : Vec F S2000x1 .i32) (a : Vec F S512x128 .f32)
    (K : PUnit → sProp 𝕄) :
    iprop(owns (c : Thread nD τ) arg1 fullShare x ∗ owns (c : Thread nD τ) arg2 fullShare ids ∗ (∃ d, owns (c : Thread nD τ) arg3 fullShare d)
        ∗ owns (c : Thread nD τ) arg4 fullShare a
        ∗ (iprop(owns (c : Thread nD τ) arg1 fullShare x ∗ owns (c : Thread nD τ) arg2 fullShare ids ∗ owns (c : Thread nD τ) arg3 fullShare (k4_pay2 ids a x)
            ∗ owns (c : Thread nD τ) arg4 fullShare (k4_pay2 ids a x)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_store_whole _ _ zeros2, View.readCov_unit_zero _ zeros2, readAt_whole _ _ zeros2, readAt_whole _ _ zeros2,
      readAt_whole _ _ zeros2]
  iexists _; isplitr
  swap; · iexact H3
  ipureintro
  sl_unfold_words
  rw [read_store_whole _ _ zeros2, readAt_whole _ _ zeros2, readAt_whole _ _ zeros2, readAt_whole _ _ zeros2]

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator scratch, as the body is handed it. -/
abbrev scM4 : Memref sig .tc .vmem S512x128 .f32 := Memref.whole cc4_scratch0

/-- What the accumulator holds after the body at position `n`: at the first point the update of the cleared
    accumulator, afterwards the update of what the point before left. -/
def acc4 (c : Dev nD) : (n : ℕ) → n < cfg4.N → Vec F S512x128 .f32
  | 0, hn => k4_pay2 (iblk4 V c 1 ⟨0, hn⟩) (k4_pay1 (F := F)) (iblk4 V c 0 ⟨0, hn⟩)
  | n + 1, hn => k4_pay2 (iblk4 V c 1 ⟨n + 1, hn⟩) (acc4 c n (Nat.lt_of_succ_lt hn)) (iblk4 V c 0 ⟨n + 1, hn⟩)

/-- The region's invariant before position `n`: before the first point what the launch hands the kernel (every scoped
    buffer at anything, the generator register); afterwards the accumulator at what the point before left, the other
    scoped buffers at anything, the generator register. -/
def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-! ## The inputs' buffers before the body -/

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The accumulator point by point, and the invariant -/

/-- The accumulator after the first point: the update of the cleared accumulator. -/
theorem acc4_first (c : Dev nD) (t : Fin cfg4.N) (h0 : t.val = 0) :
    acc4 V c t.val t.isLt = k4_pay2 (iblk4 V c 1 t) (k4_pay1 (F := F)) (iblk4 V c 0 t) := by
  obtain ⟨n, hn⟩ := t
  cases n with
  | zero => rfl
  | succ n => exact absurd h0 (Nat.succ_ne_zero n)

/-- The accumulator after a later point: the update of what the point before left. -/
theorem acc4_step (c : Dev nD) (t : Fin cfg4.N) (h0 : t.val ≠ 0) :
    acc4 V c t.val t.isLt
      = k4_pay2 (iblk4 V c 1 t) (acc4 V c (t.val - 1) (Nat.lt_of_le_of_lt (Nat.sub_le _ _) t.isLt)) (iblk4 V c 0 t) := by
  obtain ⟨n, hn⟩ := t
  cases n with
  | zero => exact absurd rfl h0
  | succ n => rfl

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

/-- Before a point that is not the first: the accumulator at what the point before left. -/
theorem PhiS4_pos (c : Dev nD) (n : ℕ) (h : n ≤ cfg4.N) (hz : n ≠ 0) :
    PhiS4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the launch hands the region, with the accumulator split out of the scoped buffers as a memref owned at some
    contents. -/
theorem PhiA4_eq (c : Dev nD) :
    (Pipeline.ΦA spec4 c : sProp 𝕄)
      = iprop(((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the output's buffer as it was found where the window is idle, at the accumulator where it is
    written back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' memrefs hold their blocks. At the first point the invariant hands over the
    accumulator at anything and the first case's triple applies; at a later point it hands it over at what the point
    before left, and the middle or the last case's triple applies. The invariant takes the accumulator back at this
    point's contents; the other scoped buffers, the generator register and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 25 := lt_of_lt_of_eq t.isLt (show cfg4.N = 25 from N_4)
  by_cases h0 : t.val = 0
  · have h1 : ¬t.val = 24 := by omega
    rw [Dat.leavesExact_idle (dat4 V c) 2 t (idleAt4_2 t (fun h => h1 ((hcond4_1 t).mp h))) (noFlush4_2 t (fun h => h1 ((hcond4_1 t).mp h)))]
    rw [acc4_first V c t h0, PhiS4_castSucc V c t, PhiS4_zero V c _ _ h0, PhiA4_eq]
    iintro ⟨⟨⟨HS, HR⟩, Hg⟩, Ho, ⟨%d0, H0⟩, ⟨%d1, H1⟩, ⟨%d2, H2⟩⟩
    iapply (sound_kernel4_first c Set.univ _ _ _ _ _ _ _ _ _ ((hcond4_0 t).mpr h0) (fun h => h1 ((hcond4_1 t).mp h))
      (iblk4 V c 0 t) (iblk4 V c 1 t) ((dat4 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · rw [acc4_step V c t h0, PhiS4_castSucc V c t, PhiS4_pos V c _ _ h0]
    by_cases h1 : t.val = 24
    · rw [show (dat4 V c).leavesExact 2 t = owns (c : Thread nD τ) (st4_2 t) fullShare ((dat4 V c).after 2 t) from by
        unfold Dat.leavesExact; rw [liveAt4_2 t ((hcond4_1 t).mpr h1)], after4_2, acc4_step V c t h0]
      iintro ⟨⟨HS, HR, Hg⟩, Ho, ⟨%d0, H0⟩, ⟨%d1, H1⟩, ⟨%d2, H2⟩⟩
      iapply (sound_kernel4_last c Set.univ _ _ _ _ _ _ _ _ _ (fun h => h0 ((hcond4_0 t).mp h)) ((hcond4_1 t).mpr h1)
        (iblk4 V c 0 t) (iblk4 V c 1 t) (acc4 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      iintro ⟨⟨HS, HR, Hg⟩, Ho, ⟨%d0, H0⟩, ⟨%d1, H1⟩, ⟨%d2, H2⟩⟩
      iapply (sound_kernel4_mid c Set.univ _ _ _ _ _ _ _ _ _ (fun h => h0 ((hcond4_0 t).mp h)) (fun h => h1 ((hcond4_1 t).mp h))
        (iblk4 V c 0 t) (iblk4 V c 1 t) ((dat4 V c).before 2 t d2) (acc4 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA (U := UR sig nD τ) (Val := Elt F) spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives back what the launch handed over: the accumulator's contents are forgotten. -/
theorem hout4 (c : Dev nD) : (dat4 V c).Φ (Fin.last cfg4.N) ⊢ Pipeline.ΦA (U := UR sig nD τ) (Val := Elt F) spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), PhiA4_eq]
  iintro ⟨HS, HR, Hg⟩
  isplitl [HS HR]
  · isplitl [HS]
    · iexists _; iexact HS
    iexact HR
  iexact Hg

end Cert.Kernel.Hand

end
-- ==== Proof.KB.Run.lean ====
/-
  The run of the whole program: @main is five kernel regions among five stretches of host operations.  The buffer
  contents at each boundary are folded from the launch memory: a host stretch applies its operations; a region leaves
  its input arrays as entered and its output array at what the write-backs of its grid points leave, every other buffer
  untouched.  Each region is entered from "every unscoped buffer at the boundary's contents, the generator register at
  some state, nothing owed" and left in the same form at the next boundary's contents; the launch theorem for a list of
  such segments then says every weakly fair execution terminates with every unscoped buffer at the last boundary's
  contents.  From that: the argument arrays end as launched (no stretch and no region writes one), and the result array
  holds what the last region's write-back leaves.
-/
import proofs.«421570_j62362925138436_1_alg».proof.Proof.Gen.Kernel.Launch
import proofs.«421570_j62362925138436_1_alg».proof.Proof.Gen.Kernel.Skeleton
import proofs.«421570_j62362925138436_1_alg».proof.Proof.Gen.Kernel.Points
import proofs.«421570_j62362925138436_1_alg».proof.Proof.KB.Mlp0
import proofs.«421570_j62362925138436_1_alg».proof.Proof.KB.Mlp1
import proofs.«421570_j62362925138436_1_alg».proof.Proof.KB.Mlp2
import proofs.«421570_j62362925138436_1_alg».proof.Proof.KB.Mlp3
import proofs.«421570_j62362925138436_1_alg».proof.Proof.KB.Pool
import proofs.«421570_j62362925138436_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wv0 : Dev nD → Valuation τ sig (Elt F) := fun c b => (s₀ m ρ).mem ((c : Dev nD), b)

/-- After host stretch 0 (region 0's entry). -/
abbrev Wv1 : Dev nD → Valuation τ sig (Elt F) := fun c => StableHlo.after hostOps0 (Wv0 m ρ c)
/-- The same read at the TensorCore's references. -/
abbrev Vr1 : (c : Dev nD) → (b : Ref sig .tc) → Buf (Elt F) ((c : Thread nD τ).loc b) := fun c b => Wv1 m ρ c b
/-- At region 0's exit: its arrays at what the pipeline leaves, every other buffer as entered. -/
def Wv2 (c : Dev nD) : Valuation τ sig (Elt F) :=
  Pipeline.withArrays spec0 c (Wv1 m ρ c) fun w => (dat0 (Vr1 m ρ) c).arrAt w cfg0.N
theorem Wv2_arr (c : Dev nD) (w : Fin cfg0.W) :
    Wv2 m ρ c (Proc.devRef .tc (Pipeline.arrRef spec0 w)) = (dat0 (Vr1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vr2 : (c : Dev nD) → (b : Ref sig .tc) → Buf (Elt F) ((c : Thread nD τ).loc b) := fun c b => Wv2 m ρ c b
theorem hF0 (c : Dev nD) (w : Fin cfg0.W) : (dat0 (Vr1 m ρ) c).arrAt w cfg0.N = Vr2 m ρ c (Pipeline.arrRef spec0 w) :=
  (Wv2_arr m ρ c w).symm
theorem hrest0 (c : Dev nD) : ∀ b, b ∉ Finset.univ.image (Pipeline.arrRef spec0) → Vr2 m ρ c b = Vr1 m ρ c b :=
  fun b hb => Wv2_of_ne m ρ c b fun w e => hb (Finset.mem_image.mpr ⟨w, Finset.mem_univ _, e⟩)

/-- After host stretch 1 (region 1's entry). -/
abbrev Wv3 : Dev nD → Valuation τ sig (Elt F) := fun c => StableHlo.after hostOps1 (Wv2 m ρ c)
/-- The same read at the TensorCore's references. -/
abbrev Vr3 : (c : Dev nD) → (b : Ref sig .tc) → Buf (Elt F) ((c : Thread nD τ).loc b) := fun c b => Wv3 m ρ c b
/-- At region 1's exit: its arrays at what the pipeline leaves, every other buffer as entered. -/
def Wv4 (c : Dev nD) : Valuation τ sig (Elt F) :=
  Pipeline.withArrays spec1 c (Wv3 m ρ c) fun w => (dat1 (Vr3 m ρ) c).arrAt w cfg1.N
theorem Wv4_arr (c : Dev nD) (w : Fin cfg1.W) :
    Wv4 m ρ c (Proc.devRef .tc (Pipeline.arrRef spec1 w)) = (dat1 (Vr3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Vr4 : (c : Dev nD) → (b : Ref sig .tc) → Buf (Elt F) ((c : Thread nD τ).loc b) := fun c b => Wv4 m ρ c b
theorem hF1 (c : Dev nD) (w : Fin cfg1.W) : (dat1 (Vr3 m ρ) c).arrAt w cfg1.N = Vr4 m ρ c (Pipeline.arrRef spec1 w) :=
  (Wv4_arr m ρ c w).symm
theorem hrest1 (c : Dev nD) : ∀ b, b ∉ Finset.univ.image (Pipeline.arrRef spec1) → Vr4 m ρ c b = Vr3 m ρ c b :=
  fun b hb => Wv4_of_ne m ρ c b fun w e => hb (Finset.mem_image.mpr ⟨w, Finset.mem_univ _, e⟩)

/-- After host stretch 2 (region 2's entry). -/
abbrev Wv5 : Dev nD → Valuation τ sig (Elt F) := fun c => StableHlo.after hostOps2 (Wv4 m ρ c)
/-- The same read at the TensorCore's references. -/
abbrev Vr5 : (c : Dev nD) → (b : Ref sig .tc) → Buf (Elt F) ((c : Thread nD τ).loc b) := fun c b => Wv5 m ρ c b
/-- At region 2's exit: its arrays at what the pipeline leaves, every other buffer as entered. -/
def Wv6 (c : Dev nD) : Valuation τ sig (Elt F) :=
  Pipeline.withArrays spec2 c (Wv5 m ρ c) fun w => (dat2 (Vr5 m ρ) c).arrAt w cfg2.N
theorem Wv6_arr (c : Dev nD) (w : Fin cfg2.W) :
    Wv6 m ρ c (Proc.devRef .tc (Pipeline.arrRef spec2 w)) = (dat2 (Vr5 m ρ) c).arrAt w cfg2.N := by
  unfold Wv6; exact Pipeline.withArrays_arr spec2 launch2.win.arr_inj c _ _ w
theorem Wv6_of_ne (c : Dev nD) (b : Ref sig .tc) (hb : ∀ w, Pipeline.arrRef spec2 w ≠ b) :
    Wv6 m ρ c (Proc.devRef .tc b) = Wv5 m ρ c (Proc.devRef .tc b) := by
  unfold Wv6; exact Pipeline.withArrays_of_ne spec2 c _ _ b hb
abbrev Vr6 : (c : Dev nD) → (b : Ref sig .tc) → Buf (Elt F) ((c : Thread nD τ).loc b) := fun c b => Wv6 m ρ c b
theorem hF2 (c : Dev nD) (w : Fin cfg2.W) : (dat2 (Vr5 m ρ) c).arrAt w cfg2.N = Vr6 m ρ c (Pipeline.arrRef spec2 w) :=
  (Wv6_arr m ρ c w).symm
theorem hrest2 (c : Dev nD) : ∀ b, b ∉ Finset.univ.image (Pipeline.arrRef spec2) → Vr6 m ρ c b = Vr5 m ρ c b :=
  fun b hb => Wv6_of_ne m ρ c b fun w e => hb (Finset.mem_image.mpr ⟨w, Finset.mem_univ _, e⟩)

/-- After host stretch 3 (region 3's entry). -/
abbrev Wv7 : Dev nD → Valuation τ sig (Elt F) := fun c => StableHlo.after hostOps3 (Wv6 m ρ c)
/-- The same read at the TensorCore's references. -/
abbrev Vr7 : (c : Dev nD) → (b : Ref sig .tc) → Buf (Elt F) ((c : Thread nD τ).loc b) := fun c b => Wv7 m ρ c b
/-- At region 3's exit: its arrays at what the pipeline leaves, every other buffer as entered. -/
def Wv8 (c : Dev nD) : Valuation τ sig (Elt F) :=
  Pipeline.withArrays spec3 c (Wv7 m ρ c) fun w => (dat3 (Vr7 m ρ) c).arrAt w cfg3.N
theorem Wv8_arr (c : Dev nD) (w : Fin cfg3.W) :
    Wv8 m ρ c (Proc.devRef .tc (Pipeline.arrRef spec3 w)) = (dat3 (Vr7 m ρ) c).arrAt w cfg3.N := by
  unfold Wv8; exact Pipeline.withArrays_arr spec3 launch3.win.arr_inj c _ _ w
theorem Wv8_of_ne (c : Dev nD) (b : Ref sig .tc) (hb : ∀ w, Pipeline.arrRef spec3 w ≠ b) :
    Wv8 m ρ c (Proc.devRef .tc b) = Wv7 m ρ c (Proc.devRef .tc b) := by
  unfold Wv8; exact Pipeline.withArrays_of_ne spec3 c _ _ b hb
abbrev Vr8 : (c : Dev nD) → (b : Ref sig .tc) → Buf (Elt F) ((c : Thread nD τ).loc b) := fun c b => Wv8 m ρ c b
theorem hF3 (c : Dev nD) (w : Fin cfg3.W) : (dat3 (Vr7 m ρ) c).arrAt w cfg3.N = Vr8 m ρ c (Pipeline.arrRef spec3 w) :=
  (Wv8_arr m ρ c w).symm
theorem hrest3 (c : Dev nD) : ∀ b, b ∉ Finset.univ.image (Pipeline.arrRef spec3) → Vr8 m ρ c b = Vr7 m ρ c b :=
  fun b hb => Wv8_of_ne m ρ c b fun w e => hb (Finset.mem_image.mpr ⟨w, Finset.mem_univ _, e⟩)

/-- After host stretch 4 (region 4's entry). -/
abbrev Wv9 : Dev nD → Valuation τ sig (Elt F) := fun c => StableHlo.after hostOps4 (Wv8 m ρ c)
/-- The same read at the TensorCore's references. -/
abbrev Vr9 : (c : Dev nD) → (b : Ref sig .tc) → Buf (Elt F) ((c : Thread nD τ).loc b) := fun c b => Wv9 m ρ c b
/-- At region 4's exit: its arrays at what the pipeline leaves, every other buffer as entered. -/
def Wv10 (c : Dev nD) : Valuation τ sig (Elt F) :=
  Pipeline.withArrays spec4 c (Wv9 m ρ c) fun w => (dat4 (Vr9 m ρ) c).arrAt w cfg4.N
theorem Wv10_arr (c : Dev nD) (w : Fin cfg4.W) :
    Wv10 m ρ c (Proc.devRef .tc (Pipeline.arrRef spec4 w)) = (dat4 (Vr9 m ρ) c).arrAt w cfg4.N := by
  unfold Wv10; exact Pipeline.withArrays_arr spec4 launch4.win.arr_inj c _ _ w
theorem Wv10_of_ne (c : Dev nD) (b : Ref sig .tc) (hb : ∀ w, Pipeline.arrRef spec4 w ≠ b) :
    Wv10 m ρ c (Proc.devRef .tc b) = Wv9 m ρ c (Proc.devRef .tc b) := by
  unfold Wv10; exact Pipeline.withArrays_of_ne spec4 c _ _ b hb
abbrev Vr10 : (c : Dev nD) → (b : Ref sig .tc) → Buf (Elt F) ((c : Thread nD τ).loc b) := fun c b => Wv10 m ρ c b
theorem hF4 (c : Dev nD) (w : Fin cfg4.W) : (dat4 (Vr9 m ρ) c).arrAt w cfg4.N = Vr10 m ρ c (Pipeline.arrRef spec4 w) :=
  (Wv10_arr m ρ c w).symm
theorem hrest4 (c : Dev nD) : ∀ b, b ∉ Finset.univ.image (Pipeline.arrRef spec4) → Vr10 m ρ c b = Vr9 m ρ c b :=
  fun b hb => Wv10_of_ne m ρ c b fun w e => hb (Finset.mem_image.mpr ⟨w, Finset.mem_univ _, e⟩)

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
  | ⟨2, _⟩ => fun c => dat2 (Vr5 m ρ) c
  | ⟨3, _⟩ => fun c => dat3 (Vr7 m ρ) c
  | ⟨4, _⟩ => fun c => dat4 (Vr9 m ρ) c
abbrev 𝒱₀ : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and the core's dues, at nothing. -/
abbrev Rh (c : Dev nD) : sProp 𝕄 := iprop((∃ r, prngReg c r) ∗ ∃ W, owes (c : Thread nD τ) (0 : CellTallies nD τ sig Unit) W)
/-- A host stretch as a segment from the contents `W`, `Rh` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (Wv10 m ρ c) ∗ ∃ r, prngReg c r)

/-! ## The regions as segments -/

set_option backward.isDefEq.respectTransparency.types false in
/-- Region 0 over the thread state: entered from every unscoped buffer at boundary 1's contents, left at boundary 2's. -/
def reg0 : Pipeline.RegionSeg (pcfgs (F := F)) adm (pdats m ρ) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ Lh lvh 0 fun _ _ => rfl
  pre c := iprop(StableHlo.held (c : Thread nD τ) (Pipeline.ucRefs τ sig) (Wv1 m ρ c) ∗ Rh c)
  post c := iprop(StableHlo.held (c : Thread nD τ) (Pipeline.ucRefs τ sig) (Wv2 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary 4's. -/
def reg1 : Pipeline.RegionSeg (pcfgs (F := F)) adm (pdats m ρ) () defs₀ 𝒱₀ Lh lvh 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ Lh lvh 1 fun _ _ => rfl
  pre c := iprop(StableHlo.held (c : Thread nD τ) (Pipeline.ucRefs τ sig) (Wv3 m ρ c) ∗ Rh c)
  post c := iprop(StableHlo.held (c : Thread nD τ) (Pipeline.ucRefs τ sig) (Wv4 m ρ c) ∗ Rh c)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary 6's. -/
def reg2 : Pipeline.RegionSeg (pcfgs (F := F)) adm (pdats m ρ) () defs₀ 𝒱₀ Lh lvh 2 where
  win := launch2.win.to₀
  block_pos := launch2.block_pos
  stage_whole := launch2.stage_whole
  K := PEmpty
  osem k := k.elim
  ho := Pipeline.OwnSemFacts.none _
  hbody c := (body_obligation2 (Vr5 m ρ) c).loose
  hwaits := Pipeline.hwaits_of_owed_zero _ _ _ _ Lh lvh 2 fun _ _ => rfl
  pre c := iprop(StableHlo.held (c : Thread nD τ) (Pipeline.ucRefs τ sig) (Wv5 m ρ c) ∗ Rh c)
  post c := iprop(StableHlo.held (c : Thread nD τ) (Pipeline.ucRefs τ sig) (Wv6 m ρ c) ∗ Rh c)
  X c := iprop(∃ r, prngReg c r)
  Y c := iprop(∃ r, prngReg c r)
  Z c := Pipeline.unscopedRest (Ix := Unit) (Name := ℕ) (U := UR sig nD τ) (Lvl := ℕ) spec2 c (Vr5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr5 m ρ c) (Vr6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary 8's. -/
def reg3 : Pipeline.RegionSeg (pcfgs (F := F)) adm (pdats m ρ) () defs₀ 𝒱₀ Lh lvh 3 where
  win := launch3.win.to₀
  block_pos := launch3.block_pos
  stage_whole := launch3.stage_whole
  K := PEmpty
  osem k := k.elim
  ho := Pipeline.OwnSemFacts.none _
  hbody c := (body_obligation3 (Vr7 m ρ) c).loose
  hwaits := Pipeline.hwaits_of_owed_zero _ _ _ _ Lh lvh 3 fun _ _ => rfl
  pre c := iprop(StableHlo.held (c : Thread nD τ) (Pipeline.ucRefs τ sig) (Wv7 m ρ c) ∗ Rh c)
  post c := iprop(StableHlo.held (c : Thread nD τ) (Pipeline.ucRefs τ sig) (Wv8 m ρ c) ∗ Rh c)
  X c := iprop(∃ r, prngReg c r)
  Y c := iprop(∃ r, prngReg c r)
  Z c := Pipeline.unscopedRest (Ix := Unit) (Name := ℕ) (U := UR sig nD τ) (Lvl := ℕ) spec3 c (Vr7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr7 m ρ c) (Vr8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary 10's. -/
def reg4 : Pipeline.RegionSeg (pcfgs (F := F)) adm (pdats m ρ) () defs₀ 𝒱₀ Lh lvh 4 where
  win := launch4.win.to₀
  block_pos := launch4.block_pos
  stage_whole := launch4.stage_whole
  K := PEmpty
  osem k := k.elim
  ho := Pipeline.OwnSemFacts.none _
  hbody c := (body_obligation4 (Vr9 m ρ) c).loose
  hwaits := Pipeline.hwaits_of_owed_zero _ _ _ _ Lh lvh 4 fun _ _ => rfl
  pre c := iprop(StableHlo.held (c : Thread nD τ) (Pipeline.ucRefs τ sig) (Wv9 m ρ c) ∗ Rh c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vr9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (Vr9 m ρ) c).Φ 0 from rfl]
    refine .trans ?_ (hin4 (Vr9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (Vr9 m ρ) c).Φ (Fin.last cfg4.N) from rfl]
    refine (hout4 (Vr9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr9 m ρ c) (Vr10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m ρ) () defs₀ 𝒱₀ Lh lvh) :=
  [ .host (hseg hostOps0 hostOps0_sub hostOps0_fresh (Wv0 m ρ)),
    .region (reg0 m ρ),
    .host (hseg hostOps1 hostOps1_sub hostOps1_fresh (Wv2 m ρ)),
    .region (reg1 m ρ),
    .host (hseg hostOps2 hostOps2_sub hostOps2_fresh (Wv4 m ρ)),
    .region (reg2 m ρ),
    .host (hseg hostOps3 hostOps3_sub hostOps3_fresh (Wv6 m ρ)),
    .region (reg3 m ρ),
    .host (hseg hostOps4 hostOps4_sub hostOps4_fresh (Wv8 m ρ)),
    .region (reg4 m ρ) ]

/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv10 m ρ c b) :=
  Pipeline.θ_run_regions_kit (pcfgs (F := F)) adm (pdats m ρ) () cellOf_inj emb₁ defs₀ 𝒱₀ Lh lvh m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rh c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv10 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv10 m ρ c) s')
      isplitl [Hh] <;> iassumption)
    (hQ := fun s h => h)

/-! ## What each segment leaves unchanged -/

/-- Host stretch 0 changes only the references its operations write. -/
theorem Wv1_keep (c : Dev nD) (b : Ref sig .tc) (hb : b ∉ hostOps0_W) :
    Wv1 m ρ c (Proc.devRef .tc b) = Wv0 m ρ c (Proc.devRef .tc b) :=
  StableHlo.after_of_writes_sub hostOps0 _ hostOps0_writes hb
/-- Region 0 changes only its output array: an input array is handed back as entered, any other buffer is not touched. -/
theorem Wv2_keep (c : Dev nD) (b : Ref sig .tc) (hb : b ≠ main_v24) :
    Wv2 m ρ c (Proc.devRef .tc b) = Wv1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv2_arr m ρ c w).trans (((dat0 (Vr1 m ρ) c).arrAt_in w hw _).trans (A_eq0 (Vr1 m ρ) c w))
  · exact Wv2_of_ne m ρ c b (fun w e => h ⟨w, e⟩)

/-- Host stretch 1 changes only the references its operations write. -/
theorem Wv3_keep (c : Dev nD) (b : Ref sig .tc) (hb : b ∉ hostOps1_W) :
    Wv3 m ρ c (Proc.devRef .tc b) = Wv2 m ρ c (Proc.devRef .tc b) :=
  StableHlo.after_of_writes_sub hostOps1 _ hostOps1_writes hb
/-- Region 1 changes only its output array: an input array is handed back as entered, any other buffer is not touched. -/
theorem Wv4_keep (c : Dev nD) (b : Ref sig .tc) (hb : b ≠ main_v45) :
    Wv4 m ρ c (Proc.devRef .tc b) = Wv3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv4_arr m ρ c w).trans (((dat1 (Vr3 m ρ) c).arrAt_in w hw _).trans (A_eq1 (Vr3 m ρ) c w))
  · exact Wv4_of_ne m ρ c b (fun w e => h ⟨w, e⟩)

/-- Host stretch 2 changes only the references its operations write. -/
theorem Wv5_keep (c : Dev nD) (b : Ref sig .tc) (hb : b ∉ hostOps2_W) :
    Wv5 m ρ c (Proc.devRef .tc b) = Wv4 m ρ c (Proc.devRef .tc b) :=
  StableHlo.after_of_writes_sub hostOps2 _ hostOps2_writes hb
/-- Region 2 changes only its output array: an input array is handed back as entered, any other buffer is not touched. -/
theorem Wv6_keep (c : Dev nD) (b : Ref sig .tc) (hb : b ≠ main_v66) :
    Wv6 m ρ c (Proc.devRef .tc b) = Wv5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv6_arr m ρ c w).trans (((dat2 (Vr5 m ρ) c).arrAt_in w hw _).trans (A_eq2 (Vr5 m ρ) c w))
  · exact Wv6_of_ne m ρ c b (fun w e => h ⟨w, e⟩)

/-- Host stretch 3 changes only the references its operations write. -/
theorem Wv7_keep (c : Dev nD) (b : Ref sig .tc) (hb : b ∉ hostOps3_W) :
    Wv7 m ρ c (Proc.devRef .tc b) = Wv6 m ρ c (Proc.devRef .tc b) :=
  StableHlo.after_of_writes_sub hostOps3 _ hostOps3_writes hb
/-- Region 3 changes only its output array: an input array is handed back as entered, any other buffer is not touched. -/
theorem Wv8_keep (c : Dev nD) (b : Ref sig .tc) (hb : b ≠ main_v87) :
    Wv8 m ρ c (Proc.devRef .tc b) = Wv7 m ρ c (Proc.devRef .tc b) := by
  by_cases h : ∃ w, Pipeline.arrRef spec3 w = b
  · obtain ⟨w, rfl⟩ := h
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv8_arr m ρ c w).trans (((dat3 (Vr7 m ρ) c).arrAt_in w hw _).trans (A_eq3 (Vr7 m ρ) c w))
  · exact Wv8_of_ne m ρ c b (fun w e => h ⟨w, e⟩)

/-- Host stretch 4 changes only the references its operations write. -/
theorem Wv9_keep (c : Dev nD) (b : Ref sig .tc) (hb : b ∉ hostOps4_W) :
    Wv9 m ρ c (Proc.devRef .tc b) = Wv8 m ρ c (Proc.devRef .tc b) :=
  StableHlo.after_of_writes_sub hostOps4 _ hostOps4_writes hb
/-- Region 4 changes only its output array: an input array is handed back as entered, any other buffer is not touched. -/
theorem Wv10_keep (c : Dev nD) (b : Ref sig .tc) (hb : b ≠ main_v89) :
    Wv10 m ρ c (Proc.devRef .tc b) = Wv9 m ρ c (Proc.devRef .tc b) := by
  by_cases h : ∃ w, Pipeline.arrRef spec4 w = b
  · obtain ⟨w, rfl⟩ := h
    have hw : (cfg4.win w).isOut = false := by
      match w with
      | ⟨0, _⟩ => rfl
      | ⟨1, _⟩ => rfl
      | ⟨2, _⟩ => exact absurd rfl hb
    exact (Wv10_arr m ρ c w).trans (((dat4 (Vr9 m ρ) c).arrAt_in w hw _).trans (A_eq4 (Vr9 m ρ) c w))
  · exact Wv10_of_ne m ρ c b (fun w e => h ⟨w, e⟩)

/-! ## The arguments end as launched, the result is what the last region leaves -/
theorem Wv10_main_arg0 (c : Dev nD) : Wv10 m ρ c (Proc.devRef .tc main_arg0) = m ((c : Thread nD τ).loc main_arg0) :=
  (Wv10_keep m ρ c main_arg0 (by decide)).trans <| (Wv9_keep m ρ c main_arg0 (by decide)).trans <| (Wv8_keep m ρ c main_arg0 (by decide)).trans <| (Wv7_keep m ρ c main_arg0 (by decide)).trans <| (Wv6_keep m ρ c main_arg0 (by decide)).trans <| (Wv5_keep m ρ c main_arg0 (by decide)).trans <| (Wv4_keep m ρ c main_arg0 (by decide)).trans <| (Wv3_keep m ρ c main_arg0 (by decide)).trans <| (Wv2_keep m ρ c main_arg0 (by decide)).trans <| (Wv1_keep m ρ c main_arg0 (by decide)).trans <| rfl
theorem Wv10_main_arg1 (c : Dev nD) : Wv10 m ρ c (Proc.devRef .tc main_arg1) = m ((c : Thread nD τ).loc main_arg1) :=
  (Wv10_keep m ρ c main_arg1 (by decide)).trans <| (Wv9_keep m ρ c main_arg1 (by decide)).trans <| (Wv8_keep m ρ c main_arg1 (by decide)).trans <| (Wv7_keep m ρ c main_arg1 (by decide)).trans <| (Wv6_keep m ρ c main_arg1 (by decide)).trans <| (Wv5_keep m ρ c main_arg1 (by decide)).trans <| (Wv4_keep m ρ c main_arg1 (by decide)).trans <| (Wv3_keep m ρ c main_arg1 (by decide)).trans <| (Wv2_keep m ρ c main_arg1 (by decide)).trans <| (Wv1_keep m ρ c main_arg1 (by decide)).trans <| rfl
theorem Wv10_main_arg2 (c : Dev nD) : Wv10 m ρ c (Proc.devRef .tc main_arg2) = m ((c : Thread nD τ).loc main_arg2) :=
  (Wv10_keep m ρ c main_arg2 (by decide)).trans <| (Wv9_keep m ρ c main_arg2 (by decide)).trans <| (Wv8_keep m ρ c main_arg2 (by decide)).trans <| (Wv7_keep m ρ c main_arg2 (by decide)).trans <| (Wv6_keep m ρ c main_arg2 (by decide)).trans <| (Wv5_keep m ρ c main_arg2 (by decide)).trans <| (Wv4_keep m ρ c main_arg2 (by decide)).trans <| (Wv3_keep m ρ c main_arg2 (by decide)).trans <| (Wv2_keep m ρ c main_arg2 (by decide)).trans <| (Wv1_keep m ρ c main_arg2 (by decide)).trans <| rfl
theorem Wv10_main_arg3 (c : Dev nD) : Wv10 m ρ c (Proc.devRef .tc main_arg3) = m ((c : Thread nD τ).loc main_arg3) :=
  (Wv10_keep m ρ c main_arg3 (by decide)).trans <| (Wv9_keep m ρ c main_arg3 (by decide)).trans <| (Wv8_keep m ρ c main_arg3 (by decide)).trans <| (Wv7_keep m ρ c main_arg3 (by decide)).trans <| (Wv6_keep m ρ c main_arg3 (by decide)).trans <| (Wv5_keep m ρ c main_arg3 (by decide)).trans <| (Wv4_keep m ρ c main_arg3 (by decide)).trans <| (Wv3_keep m ρ c main_arg3 (by decide)).trans <| (Wv2_keep m ρ c main_arg3 (by decide)).trans <| (Wv1_keep m ρ c main_arg3 (by decide)).trans <| rfl
theorem Wv10_main_arg4 (c : Dev nD) : Wv10 m ρ c (Proc.devRef .tc main_arg4) = m ((c : Thread nD τ).loc main_arg4) :=
  (Wv10_keep m ρ c main_arg4 (by decide)).trans <| (Wv9_keep m ρ c main_arg4 (by decide)).trans <| (Wv8_keep m ρ c main_arg4 (by decide)).trans <| (Wv7_keep m ρ c main_arg4 (by decide)).trans <| (Wv6_keep m ρ c main_arg4 (by decide)).trans <| (Wv5_keep m ρ c main_arg4 (by decide)).trans <| (Wv4_keep m ρ c main_arg4 (by decide)).trans <| (Wv3_keep m ρ c main_arg4 (by decide)).trans <| (Wv2_keep m ρ c main_arg4 (by decide)).trans <| (Wv1_keep m ρ c main_arg4 (by decide)).trans <| rfl
theorem Wv10_main_arg5 (c : Dev nD) : Wv10 m ρ c (Proc.devRef .tc main_arg5) = m ((c : Thread nD τ).loc main_arg5) :=
  (Wv10_keep m ρ c main_arg5 (by decide)).trans <| (Wv9_keep m ρ c main_arg5 (by decide)).trans <| (Wv8_keep m ρ c main_arg5 (by decide)).trans <| (Wv7_keep m ρ c main_arg5 (by decide)).trans <| (Wv6_keep m ρ c main_arg5 (by decide)).trans <| (Wv5_keep m ρ c main_arg5 (by decide)).trans <| (Wv4_keep m ρ c main_arg5 (by decide)).trans <| (Wv3_keep m ρ c main_arg5 (by decide)).trans <| (Wv2_keep m ρ c main_arg5 (by decide)).trans <| (Wv1_keep m ρ c main_arg5 (by decide)).trans <| rfl
theorem Wv10_main_arg6 (c : Dev nD) : Wv10 m ρ c (Proc.devRef .tc main_arg6) = m ((c : Thread nD τ).loc main_arg6) :=
  (Wv10_keep m ρ c main_arg6 (by decide)).trans <| (Wv9_keep m ρ c main_arg6 (by decide)).trans <| (Wv8_keep m ρ c main_arg6 (by decide)).trans <| (Wv7_keep m ρ c main_arg6 (by decide)).trans <| (Wv6_keep m ρ c main_arg6 (by decide)).trans <| (Wv5_keep m ρ c main_arg6 (by decide)).trans <| (Wv4_keep m ρ c main_arg6 (by decide)).trans <| (Wv3_keep m ρ c main_arg6 (by decide)).trans <| (Wv2_keep m ρ c main_arg6 (by decide)).trans <| (Wv1_keep m ρ c main_arg6 (by decide)).trans <| rfl

/-- The result array at the end is what the pool region's write-back leaves. -/
theorem Wv10_main_v89 (c : Dev nD) : Wv10 m ρ c (Proc.devRef .tc main_v89) = (dat4 (Vr9 m ρ) c).arrAt 2 cfg4.N :=
  Wv10_arr m ρ c 2

/-- Every weakly fair execution of @main terminates, nothing faulting, with the result array at what the pool region
    leaves and every argument array as launched. -/
theorem run_value : θ_run defs (onTc (τ := τ) (main (F := F))) ⟨m, fun _ => 0, ρ⟩ (fun r => ∀ c : Dev nD,
      r.2.mem ((c.tc : Thread nD τ).loc main_v89) = (dat4 (Vr9 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v89 (by decide))).trans (Wv10_main_v89 m ρ c),
     (h c _ (mem_uc main_arg0 (by decide))).trans (Wv10_main_arg0 m ρ c),
     (h c _ (mem_uc main_arg1 (by decide))).trans (Wv10_main_arg1 m ρ c),
     (h c _ (mem_uc main_arg2 (by decide))).trans (Wv10_main_arg2 m ρ c),
     (h c _ (mem_uc main_arg3 (by decide))).trans (Wv10_main_arg3 m ρ c),
     (h c _ (mem_uc main_arg4 (by decide))).trans (Wv10_main_arg4 m ρ c),
     (h c _ (mem_uc main_arg5 (by decide))).trans (Wv10_main_arg5 m ρ c),
     (h c _ (mem_uc main_arg6 (by decide))).trans (Wv10_main_arg6 m ρ c)⟩) (run_all m ρ)

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.Kernel.Hand

end
-- ==== Proof.KI.Mlp0.lean ====
/-
  Region 0 of @main, the first GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.KernelIdeal.Launch
import proofs.«421570_j62362925138436_1_alg».proof.Proof.Gen.KernelIdeal.Skeleton
import proofs.«421570_j62362925138436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_A : Rect S5000x128 := Rect.unit (s := S5000x128) ![0, 0] S5000x128.size inb_S5000x128_S5000x128_0_0
abbrev r0_W : Rect S128x128 := Rect.unit (s := S128x128) ![0, 0] S128x128.size inb_S128x128_S128x128_0_0
abbrev r0_B : Rect S1x128 := Rect.unit (s := S1x128) ![0, 0] S1x128.size inb_S1x128_S1x128_0_0

/-! ## What the body leaves in the output window's buffer -/

/-- The output block after the body: the MLP payload of the six input blocks, as the one whole-buffer store. -/
def out0_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r0_A, k0_pay1 (View.ld x0 r0_A) (View.ld x1 r0_A) (View.ld x2 r0_W) (View.ld x3 r0_B) (View.ld x4 r0_W) (View.ld x5 r0_B)⟩]

/-- The one store covers the buffer. -/
theorem cover0_6 (p0 : Vec F S5000x128 .f32) (y : S5000x128.Idx) :
    ∃ pc ∈ ([⟨r0_A, p0⟩] : List (View.Piece (Elt F) S5000x128 .f32)), y ∈ pc.1.set :=
  View.cover_of_tiled [⟨r0_A, p0⟩] S5000x128.size (by rfl) y

/-! ## The body's triple -/

set_option maxHeartbeats 4000000 in
/-- The kernel body on whole staging memrefs: the inputs' at contents `x0 … x5`, the output's at anything; it runs to
    the continuation with the inputs as they were and the output at `out0_6` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at the MLP payload of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Mlp1.lean ====
/-
  Region 1 of @main, the second GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.KernelIdeal.Launch
import proofs.«421570_j62362925138436_1_alg».proof.Proof.Gen.KernelIdeal.Skeleton
import proofs.«421570_j62362925138436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_A : Rect S5000x128 := Rect.unit (s := S5000x128) ![0, 0] S5000x128.size inb_S5000x128_S5000x128_0_0
abbrev r1_W : Rect S128x128 := Rect.unit (s := S128x128) ![0, 0] S128x128.size inb_S128x128_S128x128_0_0
abbrev r1_B : Rect S1x128 := Rect.unit (s := S1x128) ![0, 0] S1x128.size inb_S1x128_S1x128_0_0

/-! ## What the body leaves in the output window's buffer -/

/-- The output block after the body: the MLP payload of the six input blocks, as the one whole-buffer store. -/
def out1_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r1_A, k1_pay1 (View.ld x0 r1_A) (View.ld x1 r1_A) (View.ld x2 r1_W) (View.ld x3 r1_B) (View.ld x4 r1_W) (View.ld x5 r1_B)⟩]

/-- The one store covers the buffer. -/
theorem cover1_6 (p0 : Vec F S5000x128 .f32) (y : S5000x128.Idx) :
    ∃ pc ∈ ([⟨r1_A, p0⟩] : List (View.Piece (Elt F) S5000x128 .f32)), y ∈ pc.1.set :=
  View.cover_of_tiled [⟨r1_A, p0⟩] S5000x128.size (by rfl) y

/-! ## The body's triple -/

set_option maxHeartbeats 4000000 in
/-- The kernel body on whole staging memrefs: the inputs' at contents `x0 … x5`, the output's at anything; it runs to
    the continuation with the inputs as they were and the output at `out1_6` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at the MLP payload of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mlp2.lean ====
/-
  Region 2 of @main, the third GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.KernelIdeal.Launch
import proofs.«421570_j62362925138436_1_alg».proof.Proof.Gen.KernelIdeal.Skeleton
import proofs.«421570_j62362925138436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/

abbrev r2_A : Rect S5000x128 := Rect.unit (s := S5000x128) ![0, 0] S5000x128.size inb_S5000x128_S5000x128_0_0
abbrev r2_W : Rect S128x128 := Rect.unit (s := S128x128) ![0, 0] S128x128.size inb_S128x128_S128x128_0_0
abbrev r2_B : Rect S1x128 := Rect.unit (s := S1x128) ![0, 0] S1x128.size inb_S1x128_S1x128_0_0

/-! ## What the body leaves in the output window's buffer -/

/-- The output block after the body: the MLP payload of the six input blocks, as the one whole-buffer store. -/
def out2_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r2_A, k2_pay1 (View.ld x0 r2_A) (View.ld x1 r2_A) (View.ld x2 r2_W) (View.ld x3 r2_B) (View.ld x4 r2_W) (View.ld x5 r2_B)⟩]

/-- The one store covers the buffer. -/
theorem cover2_6 (p0 : Vec F S5000x128 .f32) (y : S5000x128.Idx) :
    ∃ pc ∈ ([⟨r2_A, p0⟩] : List (View.Piece (Elt F) S5000x128 .f32)), y ∈ pc.1.set :=
  View.cover_of_tiled [⟨r2_A, p0⟩] S5000x128.size (by rfl) y

/-! ## The body's triple -/

set_option maxHeartbeats 4000000 in
/-- The kernel body on whole staging memrefs: the inputs' at contents `x0 … x5`, the output's at anything; it runs to
    the continuation with the inputs as they were and the output at `out2_6` of them. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them; after the body at point `t` each
    input's buffer at its block and the output's at the MLP payload of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the kernel's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Mlp3.lean ====
/-
  Region 3 of @main, the fourth GIN layer's MLP kernel, at the buffer contents `V` the region is entered with.
  The body loads its six input blocks whole (the node features and the aggregated neighbour features, 5000 rows
  of 128; the two weight matrices; the two bias rows), computes  relu((x + agg)·W1 + b1)·W2 + b2  as one pure
  payload, and stores it whole into the output block.  So after the body the output's staging buffer holds that
  payload of the six input blocks, every input's buffer still holds its block, and nothing else is touched.
-/
import proofs.«421570_j62362925138436_1_alg».proof.Proof.Gen.KernelIdeal.Launch
import proofs.«421570_j62362925138436_1_alg».proof.Proof.Gen.KernelIdeal.Skeleton
import proofs.«421570_j62362925138436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data
    whose array is the entry contents and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole buffer -/

abbrev r3_A : Rect S5000x128 := Rect.unit (s := S5000x128) ![0, 0] S5000x128.size inb_S5000x128_S5000x128_0_0
abbrev r3_W : Rect S128x128 := Rect.unit (s := S128x128) ![0, 0] S128x128.size inb_S128x128_S128x128_0_0
abbrev r3_B : Rect S1x128 := Rect.unit (s := S1x128) ![0, 0] S1x128.size inb_S1x128_S1x128_0_0

/-! ## What the body leaves in the output window's buffer -/

/-- The output block after the body: the MLP payload of the six input blocks, as the one whole-buffer store. -/
def out3_6 (x0 x1 : Vec F S5000x128 .f32) (x2 : Vec F S128x128 .f32) (x3 : Vec F S1x128 .f32) (x4 : Vec F S128x128 .f32) (x5 : Vec F S1x128 .f32) :
    Vec F S5000x128 .f32 :=
  View.canon [⟨r3_A, k3_pay1 (View.ld x0 r3_A) (View.ld x1 r3_A) (View.ld x2 r3_W) (View.ld x3 r3_B) (View.ld x4 r3_W) (View.ld x5 r3_B)⟩]

/-- The one store covers the buffer. -/
theorem cover3_6 (p0 : Vec F S5000x128 .f32) (y : S5000x128.Idx) :
    ∃ pc ∈ ([⟨r3_A, p0⟩] : List (View.Piece (Elt F) S5000x128 .f32)), y ∈ pc.1.set :=
  View.cover_of_tiled [⟨r3_A, p0⟩] S5000x128.size (by rfl) y

/-! ## The body's triple -/

set_option maxHeartbeats 4000000 in
/-- The kernel body on whole staging memrefs: the inputs' at contents `x0 … x5`, the output's at anything; it runs to
    the continuation with the inputs as they were and the output at `out3_6` of them. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__gin_mlp_kernel i arg1 harg1 arg2 harg2 arg3 harg3 arg4 harg4 arg5 harg5 arg6 harg6 arg7 harg7) K := by
  simp only [cc3__gin_mlp_kernel_eq_skeleton]; unfold cc3__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and the output's at the MLP payload of the input blocks; the invariant is the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the kernel's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Pool.lean ====
/-
  Region 4 of @main, the global add pool, at the buffer contents `V` the region is entered with.
  The grid has 25 points; at point t the body sees rows 2000·t … 2000·t+1999 of the node features and of the
  graph ids.  It keeps a 512×128 accumulator in a scratch buffer across the points: cleared at the first point,
  then at every point increased by  onehotᵀ · x  (onehot[n, g] = 1 when node n's graph id is g); at the last
  point the accumulator is copied into the output block, which is written back only there.
-/
import proofs.«421570_j62362925138436_1_alg».proof.Proof.Gen.KernelIdeal.Launch
import proofs.«421570_j62362925138436_1_alg».proof.Proof.Gen.KernelIdeal.Skeleton
import proofs.«421570_j62362925138436_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditionals, from the grid coordinate -/

/-- The condition of the body's first conditional, as the kernel computes it from the grid coordinate. -/
abbrev cond4_0 (i : grid4.Coords) : Prop :=
  (Scalar.cmpi .ne (Scalar.extui (Scalar.cmpi .eq (BitVec.ofNat 32 (i 0).val) 0#32) : BitVec 32) 0#32 : BitVec 1) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the body's second conditional. -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle, and where the output is written back -/

/-- The two inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- Away from the last point the output window is idle: the body stores nothing into it, -/
theorem idleAt4_2 : ∀ t : Fin cfg4.N, ¬cond4_1 (grid4.coords t) → cfg4.idle 2 (grid4.coords t) = true :=
  (by decide +kernel : ∀ t : Fin grid4.N, ¬cond4_1 (grid4.coords t) → cfg4.idle 2 (grid4.coords t) = true)
/-- and the pipeline does not write its block back. -/
theorem noFlush4_2 : ∀ t : Fin cfg4.N, ¬cond4_1 (grid4.coords t) → (cfg4.win 2).flush t = false :=
  (by decide +kernel : ∀ t : Fin grid4.N, ¬cond4_1 (grid4.coords t) → win4_2.flush t = false)
/-- At the last point the body stores into it. -/
theorem liveAt4_2 : ∀ t : Fin cfg4.N, cond4_1 (grid4.coords t) → cfg4.idle 2 (grid4.coords t) = false :=
  (by decide +kernel : ∀ t : Fin grid4.N, cond4_1 (grid4.coords t) → cfg4.idle 2 (grid4.coords t) = false)

/-! ## Whole-buffer loads and stores -/

/-- The zero offsets of a rank-2 access, however spelt. -/
theorem zeros2 : (![0, 0] : Fin 2 → ℕ) = fun _ => 0 := by funext a; fin_cases a <;> rfl

/-- A load of the whole buffer reads what the memref reads. -/
theorem readAt_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz inb]

/-- After a store of the whole buffer the memref reads the payload, whatever was stored before. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (P : S.Idx → Elt F e)
    (L : List (View.Piece (Elt F) S e)) :
    v.read (Elt F) (v.writes (Elt F) f (⟨Rect.unit off S.size inb, P⟩ :: L)) = P := by
  rw [View.read_writes_eq_canon v f _ (fun y => ⟨_, List.mem_cons.mpr (Or.inl rfl), View.mem_set_unit_zero hz inb y⟩),
    View.canon_cons_unit_zero hz inb P L]

/-! ## The body's triple, one per control case

Every load and store takes its whole buffer, so after a store the buffer reads as the stored payload and a load reads
the buffer's contents: the accumulator after the body is the update payload of the graph ids, the accumulator before
(cleared first, at the first point) and the features. -/

set_option maxHeartbeats 4000000 in
/-- The kernel body at the first grid point, on whole memrefs: the features and the graph ids at `x` and `ids`, the output's
    buffer at `o`, the accumulator at anything. The accumulator is cleared and then updated; the output's buffer is not touched. -/
theorem sound_kernel4_first (c : Dev nD) (E : Set ℕ) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x128 .f32) (harg3 : arg3.IsWhole) (arg4 : Memref sig .tc .vmem S512x128 .f32) (harg4 : arg4.IsWhole)
    (hc0 : cond4_0 i) (hc1 : ¬cond4_1 i)
    (x : Vec F S2000x128 .f32) (ids : Vec F S2000x1 .i32) (o : Vec F S512x128 .f32)
    (K : PUnit → sProp 𝕄) :
    iprop(owns (c : Thread nD τ) arg1 fullShare x ∗ owns (c : Thread nD τ) arg2 fullShare ids ∗ owns (c : Thread nD τ) arg3 fullShare o
        ∗ (∃ d, owns (c : Thread nD τ) arg4 fullShare d)
        ∗ (iprop(owns (c : Thread nD τ) arg1 fullShare x ∗ owns (c : Thread nD τ) arg2 fullShare ids ∗ owns (c : Thread nD τ) arg3 fullShare o
            ∗ owns (c : Thread nD τ) arg4 fullShare (k4_pay2 ids (k4_pay1 (F := F)) x)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_store_whole _ _ zeros2, View.readCov_unit_zero _ zeros2, readAt_whole _ _ zeros2, readAt_whole _ _ zeros2]

set_option maxHeartbeats 4000000 in
/-- The kernel body at a grid point that is neither the first nor the last: the accumulator at `a` is updated; the output's
    buffer is not touched. -/
theorem sound_kernel4_mid (c : Dev nD) (E : Set ℕ) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x128 .f32) (harg3 : arg3.IsWhole) (arg4 : Memref sig .tc .vmem S512x128 .f32) (harg4 : arg4.IsWhole)
    (hc0 : ¬cond4_0 i) (hc1 : ¬cond4_1 i)
    (x : Vec F S2000x128 .f32) (ids : Vec F S2000x1 .i32) (o a : Vec F S512x128 .f32)
    (K : PUnit → sProp 𝕄) :
    iprop(owns (c : Thread nD τ) arg1 fullShare x ∗ owns (c : Thread nD τ) arg2 fullShare ids ∗ owns (c : Thread nD τ) arg3 fullShare o
        ∗ owns (c : Thread nD τ) arg4 fullShare a
        ∗ (iprop(owns (c : Thread nD τ) arg1 fullShare x ∗ owns (c : Thread nD τ) arg2 fullShare ids ∗ owns (c : Thread nD τ) arg3 fullShare o
            ∗ owns (c : Thread nD τ) arg4 fullShare (k4_pay2 ids a x)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store_whole _ _ zeros2, readAt_whole _ _ zeros2, readAt_whole _ _ zeros2, readAt_whole _ _ zeros2]

set_option maxHeartbeats 4000000 in
/-- The kernel body at the last grid point: the accumulator at `a` is updated and then copied whole into the output's
    buffer, which is handed over at anything. -/
theorem sound_kernel4_last (c : Dev nD) (E : Set ℕ) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x128 .f32) (harg3 : arg3.IsWhole) (arg4 : Memref sig .tc .vmem S512x128 .f32) (harg4 : arg4.IsWhole)
    (hc0 : ¬cond4_0 i) (hc1 : cond4_1 i)
    (x : Vec F S2000x128 .f32) (ids : Vec F S2000x1 .i32) (a : Vec F S512x128 .f32)
    (K : PUnit → sProp 𝕄) :
    iprop(owns (c : Thread nD τ) arg1 fullShare x ∗ owns (c : Thread nD τ) arg2 fullShare ids ∗ (∃ d, owns (c : Thread nD τ) arg3 fullShare d)
        ∗ owns (c : Thread nD τ) arg4 fullShare a
        ∗ (iprop(owns (c : Thread nD τ) arg1 fullShare x ∗ owns (c : Thread nD τ) arg2 fullShare ids ∗ owns (c : Thread nD τ) arg3 fullShare (k4_pay2 ids a x)
            ∗ owns (c : Thread nD τ) arg4 fullShare (k4_pay2 ids a x)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_store_whole _ _ zeros2, View.readCov_unit_zero _ zeros2, readAt_whole _ _ zeros2, readAt_whole _ _ zeros2,
      readAt_whole _ _ zeros2]
  iexists _; isplitr
  swap; · iexact H3
  ipureintro
  sl_unfold_words
  rw [read_store_whole _ _ zeros2, readAt_whole _ _ zeros2, readAt_whole _ _ zeros2, readAt_whole _ _ zeros2]

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator scratch, as the body is handed it. -/
abbrev scM4 : Memref sig .tc .vmem S512x128 .f32 := Memref.whole cc4_scratch0

/-- What the accumulator holds after the body at position `n`: at the first point the update of the cleared
    accumulator, afterwards the update of what the point before left. -/
def acc4 (c : Dev nD) : (n : ℕ) → n < cfg4.N → Vec F S512x128 .f32
  | 0, hn => k4_pay2 (iblk4 V c 1 ⟨0, hn⟩) (k4_pay1 (F := F)) (iblk4 V c 0 ⟨0, hn⟩)
  | n + 1, hn => k4_pay2 (iblk4 V c 1 ⟨n + 1, hn⟩) (acc4 c n (Nat.lt_of_succ_lt hn)) (iblk4 V c 0 ⟨n + 1, hn⟩)

/-- The region's invariant before position `n`: before the first point what the launch hands the kernel (every scoped
    buffer at anything, the generator register); afterwards the accumulator at what the point before left, the other
    scoped buffers at anything, the generator register. -/
def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

/-! ## The inputs' buffers before the body -/

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The accumulator point by point, and the invariant -/

/-- The accumulator after the first point: the update of the cleared accumulator. -/
theorem acc4_first (c : Dev nD) (t : Fin cfg4.N) (h0 : t.val = 0) :
    acc4 V c t.val t.isLt = k4_pay2 (iblk4 V c 1 t) (k4_pay1 (F := F)) (iblk4 V c 0 t) := by
  obtain ⟨n, hn⟩ := t
  cases n with
  | zero => rfl
  | succ n => exact absurd h0 (Nat.succ_ne_zero n)

/-- The accumulator after a later point: the update of what the point before left. -/
theorem acc4_step (c : Dev nD) (t : Fin cfg4.N) (h0 : t.val ≠ 0) :
    acc4 V c t.val t.isLt
      = k4_pay2 (iblk4 V c 1 t) (acc4 V c (t.val - 1) (Nat.lt_of_le_of_lt (Nat.sub_le _ _) t.isLt)) (iblk4 V c 0 t) := by
  obtain ⟨n, hn⟩ := t
  cases n with
  | zero => exact absurd rfl h0
  | succ n => rfl

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

/-- Before a point that is not the first: the accumulator at what the point before left. -/
theorem PhiS4_pos (c : Dev nD) (n : ℕ) (h : n ≤ cfg4.N) (hz : n ≠ 0) :
    PhiS4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the launch hands the region, with the accumulator split out of the scoped buffers as a memref owned at some
    contents. -/
theorem PhiA4_eq (c : Dev nD) :
    (Pipeline.ΦA spec4 c : sProp 𝕄)
      = iprop(((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the output's buffer as it was found where the window is idle, at the accumulator where it is
    written back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' memrefs hold their blocks. At the first point the invariant hands over the
    accumulator at anything and the first case's triple applies; at a later point it hands it over at what the point
    before left, and the middle or the last case's triple applies. The invariant takes the accumulator back at this
    point's contents; the other scoped buffers, the generator register and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 25 := lt_of_lt_of_eq t.isLt (show cfg4.N = 25 from N_4)
  by_cases h0 : t.val = 0
  · have h1 : ¬t.val = 24 := by omega
    rw [Dat.leavesExact_idle (dat4 V c) 2 t (idleAt4_2 t (fun h => h1 ((hcond4_1 t).mp h))) (noFlush4_2 t (fun h => h1 ((hcond4_1 t).mp h)))]
    rw [acc4_first V c t h0, PhiS4_castSucc V c t, PhiS4_zero V c _ _ h0, PhiA4_eq]
    iintro ⟨⟨⟨HS, HR⟩, Hg⟩, Ho, ⟨%d0, H0⟩, ⟨%d1, H1⟩, ⟨%d2, H2⟩⟩
    iapply (sound_kernel4_first c Set.univ _ _ _ _ _ _ _ _ _ ((hcond4_0 t).mpr h0) (fun h => h1 ((hcond4_1 t).mp h))
      (iblk4 V c 0 t) (iblk4 V c 1 t) ((dat4 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · rw [acc4_step V c t h0, PhiS4_castSucc V c t, PhiS4_pos V c _ _ h0]
    by_cases h1 : t.val = 24
    · rw [show (dat4 V c).leavesExact 2 t = owns (c : Thread nD τ) (st4_2 t) fullShare ((dat4 V c).after 2 t) from by
        unfold Dat.leavesExact; rw [liveAt4_2 t ((hcond4_1 t).mpr h1)], after4_2, acc4_step V c t h0]
      iintro ⟨⟨HS, HR, Hg⟩, Ho, ⟨%d0, H0⟩, ⟨%d1, H1⟩, ⟨%d2, H2⟩⟩
      iapply (sound_kernel4_last c Set.univ _ _ _ _ _ _ _ _ _ (fun h => h0 ((hcond4_0 t).mp h)) ((hcond4_1 t).mpr h1)
        (iblk4 V c 0 t) (iblk4 V c 1 t) (acc4 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      iintro ⟨⟨HS, HR, Hg⟩, Ho, ⟨%d0, H0⟩, ⟨%d1, H1⟩, ⟨%d2, H2⟩⟩
      iapply (sound_kernel4_mid c Set.univ _ _ _ _ _ _ _ _ _ (fun h => h0 ((hcond4_0 t).mp h)) (fun h => h1 ((hcond4_1 t).mp h))
        (iblk4 V c 0 t) (iblk4 V c 1 t) ((dat4 V c).before 2 t d2) (acc4 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA (U := UR sig nD τ) (Val := Elt F) spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives back what the launch handed over: the accumulator's contents are forgotten. -/
theorem hout4 (c : Dev nD) : (dat4 V c).Φ (Fin.last cfg4.N) ⊢ Pipeline.ΦA (U := UR sig nD τ) (Val := Elt F) spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), PhiA4_eq]
  iintro ⟨HS, HR, Hg⟩
  isplitl [HS HR]
  · isplitl [HS]
    · iexists _; iexact HS
    iexact HR
  iexact Hg

end Cert.KernelIdeal.Hand

end
-- ==== Proof.KI.Run.lean ====
/-
  The run of the whole program: @main is five kernel regions among five stretches of host operations.  The buffer
  contents at each boundary are folded from the launch memory: a host stretch applies its operations; a region leaves
  its input arrays as entered and its output array at what the write-backs of its grid points leave, every other buffer
  untouched.  Each region is entered from "every unscoped buffer at the boundary's contents, the generator register at
  some state, nothing owed" and left in the same form at the next boundary's contents; the launch theorem for a list of
  such segments then says every weakly fair execution terminates with every unscoped buffer at the last boundary's
  contents.  From that: the argument arrays end as launched (no stretch and no region writes one), and the result array
  holds what the last region's write-back leaves.
-/
import proofs.«421570_j62362925138436_1_alg».proof.Proof.Gen.KernelIdeal.Launch
import proofs.«421570_j62362925138436_1_alg».proof.Proof.Gen.KernelIdeal.Skeleton
import proofs.«421570_j62362925138436_1_alg».proof.Proof.Gen.KernelIdeal.Points
import proofs.«421570_j62362925138436_1_alg».proof.Proof.KI.Mlp0
import proofs.«421570_j62362925138436_1_alg».proof.Proof.KI.Mlp1
import proofs.«421570_j62362925138436_1_alg».proof.Proof.KI.Mlp2
import proofs.«421570_j62362925138436_1_alg».proof.Proof.KI.Mlp3
import proofs.«421570_j62362925138436_1_alg».proof.Proof.KI.Pool
import proofs.«421570_j62362925138436_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wv0 : Dev nD → Valuation τ sig (Elt F) := fun c b => (s₀ m ρ).mem ((c : Dev nD), b)

/-- After host stretch 0 (region 0's entry). -/
abbrev Wv1 : Dev nD → Valuation τ sig (Elt F) := fun c => StableHlo.after hostOps0 (Wv0 m ρ c)
/-- The same read at the TensorCore's references. -/
abbrev Vr1 : (c : Dev nD) → (b : Ref sig .tc) → Buf (Elt F) ((c : Thread nD τ).loc b) := fun c b => Wv1 m ρ c b
/-- At region 0's exit: its arrays at what the pipeline leaves, every other buffer as entered. -/
def Wv2 (c : Dev nD) : Valuation τ sig (Elt F) :=
  Pipeline.withArrays spec0 c (Wv1 m ρ c) fun w => (dat0 (Vr1 m ρ) c).arrAt w cfg0.N
theorem Wv2_arr (c : Dev nD) (w : Fin cfg0.W) :
    Wv2 m ρ c (Proc.devRef .tc (Pipeline.arrRef spec0 w)) = (dat0 (Vr1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vr2 : (c : Dev nD) → (b : Ref sig .tc) → Buf (Elt F) ((c : Thread nD τ).loc b) := fun c b => Wv2 m ρ c b
theorem hF0 (c : Dev nD) (w : Fin cfg0.W) : (dat0 (Vr1 m ρ) c).arrAt w cfg0.N = Vr2 m ρ c (Pipeline.arrRef spec0 w) :=
  (Wv2_arr m ρ c w).symm
theorem hrest0 (c : Dev nD) : ∀ b, b ∉ Finset.univ.image (Pipeline.arrRef spec0) → Vr2 m ρ c b = Vr1 m ρ c b :=
  fun b hb => Wv2_of_ne m ρ c b fun w e => hb (Finset.mem_image.mpr ⟨w, Finset.mem_univ _, e⟩)

/-- After host stretch 1 (region 1's entry). -/
abbrev Wv3 : Dev nD → Valuation τ sig (Elt F) := fun c => StableHlo.after hostOps1 (Wv2 m ρ c)
/-- The same read at the TensorCore's references. -/
abbrev Vr3 : (c : Dev nD) → (b : Ref sig .tc) → Buf (Elt F) ((c : Thread nD τ).loc b) := fun c b => Wv3 m ρ c b
/-- At region 1's exit: its arrays at what the pipeline leaves, every other buffer as entered. -/
def Wv4 (c : Dev nD) : Valuation τ sig (Elt F) :=
  Pipeline.withArrays spec1 c (Wv3 m ρ c) fun w => (dat1 (Vr3 m ρ) c).arrAt w cfg1.N
theorem Wv4_arr (c : Dev nD) (w : Fin cfg1.W) :
    Wv4 m ρ c (Proc.devRef .tc (Pipeline.arrRef spec1 w)) = (dat1 (Vr3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Vr4 : (c : Dev nD) → (b : Ref sig .tc) → Buf (Elt F) ((c : Thread nD τ).loc b) := fun c b => Wv4 m ρ c b
theorem hF1 (c : Dev nD) (w : Fin cfg1.W) : (dat1 (Vr3 m ρ) c).arrAt w cfg1.N = Vr4 m ρ c (Pipeline.arrRef spec1 w) :=
  (Wv4_arr m ρ c w).symm
theorem hrest1 (c : Dev nD) : ∀ b, b ∉ Finset.univ.image (Pipeline.arrRef spec1) → Vr4 m ρ c b = Vr3 m ρ c b :=
  fun b hb => Wv4_of_ne m ρ c b fun w e => hb (Finset.mem_image.mpr ⟨w, Finset.mem_univ _, e⟩)

/-- After host stretch 2 (region 2's entry). -/
abbrev Wv5 : Dev nD → Valuation τ sig (Elt F) := fun c => StableHlo.after hostOps2 (Wv4 m ρ c)
/-- The same read at the TensorCore's references. -/
abbrev Vr5 : (c : Dev nD) → (b : Ref sig .tc) → Buf (Elt F) ((c : Thread nD τ).loc b) := fun c b => Wv5 m ρ c b
/-- At region 2's exit: its arrays at what the pipeline leaves, every other buffer as entered. -/
def Wv6 (c : Dev nD) : Valuation τ sig (Elt F) :=
  Pipeline.withArrays spec2 c (Wv5 m ρ c) fun w => (dat2 (Vr5 m ρ) c).arrAt w cfg2.N
theorem Wv6_arr (c : Dev nD) (w : Fin cfg2.W) :
    Wv6 m ρ c (Proc.devRef .tc (Pipeline.arrRef spec2 w)) = (dat2 (Vr5 m ρ) c).arrAt w cfg2.N := by
  unfold Wv6; exact Pipeline.withArrays_arr spec2 launch2.win.arr_inj c _ _ w
theorem Wv6_of_ne (c : Dev nD) (b : Ref sig .tc) (hb : ∀ w, Pipeline.arrRef spec2 w ≠ b) :
    Wv6 m ρ c (Proc.devRef .tc b) = Wv5 m ρ c (Proc.devRef .tc b) := by
  unfold Wv6; exact Pipeline.withArrays_of_ne spec2 c _ _ b hb
abbrev Vr6 : (c : Dev nD) → (b : Ref sig .tc) → Buf (Elt F) ((c : Thread nD τ).loc b) := fun c b => Wv6 m ρ c b
theorem hF2 (c : Dev nD) (w : Fin cfg2.W) : (dat2 (Vr5 m ρ) c).arrAt w cfg2.N = Vr6 m ρ c (Pipeline.arrRef spec2 w) :=
  (Wv6_arr m ρ c w).symm
theorem hrest2 (c : Dev nD) : ∀ b, b ∉ Finset.univ.image (Pipeline.arrRef spec2) → Vr6 m ρ c b = Vr5 m ρ c b :=
  fun b hb => Wv6_of_ne m ρ c b fun w e => hb (Finset.mem_image.mpr ⟨w, Finset.mem_univ _, e⟩)

/-- After host stretch 3 (region 3's entry). -/
abbrev Wv7 : Dev nD → Valuation τ sig (Elt F) := fun c => StableHlo.after hostOps3 (Wv6 m ρ c)
/-- The same read at the TensorCore's references. -/
abbrev Vr7 : (c : Dev nD) → (b : Ref sig .tc) → Buf (Elt F) ((c : Thread nD τ).loc b) := fun c b => Wv7 m ρ c b
/-- At region 3's exit: its arrays at what the pipeline leaves, every other buffer as entered. -/
def Wv8 (c : Dev nD) : Valuation τ sig (Elt F) :=
  Pipeline.withArrays spec3 c (Wv7 m ρ c) fun w => (dat3 (Vr7 m ρ) c).arrAt w cfg3.N
theorem Wv8_arr (c : Dev nD) (w : Fin cfg3.W) :
    Wv8 m ρ c (Proc.devRef .tc (Pipeline.arrRef spec3 w)) = (dat3 (Vr7 m ρ) c).arrAt w cfg3.N := by
  unfold Wv8; exact Pipeline.withArrays_arr spec3 launch3.win.arr_inj c _ _ w
theorem Wv8_of_ne (c : Dev nD) (b : Ref sig .tc) (hb : ∀ w, Pipeline.arrRef spec3 w ≠ b) :
    Wv8 m ρ c (Proc.devRef .tc b) = Wv7 m ρ c (Proc.devRef .tc b) := by
  unfold Wv8; exact Pipeline.withArrays_of_ne spec3 c _ _ b hb
abbrev Vr8 : (c : Dev nD) → (b : Ref sig .tc) → Buf (Elt F) ((c : Thread nD τ).loc b) := fun c b => Wv8 m ρ c b
theorem hF3 (c : Dev nD) (w : Fin cfg3.W) : (dat3 (Vr7 m ρ) c).arrAt w cfg3.N = Vr8 m ρ c (Pipeline.arrRef spec3 w) :=
  (Wv8_arr m ρ c w).symm
theorem hrest3 (c : Dev nD) : ∀ b, b ∉ Finset.univ.image (Pipeline.arrRef spec3) → Vr8 m ρ c b = Vr7 m ρ c b :=
  fun b hb => Wv8_of_ne m ρ c b fun w e => hb (Finset.mem_image.mpr ⟨w, Finset.mem_univ _, e⟩)

/-- After host stretch 4 (region 4's entry). -/
abbrev Wv9 : Dev nD → Valuation τ sig (Elt F) := fun c => StableHlo.after hostOps4 (Wv8 m ρ c)
/-- The same read at the TensorCore's references. -/
abbrev Vr9 : (c : Dev nD) → (b : Ref sig .tc) → Buf (Elt F) ((c : Thread nD τ).loc b) := fun c b => Wv9 m ρ c b
/-- At region 4's exit: its arrays at what the pipeline leaves, every other buffer as entered. -/
def Wv10 (c : Dev nD) : Valuation τ sig (Elt F) :=
  Pipeline.withArrays spec4 c (Wv9 m ρ c) fun w => (dat4 (Vr9 m ρ) c).arrAt w cfg4.N
theorem Wv10_arr (c : Dev nD) (w : Fin cfg4.W) :
    Wv10 m ρ c (Proc.devRef .tc (Pipeline.arrRef spec4 w)) = (dat4 (Vr9 m ρ) c).arrAt w cfg4.N := by
  unfold Wv10; exact Pipeline.withArrays_arr spec4 launch4.win.arr_inj c _ _ w
theorem Wv10_of_ne (c : Dev nD) (b : Ref sig .tc) (hb : ∀ w, Pipeline.arrRef spec4 w ≠ b) :
    Wv10 m ρ c (Proc.devRef .tc b) = Wv9 m ρ c (Proc.devRef .tc b) := by
  unfold Wv10; exact Pipeline.withArrays_of_ne spec4 c _ _ b hb
abbrev Vr10 : (c : Dev nD) → (b : Ref sig .tc) → Buf (Elt F) ((c : Thread nD τ).loc b) := fun c b => Wv10 m ρ c b
theorem hF4 (c : Dev nD) (w : Fin cfg4.W) : (dat4 (Vr9 m ρ) c).arrAt w cfg4.N = Vr10 m ρ c (Pipeline.arrRef spec4 w) :=
  (Wv10_arr m ρ c w).symm
theorem hrest4 (c : Dev nD) : ∀ b, b ∉ Finset.univ.image (Pipeline.arrRef spec4) → Vr10 m ρ c b = Vr9 m ρ c b :=
  fun b hb => Wv10_of_ne m ρ c b fun w e => hb (Finset.mem_image.mpr ⟨w, Finset.mem_univ _, e⟩)

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr3 m ρ) c
  | ⟨2, _⟩ => fun c => dat2 (Vr5 m ρ) c
  | ⟨3, _⟩ => fun c => dat3 (Vr7 m ρ) c
  | ⟨4, _⟩ => fun c => dat4 (Vr9 m ρ) c
abbrev 𝒱₀ : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and the core's dues, at nothing. -/
abbrev Rh (c : Dev nD) : sProp 𝕄 := iprop((∃ r, prngReg c r) ∗ ∃ W, owes (c : Thread nD τ) (0 : CellTallies nD τ sig Unit) W)
/-- A host stretch as a segment from the contents `W`, `Rh` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (Wv10 m ρ c) ∗ ∃ r, prngReg c r)

/-! ## The regions as segments -/

set_option backward.isDefEq.respectTransparency.types false in
/-- Region 0 over the thread state: entered from every unscoped buffer at boundary 1's contents, left at boundary 2's. -/
def reg0 : Pipeline.RegionSeg (pcfgs (F := F)) adm (pdats m ρ) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ Lh lvh 0 fun _ _ => rfl
  pre c := iprop(StableHlo.held (c : Thread nD τ) (Pipeline.ucRefs τ sig) (Wv1 m ρ c) ∗ Rh c)
  post c := iprop(StableHlo.held (c : Thread nD τ) (Pipeline.ucRefs τ sig) (Wv2 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary 4's. -/
def reg1 : Pipeline.RegionSeg (pcfgs (F := F)) adm (pdats m ρ) () defs₀ 𝒱₀ Lh lvh 1 where
  win := launch1.win.to₀
  block_pos := launch1.block_pos
  stage_whole := launch1.stage_whole
  K := PEmpty
  osem k := k.elim
  ho := Pipeline.OwnSemFacts.none _
  hbody c := (body_obligation1 (Vr3 m ρ) c).loose
  hwaits := Pipeline.hwaits_of_owed_zero _ _ _ _ Lh lvh 1 fun _ _ => rfl
  pre c := iprop(StableHlo.held (c : Thread nD τ) (Pipeline.ucRefs τ sig) (Wv3 m ρ c) ∗ Rh c)
  post c := iprop(StableHlo.held (c : Thread nD τ) (Pipeline.ucRefs τ sig) (Wv4 m ρ c) ∗ Rh c)
  X c := iprop(∃ r, prngReg c r)
  Y c := iprop(∃ r, prngReg c r)
  Z c := Pipeline.unscopedRest (Ix := Unit) (Name := ℕ) (U := UR sig nD τ) (Lvl := ℕ) spec1 c (Vr3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr3 m ρ c) (Vr4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary 6's. -/
def reg2 : Pipeline.RegionSeg (pcfgs (F := F)) adm (pdats m ρ) () defs₀ 𝒱₀ Lh lvh 2 where
  win := launch2.win.to₀
  block_pos := launch2.block_pos
  stage_whole := launch2.stage_whole
  K := PEmpty
  osem k := k.elim
  ho := Pipeline.OwnSemFacts.none _
  hbody c := (body_obligation2 (Vr5 m ρ) c).loose
  hwaits := Pipeline.hwaits_of_owed_zero _ _ _ _ Lh lvh 2 fun _ _ => rfl
  pre c := iprop(StableHlo.held (c : Thread nD τ) (Pipeline.ucRefs τ sig) (Wv5 m ρ c) ∗ Rh c)
  post c := iprop(StableHlo.held (c : Thread nD τ) (Pipeline.ucRefs τ sig) (Wv6 m ρ c) ∗ Rh c)
  X c := iprop(∃ r, prngReg c r)
  Y c := iprop(∃ r, prngReg c r)
  Z c := Pipeline.unscopedRest (Ix := Unit) (Name := ℕ) (U := UR sig nD τ) (Lvl := ℕ) spec2 c (Vr5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr5 m ρ c) (Vr6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary 8's. -/
def reg3 : Pipeline.RegionSeg (pcfgs (F := F)) adm (pdats m ρ) () defs₀ 𝒱₀ Lh lvh 3 where
  win := launch3.win.to₀
  block_pos := launch3.block_pos
  stage_whole := launch3.stage_whole
  K := PEmpty
  osem k := k.elim
  ho := Pipeline.OwnSemFacts.none _
  hbody c := (body_obligation3 (Vr7 m ρ) c).loose
  hwaits := Pipeline.hwaits_of_owed_zero _ _ _ _ Lh lvh 3 fun _ _ => rfl
  pre c := iprop(StableHlo.held (c : Thread nD τ) (Pipeline.ucRefs τ sig) (Wv7 m ρ c) ∗ Rh c)
  post c := iprop(StableHlo.held (c : Thread nD τ) (Pipeline.ucRefs τ sig) (Wv8 m ρ c) ∗ Rh c)
  X c := iprop(∃ r, prngReg c r)
  Y c := iprop(∃ r, prngReg c r)
  Z c := Pipeline.unscopedRest (Ix := Unit) (Name := ℕ) (U := UR sig nD τ) (Lvl := ℕ) spec3 c (Vr7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr7 m ρ c) (Vr8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary 10's. -/
def reg4 : Pipeline.RegionSeg (pcfgs (F := F)) adm (pdats m ρ) () defs₀ 𝒱₀ Lh lvh 4 where
  win := launch4.win.to₀
  block_pos := launch4.block_pos
  stage_whole := launch4.stage_whole
  K := PEmpty
  osem k := k.elim
  ho := Pipeline.OwnSemFacts.none _
  hbody c := (body_obligation4 (Vr9 m ρ) c).loose
  hwaits := Pipeline.hwaits_of_owed_zero _ _ _ _ Lh lvh 4 fun _ _ => rfl
  pre c := iprop(StableHlo.held (c : Thread nD τ) (Pipeline.ucRefs τ sig) (Wv9 m ρ c) ∗ Rh c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vr9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (Vr9 m ρ) c).Φ 0 from rfl]
    refine .trans ?_ (hin4 (Vr9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (Vr9 m ρ) c).Φ (Fin.last cfg4.N) from rfl]
    refine (hout4 (Vr9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr9 m ρ c) (Vr10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m ρ) () defs₀ 𝒱₀ Lh lvh) :=
  [ .host (hseg hostOps0 hostOps0_sub hostOps0_fresh (Wv0 m ρ)),
    .region (reg0 m ρ),
    .host (hseg hostOps1 hostOps1_sub hostOps1_fresh (Wv2 m ρ)),
    .region (reg1 m ρ),
    .host (hseg hostOps2 hostOps2_sub hostOps2_fresh (Wv4 m ρ)),
    .region (reg2 m ρ),
    .host (hseg hostOps3 hostOps3_sub hostOps3_fresh (Wv6 m ρ)),
    .region (reg3 m ρ),
    .host (hseg hostOps4 hostOps4_sub hostOps4_fresh (Wv8 m ρ)),
    .region (reg4 m ρ) ]

/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv10 m ρ c b) :=
  Pipeline.θ_run_regions_kit (pcfgs (F := F)) adm (pdats m ρ) () cellOf_inj emb₁ defs₀ 𝒱₀ Lh lvh m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rh c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv10 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv10 m ρ c) s')
      isplitl [Hh] <;> iassumption)
    (hQ := fun s h => h)

/-! ## What each segment leaves unchanged -/

/-- Host stretch 0 changes only the references its operations write. -/
theorem Wv1_keep (c : Dev nD) (b : Ref sig .tc) (hb : b ∉ hostOps0_W) :
    Wv1 m ρ c (Proc.devRef .tc b) = Wv0 m ρ c (Proc.devRef .tc b) :=
  StableHlo.after_of_writes_sub hostOps0 _ hostOps0_writes hb
/-- Region 0 changes only its output array: an input array is handed back as entered, any other buffer is not touched. -/
theorem Wv2_keep (c : Dev nD) (b : Ref sig .tc) (hb : b ≠ main_v24) :
    Wv2 m ρ c (Proc.devRef .tc b) = Wv1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv2_arr m ρ c w).trans (((dat0 (Vr1 m ρ) c).arrAt_in w hw _).trans (A_eq0 (Vr1 m ρ) c w))
  · exact Wv2_of_ne m ρ c b (fun w e => h ⟨w, e⟩)

/-- Host stretch 1 changes only the references its operations write. -/
theorem Wv3_keep (c : Dev nD) (b : Ref sig .tc) (hb : b ∉ hostOps1_W) :
    Wv3 m ρ c (Proc.devRef .tc b) = Wv2 m ρ c (Proc.devRef .tc b) :=
  StableHlo.after_of_writes_sub hostOps1 _ hostOps1_writes hb
/-- Region 1 changes only its output array: an input array is handed back as entered, any other buffer is not touched. -/
theorem Wv4_keep (c : Dev nD) (b : Ref sig .tc) (hb : b ≠ main_v45) :
    Wv4 m ρ c (Proc.devRef .tc b) = Wv3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv4_arr m ρ c w).trans (((dat1 (Vr3 m ρ) c).arrAt_in w hw _).trans (A_eq1 (Vr3 m ρ) c w))
  · exact Wv4_of_ne m ρ c b (fun w e => h ⟨w, e⟩)

/-- Host stretch 2 changes only the references its operations write. -/
theorem Wv5_keep (c : Dev nD) (b : Ref sig .tc) (hb : b ∉ hostOps2_W) :
    Wv5 m ρ c (Proc.devRef .tc b) = Wv4 m ρ c (Proc.devRef .tc b) :=
  StableHlo.after_of_writes_sub hostOps2 _ hostOps2_writes hb
/-- Region 2 changes only its output array: an input array is handed back as entered, any other buffer is not touched. -/
theorem Wv6_keep (c : Dev nD) (b : Ref sig .tc) (hb : b ≠ main_v66) :
    Wv6 m ρ c (Proc.devRef .tc b) = Wv5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv6_arr m ρ c w).trans (((dat2 (Vr5 m ρ) c).arrAt_in w hw _).trans (A_eq2 (Vr5 m ρ) c w))
  · exact Wv6_of_ne m ρ c b (fun w e => h ⟨w, e⟩)

/-- Host stretch 3 changes only the references its operations write. -/
theorem Wv7_keep (c : Dev nD) (b : Ref sig .tc) (hb : b ∉ hostOps3_W) :
    Wv7 m ρ c (Proc.devRef .tc b) = Wv6 m ρ c (Proc.devRef .tc b) :=
  StableHlo.after_of_writes_sub hostOps3 _ hostOps3_writes hb
/-- Region 3 changes only its output array: an input array is handed back as entered, any other buffer is not touched. -/
theorem Wv8_keep (c : Dev nD) (b : Ref sig .tc) (hb : b ≠ main_v87) :
    Wv8 m ρ c (Proc.devRef .tc b) = Wv7 m ρ c (Proc.devRef .tc b) := by
  by_cases h : ∃ w, Pipeline.arrRef spec3 w = b
  · obtain ⟨w, rfl⟩ := h
    have hw : (cfg3.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (Wv8_arr m ρ c w).trans (((dat3 (Vr7 m ρ) c).arrAt_in w hw _).trans (A_eq3 (Vr7 m ρ) c w))
  · exact Wv8_of_ne m ρ c b (fun w e => h ⟨w, e⟩)

/-- Host stretch 4 changes only the references its operations write. -/
theorem Wv9_keep (c : Dev nD) (b : Ref sig .tc) (hb : b ∉ hostOps4_W) :
    Wv9 m ρ c (Proc.devRef .tc b) = Wv8 m ρ c (Proc.devRef .tc b) :=
  StableHlo.after_of_writes_sub hostOps4 _ hostOps4_writes hb
/-- Region 4 changes only its output array: an input array is handed back as entered, any other buffer is not touched. -/
theorem Wv10_keep (c : Dev nD) (b : Ref sig .tc) (hb : b ≠ main_v89) :
    Wv10 m ρ c (Proc.devRef .tc b) = Wv9 m ρ c (Proc.devRef .tc b) := by
  by_cases h : ∃ w, Pipeline.arrRef spec4 w = b
  · obtain ⟨w, rfl⟩ := h
    have hw : (cfg4.win w).isOut = false := by
      match w with
      | ⟨0, _⟩ => rfl
      | ⟨1, _⟩ => rfl
      | ⟨2, _⟩ => exact absurd rfl hb
    exact (Wv10_arr m ρ c w).trans (((dat4 (Vr9 m ρ) c).arrAt_in w hw _).trans (A_eq4 (Vr9 m ρ) c w))
  · exact Wv10_of_ne m ρ c b (fun w e => h ⟨w, e⟩)

/-! ## The arguments end as launched, the result is what the last region leaves -/
theorem Wv10_main_arg0 (c : Dev nD) : Wv10 m ρ c (Proc.devRef .tc main_arg0) = m ((c : Thread nD τ).loc main_arg0) :=
  (Wv10_keep m ρ c main_arg0 (by decide)).trans <| (Wv9_keep m ρ c main_arg0 (by decide)).trans <| (Wv8_keep m ρ c main_arg0 (by decide)).trans <| (Wv7_keep m ρ c main_arg0 (by decide)).trans <| (Wv6_keep m ρ c main_arg0 (by decide)).trans <| (Wv5_keep m ρ c main_arg0 (by decide)).trans <| (Wv4_keep m ρ c main_arg0 (by decide)).trans <| (Wv3_keep m ρ c main_arg0 (by decide)).trans <| (Wv2_keep m ρ c main_arg0 (by decide)).trans <| (Wv1_keep m ρ c main_arg0 (by decide)).trans <| rfl
theorem Wv10_main_arg1 (c : Dev nD) : Wv10 m ρ c (Proc.devRef .tc main_arg1) = m ((c : Thread nD τ).loc main_arg1) :=
  (Wv10_keep m ρ c main_arg1 (by decide)).trans <| (Wv9_keep m ρ c main_arg1 (by decide)).trans <| (Wv8_keep m ρ c main_arg1 (by decide)).trans <| (Wv7_keep m ρ c main_arg1 (by decide)).trans <| (Wv6_keep m ρ c main_arg1 (by decide)).trans <| (Wv5_keep m ρ c main_arg1 (by decide)).trans <| (Wv4_keep m ρ c main_arg1 (by decide)).trans <| (Wv3_keep m ρ c main_arg1 (by decide)).trans <| (Wv2_keep m ρ c main_arg1 (by decide)).trans <| (Wv1_keep m ρ c main_arg1 (by decide)).trans <| rfl
theorem Wv10_main_arg2 (c : Dev nD) : Wv10 m ρ c (Proc.devRef .tc main_arg2) = m ((c : Thread nD τ).loc main_arg2) :=
  (Wv10_keep m ρ c main_arg2 (by decide)).trans <| (Wv9_keep m ρ c main_arg2 (by decide)).trans <| (Wv8_keep m ρ c main_arg2 (by decide)).trans <| (Wv7_keep m ρ c main_arg2 (by decide)).trans <| (Wv6_keep m ρ c main_arg2 (by decide)).trans <| (Wv5_keep m ρ c main_arg2 (by decide)).trans <| (Wv4_keep m ρ c main_arg2 (by decide)).trans <| (Wv3_keep m ρ c main_arg2 (by decide)).trans <| (Wv2_keep m ρ c main_arg2 (by decide)).trans <| (Wv1_keep m ρ c main_arg2 (by decide)).trans <| rfl
theorem Wv10_main_arg3 (c : Dev nD) : Wv10 m ρ c (Proc.devRef .tc main_arg3) = m ((c : Thread nD τ).loc main_arg3) :=
  (Wv10_keep m ρ c main_arg3 (by decide)).trans <| (Wv9_keep m ρ c main_arg3 (by decide)).trans <| (Wv8_keep m ρ c main_arg3 (by decide)).trans <| (Wv7_keep m ρ c main_arg3 (by decide)).trans <| (Wv6_keep m ρ c main_arg3 (by decide)).trans <| (Wv5_keep m ρ c main_arg3 (by decide)).trans <| (Wv4_keep m ρ c main_arg3 (by decide)).trans <| (Wv3_keep m ρ c main_arg3 (by decide)).trans <| (Wv2_keep m ρ c main_arg3 (by decide)).trans <| (Wv1_keep m ρ c main_arg3 (by decide)).trans <| rfl
theorem Wv10_main_arg4 (c : Dev nD) : Wv10 m ρ c (Proc.devRef .tc main_arg4) = m ((c : Thread nD τ).loc main_arg4) :=
  (Wv10_keep m ρ c main_arg4 (by decide)).trans <| (Wv9_keep m ρ c main_arg4 (by decide)).trans <| (Wv8_keep m ρ c main_arg4 (by decide)).trans <| (Wv7_keep m ρ c main_arg4 (by decide)).trans <| (Wv6_keep m ρ c main_arg4 (by decide)).trans <| (Wv5_keep m ρ c main_arg4 (by decide)).trans <| (Wv4_keep m ρ c main_arg4 (by decide)).trans <| (Wv3_keep m ρ c main_arg4 (by decide)).trans <| (Wv2_keep m ρ c main_arg4 (by decide)).trans <| (Wv1_keep m ρ c main_arg4 (by decide)).trans <| rfl
theorem Wv10_main_arg5 (c : Dev nD) : Wv10 m ρ c (Proc.devRef .tc main_arg5) = m ((c : Thread nD τ).loc main_arg5) :=
  (Wv10_keep m ρ c main_arg5 (by decide)).trans <| (Wv9_keep m ρ c main_arg5 (by decide)).trans <| (Wv8_keep m ρ c main_arg5 (by decide)).trans <| (Wv7_keep m ρ c main_arg5 (by decide)).trans <| (Wv6_keep m ρ c main_arg5 (by decide)).trans <| (Wv5_keep m ρ c main_arg5 (by decide)).trans <| (Wv4_keep m ρ c main_arg5 (by decide)).trans <| (Wv3_keep m ρ c main_arg5 (by decide)).trans <| (Wv2_keep m ρ c main_arg5 (by decide)).trans <| (Wv1_keep m ρ c main_arg5 (by decide)).trans <| rfl
theorem Wv10_main_arg6 (c : Dev nD) : Wv10 m ρ c (Proc.devRef .tc main_arg6) = m ((c : Thread nD τ).loc main_arg6) :=
  (Wv10_keep m ρ c main_arg6 (by decide)).trans <| (Wv9_keep m ρ c main_arg6 (by decide)).trans <| (Wv8_keep m ρ c main_arg6 (by decide)).trans <| (Wv7_keep m ρ c main_arg6 (by decide)).trans <| (Wv6_keep m ρ c main_arg6 (by decide)).trans <| (Wv5_keep m ρ c main_arg6 (by decide)).trans <| (Wv4_keep m ρ c main_arg6 (by decide)).trans <| (Wv3_keep m ρ c main_arg6 (by decide)).trans <| (Wv2_keep m ρ c main_arg6 (by decide)).trans <| (Wv1_keep m ρ c main_arg6 (by decide)).trans <| rfl

/-- The result array at the end is what the pool region's write-back leaves. -/
theorem Wv10_main_v89 (c : Dev nD) : Wv10 m ρ c (Proc.devRef .tc main_v89) = (dat4 (Vr9 m ρ) c).arrAt 2 cfg4.N :=
  Wv10_arr m ρ c 2

/-- Every weakly fair execution of @main terminates, nothing faulting, with the result array at what the pool region
    leaves and every argument array as launched. -/
theorem run_value : θ_run defs (onTc (τ := τ) (main (F := F))) ⟨m, fun _ => 0, ρ⟩ (fun r => ∀ c : Dev nD,
      r.2.mem ((c.tc : Thread nD τ).loc main_v89) = (dat4 (Vr9 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v89 (by decide))).trans (Wv10_main_v89 m ρ c),
     (h c _ (mem_uc main_arg0 (by decide))).trans (Wv10_main_arg0 m ρ c),
     (h c _ (mem_uc main_arg1 (by decide))).trans (Wv10_main_arg1 m ρ c),
     (h c _ (mem_uc main_arg2 (by decide))).trans (Wv10_main_arg2 m ρ c),
     (h c _ (mem_uc main_arg3 (by decide))).trans (Wv10_main_arg3 m ρ c),
     (h c _ (mem_uc main_arg4 (by decide))).trans (Wv10_main_arg4 m ρ c),
     (h c _ (mem_uc main_arg5 (by decide))).trans (Wv10_main_arg5 m ρ c),
     (h c _ (mem_uc main_arg6 (by decide))).trans (Wv10_main_arg6 m ρ c)⟩) (run_all m ρ)

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.KernelIdeal.Hand

end
-- ==== Proof.Spec.lean ====
/-
  What the two programs compute, as functions of whole arrays over the extended reals, index by index.

  One GIN layer's node update:  out[n, j] = Σ_k relu( Σ_l (x[n, l] + agg[n, l]) · W1[l, k] + b1[k] ) · W2[k, j] + b2[j],
  the biases given as rows of shape 1×128.

  The global add pool:  out[g, j] = Σ_n [ graph id of node n is g ] · x[n, j]  over all 50000 nodes, the graph ids given as
  a column of 32-bit words; the bracket is 1 when the word is the number g and 0 otherwise, so a node whose id names no
  graph contributes nothing.
-/
import Idealize.ShloMosaic.PureOps.Ideal
import Idealize.ShloMosaic.Lib.ValueIdx

noncomputable section

open scoped BigOperators

namespace Cert.Spec

open Idealize.ShloMosaic Idealize.ShloMosaic.ValueIdx

/-- Nodes × features. -/
abbrev SN : Shape := ⟨2, ![50000, 128]⟩
/-- A weight matrix. -/
abbrev SW : Shape := ⟨2, ![128, 128]⟩
/-- A bias row. -/
abbrev SB : Shape := ⟨2, ![1, 128]⟩
/-- The graph ids as a column. -/
abbrev SI : Shape := ⟨2, ![50000, 1]⟩
/-- Graphs × features. -/
abbrev SG : Shape := ⟨2, ![512, 128]⟩

/-- The hidden activation of node `n`, unit `k`:  relu( Σ_l (x[n, l] + agg[n, l]) · W1[l, k] + b1[k] ). -/
def hidden (x agg : SN.Idx → EReal) (w1 : SW.Idx → EReal) (b1 : SB.Idx → EReal) (n : Fin 50000) (k : Fin 128) : EReal :=
  max ((∑ l : Fin 128, (x (ix2 n l) + agg (ix2 n l)) * w1 (ix2 l k)) + b1 (ix2 (0 : Fin 1) k)) 0

/-- One GIN layer's node update on the whole node array. -/
def mlpG (x agg : SN.Idx → EReal) (w1 : SW.Idx → EReal) (b1 : SB.Idx → EReal) (w2 : SW.Idx → EReal) (b2 : SB.Idx → EReal) :
    SN.Idx → EReal :=
  fun i => (∑ k : Fin 128, hidden x agg w1 b1 (i 0) k * w2 (ix2 k (i 1))) + b2 (ix2 (0 : Fin 1) (i 1))

/-- The global add pool on the whole node array. -/
def poolG (x : SN.Idx → EReal) (ids : SI.Idx → BitVec 32) : SG.Idx → EReal :=
  fun i => ∑ n : Fin 50000, if ids (ix2 n (0 : Fin 1)) = BitVec.ofNat 32 (i 0).val then x (ix2 n (i 1)) else 0

end Cert.Spec

end
-- ==== Proof.KI.MlpValue0.lean ====
/-
  The value of region 0, the first GIN layer's MLP kernel, at the ideal instance (floats are extended reals, every
  operation exact): after the ten grid points the output array holds, at row n and column j,

      Σ_k relu( Σ_l (x[n, l] + agg[n, l]) · W1[l, k] + b1[0, k] ) · W2[k, j] + b2[0, j],

  the specification's `mlpG` of the six input arrays as the region finds them.

  Three steps.  (1) The body's payload at an index: the pointwise operations read through; a block product into the zero
  block is the sum over the contracted coordinate of the products of the entries; a bias row broadcast down the rows reads
  the row; the zero word is the extended real 0.  (2) What grid point t writes back is rows 5000 t … 5000 t + 4999 of the
  specification: the node-feature and aggregated-feature blocks at t are those rows of their arrays, the weight and bias
  blocks are their whole arrays, and the output's block sits at the same rows.  (3) Row n lies in the block of point
  n / 5000, every point writes its block back, so the blocks cover the array and the array is the specification.
-/
import proofs.«421570_j62362925138436_1_alg».proof.Proof.KI.Mlp0
import proofs.«421570_j62362925138436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

namespace Mlp0

/-! ## The block product at an index -/

/-- The left operand's index at output index `j` and contraction position `k`: its row is `j`'s row, -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

/-- its column the contraction position. -/
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index there: its row is the contraction position, -/
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- its column `j`'s column. -/
theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- A 5000×128 by 128×128 block product into the zero block, at row `p` and column `q`: the sum over the contracted
    coordinate of the products of the entries. -/
theorem mm_apply (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_col _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_row _ _).trans hc
    | ⟨1, _⟩ => exact rhs_col _ _
  rw [hl, hr]

/-! ## The payload at an index -/

/-- The body's payload at row `p` and column `q` of the block: the second layer's row sum over the hidden units,
    each the rectified first layer's row sum plus its bias, plus the second bias. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 x0 x1 x2 x3 x4 x5 (ix2 p q)
      = (∑ k : Fin 128, max ((∑ l : Fin 128, (x0 (ix2 p l) + x1 (ix2 p l)) * x2 (ix2 l k)) + x3 (ix2 (0 : Fin 1) k)) 0
            * x4 (ix2 k q))
        + x5 (ix2 (0 : Fin 1) q) := by
  unfold k0_pay1
  simp only [shapeCast_self]
  rw [addf_apply, mm_apply, broadcastTo_1b_ab_apply]
  refine congrArg (· + x5 (ix2 (0 : Fin 1) q)) (Finset.sum_congr rfl fun k _ => ?_)
  rw [maximumf_apply, addf_apply, mm_apply, broadcastTo_1b_ab_apply, broadcast_apply]
  refine congrArg (· * x4 (ix2 k q)) ?_
  refine congrArg₂ max (congrArg (· + x3 (ix2 (0 : Fin 1) k)) (Finset.sum_congr rfl fun l _ => ?_)) ?_
  · rw [addf_apply]
  · show Ideal.ofBits .f32 0x00000000#32 = 0
    exact Ideal.ofBits_zero_f32

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The block index of every window at every grid point: the node features, the aggregated features and the output
    move down the rows with the point; the weights and the biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Two functions on a 5000×128 block that agree at every row and column are equal. -/
theorem blk_ext (f g : S5000x128.Idx → EReal) (h : ∀ (p : Fin 5000) (q : Fin 128), f (ix2 p q) = g (ix2 p q)) : f = g :=
  funext fun j => by rw [eq_ix2 j]; exact h _ _

/-- The node features' block at point `t`: rows `5000 t … 5000 t + 4999` of the array. -/
theorem blk_x (c : Dev nD) (t : Fin cfg0.N) (x : S5000x128.Idx) (k : Cert.Spec.SN.Idx)
    (h0 : (k 0).val = t.val * 5000 + (x 0).val) (h1 : (k 1).val = (x 1).val) :
    (iblk0 V c 0 t : Vec Ideal S5000x128 .f32) x = (V c (Pipeline.arrRef spec0 0) : Cert.Spec.SN.Idx → EReal) k := by
  obtain ⟨e0, e1, -⟩ := idx_facts t
  unfold iblk0
  rw [View.read_apply]
  refine congrArg (V c (Pipeline.arrRef spec0 0) : Cert.Spec.SN.Idx → EReal) (funext fun a => Fin.ext ?_)
  match a with
  | ⟨0, _⟩ => show win0_0.index t (0 : Fin 2) * 5000 + 1 * (x 0).val = (k 0).val; omega
  | ⟨1, _⟩ => show win0_0.index t (1 : Fin 2) * 128 + 1 * (x 1).val = (k 1).val; omega

/-- The aggregated features' block at point `t`: the same rows of its array. -/
theorem blk_agg (c : Dev nD) (t : Fin cfg0.N) (x : S5000x128.Idx) (k : Cert.Spec.SN.Idx)
    (h0 : (k 0).val = t.val * 5000 + (x 0).val) (h1 : (k 1).val = (x 1).val) :
    (iblk0 V c 1 t : Vec Ideal S5000x128 .f32) x = (V c (Pipeline.arrRef spec0 1) : Cert.Spec.SN.Idx → EReal) k := by
  obtain ⟨-, -, e0, e1, -⟩ := idx_facts t
  unfold iblk0
  rw [View.read_apply]
  refine congrArg (V c (Pipeline.arrRef spec0 1) : Cert.Spec.SN.Idx → EReal) (funext fun a => Fin.ext ?_)
  match a with
  | ⟨0, _⟩ => show win0_1.index t (0 : Fin 2) * 5000 + 1 * (x 0).val = (k 0).val; omega
  | ⟨1, _⟩ => show win0_1.index t (1 : Fin 2) * 128 + 1 * (x 1).val = (k 1).val; omega

/-- The first weight matrix's block at any point is the matrix. -/
theorem blk_w1 (c : Dev nD) (t : Fin cfg0.N) (x : S128x128.Idx) :
    (iblk0 V c 2 t : Vec Ideal S128x128 .f32) x = (V c (Pipeline.arrRef spec0 2) : Cert.Spec.SW.Idx → EReal) x := by
  obtain ⟨-, -, -, -, e0, e1, -⟩ := idx_facts t
  unfold iblk0
  rw [View.read_apply]
  refine congrArg (V c (Pipeline.arrRef spec0 2) : Cert.Spec.SW.Idx → EReal) (funext fun a => Fin.ext ?_)
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- The first bias row's block at any point is the row. -/
theorem blk_b1 (c : Dev nD) (t : Fin cfg0.N) (x : S1x128.Idx) :
    (iblk0 V c 3 t : Vec Ideal S1x128 .f32) x = (V c (Pipeline.arrRef spec0 3) : Cert.Spec.SB.Idx → EReal) x := by
  obtain ⟨-, -, -, -, -, -, e0, e1, -⟩ := idx_facts t
  unfold iblk0
  rw [View.read_apply]
  refine congrArg (V c (Pipeline.arrRef spec0 3) : Cert.Spec.SB.Idx → EReal) (funext fun a => Fin.ext ?_)
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- The second weight matrix's block at any point is the matrix. -/
theorem blk_w2 (c : Dev nD) (t : Fin cfg0.N) (x : S128x128.Idx) :
    (iblk0 V c 4 t : Vec Ideal S128x128 .f32) x = (V c (Pipeline.arrRef spec0 4) : Cert.Spec.SW.Idx → EReal) x := by
  obtain ⟨-, -, -, -, -, -, -, -, e0, e1, -⟩ := idx_facts t
  unfold iblk0
  rw [View.read_apply]
  refine congrArg (V c (Pipeline.arrRef spec0 4) : Cert.Spec.SW.Idx → EReal) (funext fun a => Fin.ext ?_)
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- The second bias row's block at any point is the row. -/
theorem blk_b2 (c : Dev nD) (t : Fin cfg0.N) (x : S1x128.Idx) :
    (iblk0 V c 5 t : Vec Ideal S1x128 .f32) x = (V c (Pipeline.arrRef spec0 5) : Cert.Spec.SB.Idx → EReal) x := by
  obtain ⟨-, -, -, -, -, -, -, -, -, -, e0, e1, -⟩ := idx_facts t
  unfold iblk0
  rw [View.read_apply]
  refine congrArg (V c (Pipeline.arrRef spec0 5) : Cert.Spec.SB.Idx → EReal) (funext fun a => Fin.ext ?_)
  match a with
  | ⟨0, _⟩ => show win0_5.index t (0 : Fin 2) * 1 + 1 * (x 0).val = (x 0).val; omega
  | ⟨1, _⟩ => show win0_5.index t (1 : Fin 2) * 128 + 1 * (x 1).val = (x 1).val; omega

/-- The payload of six blocks that are, entry by entry, rows of the arrays the specification reads at array index `i`
    is the specification there. -/
theorem pay_eq_spec (x0 x1 : Vec Ideal S5000x128 .f32) (x2 : Vec Ideal S128x128 .f32) (x3 : Vec Ideal S1x128 .f32)
    (x4 : Vec Ideal S128x128 .f32) (x5 : Vec Ideal S1x128 .f32)
    (A0 A1 : Cert.Spec.SN.Idx → EReal) (A2 : Cert.Spec.SW.Idx → EReal) (A3 : Cert.Spec.SB.Idx → EReal)
    (A4 : Cert.Spec.SW.Idx → EReal) (A5 : Cert.Spec.SB.Idx → EReal)
    (p : Fin 5000) (q : Fin 128) (i : Cert.Spec.SN.Idx)
    (h0 : ∀ l : Fin 128, x0 (ix2 p l) = A0 (ix2 (i 0) l))
    (h1 : ∀ l : Fin 128, x1 (ix2 p l) = A1 (ix2 (i 0) l))
    (h2 : ∀ l k : Fin 128, x2 (ix2 l k) = A2 (ix2 l k))
    (h3 : ∀ k : Fin 128, x3 (ix2 (0 : Fin 1) k) = A3 (ix2 (0 : Fin 1) k))
    (h4 : ∀ k : Fin 128, x4 (ix2 k q) = A4 (ix2 k (i 1)))
    (h5 : x5 (ix2 (0 : Fin 1) q) = A5 (ix2 (0 : Fin 1) (i 1))) :
    k0_pay1 x0 x1 x2 x3 x4 x5 (ix2 p q) = Cert.Spec.mlpG A0 A1 A2 A3 A4 A5 i := by
  rw [pay_apply]
  unfold Cert.Spec.mlpG Cert.Spec.hidden
  simp only [h0, h1, h2, h3, h4, h5]

/-- The specification's layer at the contents the region is entered with. -/
abbrev atEntry (c : Dev nD) : Cert.Spec.SN.Idx → EReal :=
  Cert.Spec.mlpG (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- What grid point `t` writes back is the specification's rows `5000 t … 5000 t + 4999`: the output block after the
    body is the payload of the six input blocks, each of which is the rows of its array the specification reads there. -/
theorem flushed_eq (c : Dev nD) (t : Fin cfg0.N) :
    (dat0 (F := Ideal) V c).flushed 6 t = ((cfg0.win 6).blk t).view.read (Elt Ideal) (atEntry V c) := by
  show (cfg0.win 6).cut (grid0.coords t) ((dat0 V c).after 6 t) = _
  rw [after0_6]
  unfold out0_6
  rw [View.canon_unit_zero zeros]
  simp only [View.ld_unit_zero (S := S5000x128) zeros, View.ld_unit_zero (S := S128x128) zeros,
    View.ld_unit_zero (S := S1x128) zeros]
  refine blk_ext _ _ fun p q => ?_
  obtain ⟨-, -, -, -, -, -, -, -, -, -, -, -, e0, e1⟩ := idx_facts t
  have hN : cfg0.N = 10 := N_0
  have ht : t.val < 10 := hN ▸ t.isLt
  have hp : p.val < 5000 := p.isLt
  rw [View.read_apply]
  have hemb : ((cfg0.win 6).blk t).view.emb (ix2 p q)
      = (ix2 (⟨t.val * 5000 + p.val, by omega⟩ : Fin 50000) q : Cert.Spec.SN.Idx) := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  refine Eq.trans ?_ (congrArg (atEntry V c) hemb).symm
  exact pay_eq_spec _ _ _ _ _ _ _ _ _ _ _ _ p q _
    (fun l => blk_x V c t (ix2 p l) _ rfl rfl) (fun l => blk_agg V c t (ix2 p l) _ rfl rfl)
    (fun l k => blk_w1 V c t (ix2 l k)) (fun k => blk_b1 V c t (ix2 (0 : Fin 1) k))
    (fun k => blk_w2 V c t (ix2 k q)) (blk_b2 V c t (ix2 (0 : Fin 1) q))

/-- An index of the output array is in point `t`'s block iff each coordinate is in the block's range on its axis. -/
theorem mem_blk (t : Fin cfg0.N) (i : Cert.Spec.SN.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Row `n` of the output array is in the block of point `n / 5000`, which is written back. -/
theorem cover (i : Cert.Spec.SN.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, -, -, e0, e1⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    have e0' : win0_6.index ⟨(i 0).val / 5000, hlt⟩ (0 : Fin 2) = (i 0).val / 5000 := e0
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- After the ten grid points the output array holds the specification's layer of the entry contents. -/
theorem final (c : Dev nD) : (dat0 (F := Ideal) V c).arrAt 6 cfg0.N = atEntry V c :=
  (dat0 V c).arrAt_eq_of_cover 6 (atEntry V c) (fun t _ => flushed_eq V c t) (fun i => cover i)

end Mlp0

/-- THE VALUE OF REGION 0: after the ten grid points the output array is the specification's layer of the six input
    arrays as the region finds them. -/
theorem mlp_final0 (V : (c : Dev nD) → (b : Ref sig .tc) → Buf (Elt Ideal) ((c : Thread nD τ).loc b)) (c : Dev nD) :
    (dat0 (F := Ideal) V c).arrAt 6 cfg0.N
      = Cert.Spec.mlpG (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  Mlp0.final V c

end Cert.KernelIdeal.Val

end
-- ==== Proof.KI.MlpValue1.lean ====
/-
  The value of region 1, the second GIN layer's MLP kernel, at the ideal instance (floats are extended reals, every
  operation exact): after the ten grid points the output array holds, at row n and column j,

      Σ_k relu( Σ_l (x[n, l] + agg[n, l]) · W1[l, k] + b1[0, k] ) · W2[k, j] + b2[0, j],

  the specification's `mlpG` of the six input arrays as the region finds them.

  Three steps.  (1) The body's payload at an index: the pointwise operations read through; a block product into the zero
  block is the sum over the contracted coordinate of the products of the entries; a bias row broadcast down the rows reads
  the row; the zero word is the extended real 0.  (2) What grid point t writes back is rows 5000 t … 5000 t + 4999 of the
  specification: the node-feature and aggregated-feature blocks at t are those rows of their arrays, the weight and bias
  blocks are their whole arrays, and the output's block sits at the same rows.  (3) Row n lies in the block of point
  n / 5000, every point writes its block back, so the blocks cover the array and the array is the specification.
-/
import proofs.«421570_j62362925138436_1_alg».proof.Proof.KI.Mlp1
import proofs.«421570_j62362925138436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

namespace Mlp1

/-! ## The block product at an index -/

/-- The left operand's index at output index `j` and contraction position `k`: its row is `j`'s row, -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

/-- its column the contraction position. -/
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index there: its row is the contraction position, -/
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- its column `j`'s column. -/
theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- A 5000×128 by 128×128 block product into the zero block, at row `p` and column `q`: the sum over the contracted
    coordinate of the products of the entries. -/
theorem mm_apply (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_col _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_row _ _).trans hc
    | ⟨1, _⟩ => exact rhs_col _ _
  rw [hl, hr]

/-! ## The payload at an index -/

/-- The body's payload at row `p` and column `q` of the block: the second layer's row sum over the hidden units,
    each the rectified first layer's row sum plus its bias, plus the second bias. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 x0 x1 x2 x3 x4 x5 (ix2 p q)
      = (∑ k : Fin 128, max ((∑ l : Fin 128, (x0 (ix2 p l) + x1 (ix2 p l)) * x2 (ix2 l k)) + x3 (ix2 (0 : Fin 1) k)) 0
            * x4 (ix2 k q))
        + x5 (ix2 (0 : Fin 1) q) := by
  unfold k1_pay1
  simp only [shapeCast_self]
  rw [addf_apply, mm_apply, broadcastTo_1b_ab_apply]
  refine congrArg (· + x5 (ix2 (0 : Fin 1) q)) (Finset.sum_congr rfl fun k _ => ?_)
  rw [maximumf_apply, addf_apply, mm_apply, broadcastTo_1b_ab_apply, broadcast_apply]
  refine congrArg (· * x4 (ix2 k q)) ?_
  refine congrArg₂ max (congrArg (· + x3 (ix2 (0 : Fin 1) k)) (Finset.sum_congr rfl fun l _ => ?_)) ?_
  · rw [addf_apply]
  · show Ideal.ofBits .f32 0x00000000#32 = 0
    exact Ideal.ofBits_zero_f32

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The block index of every window at every grid point: the node features, the aggregated features and the output
    move down the rows with the point; the weights and the biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Two functions on a 5000×128 block that agree at every row and column are equal. -/
theorem blk_ext (f g : S5000x128.Idx → EReal) (h : ∀ (p : Fin 5000) (q : Fin 128), f (ix2 p q) = g (ix2 p q)) : f = g :=
  funext fun j => by rw [eq_ix2 j]; exact h _ _

/-- The node features' block at point `t`: rows `5000 t … 5000 t + 4999` of the array. -/
theorem blk_x (c : Dev nD) (t : Fin cfg1.N) (x : S5000x128.Idx) (k : Cert.Spec.SN.Idx)
    (h0 : (k 0).val = t.val * 5000 + (x 0).val) (h1 : (k 1).val = (x 1).val) :
    (iblk1 V c 0 t : Vec Ideal S5000x128 .f32) x = (V c (Pipeline.arrRef spec1 0) : Cert.Spec.SN.Idx → EReal) k := by
  obtain ⟨e0, e1, -⟩ := idx_facts t
  unfold iblk1
  rw [View.read_apply]
  refine congrArg (V c (Pipeline.arrRef spec1 0) : Cert.Spec.SN.Idx → EReal) (funext fun a => Fin.ext ?_)
  match a with
  | ⟨0, _⟩ => show win1_0.index t (0 : Fin 2) * 5000 + 1 * (x 0).val = (k 0).val; omega
  | ⟨1, _⟩ => show win1_0.index t (1 : Fin 2) * 128 + 1 * (x 1).val = (k 1).val; omega

/-- The aggregated features' block at point `t`: the same rows of its array. -/
theorem blk_agg (c : Dev nD) (t : Fin cfg1.N) (x : S5000x128.Idx) (k : Cert.Spec.SN.Idx)
    (h0 : (k 0).val = t.val * 5000 + (x 0).val) (h1 : (k 1).val = (x 1).val) :
    (iblk1 V c 1 t : Vec Ideal S5000x128 .f32) x = (V c (Pipeline.arrRef spec1 1) : Cert.Spec.SN.Idx → EReal) k := by
  obtain ⟨-, -, e0, e1, -⟩ := idx_facts t
  unfold iblk1
  rw [View.read_apply]
  refine congrArg (V c (Pipeline.arrRef spec1 1) : Cert.Spec.SN.Idx → EReal) (funext fun a => Fin.ext ?_)
  match a with
  | ⟨0, _⟩ => show win1_1.index t (0 : Fin 2) * 5000 + 1 * (x 0).val = (k 0).val; omega
  | ⟨1, _⟩ => show win1_1.index t (1 : Fin 2) * 128 + 1 * (x 1).val = (k 1).val; omega

/-- The first weight matrix's block at any point is the matrix. -/
theorem blk_w1 (c : Dev nD) (t : Fin cfg1.N) (x : S128x128.Idx) :
    (iblk1 V c 2 t : Vec Ideal S128x128 .f32) x = (V c (Pipeline.arrRef spec1 2) : Cert.Spec.SW.Idx → EReal) x := by
  obtain ⟨-, -, -, -, e0, e1, -⟩ := idx_facts t
  unfold iblk1
  rw [View.read_apply]
  refine congrArg (V c (Pipeline.arrRef spec1 2) : Cert.Spec.SW.Idx → EReal) (funext fun a => Fin.ext ?_)
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- The first bias row's block at any point is the row. -/
theorem blk_b1 (c : Dev nD) (t : Fin cfg1.N) (x : S1x128.Idx) :
    (iblk1 V c 3 t : Vec Ideal S1x128 .f32) x = (V c (Pipeline.arrRef spec1 3) : Cert.Spec.SB.Idx → EReal) x := by
  obtain ⟨-, -, -, -, -, -, e0, e1, -⟩ := idx_facts t
  unfold iblk1
  rw [View.read_apply]
  refine congrArg (V c (Pipeline.arrRef spec1 3) : Cert.Spec.SB.Idx → EReal) (funext fun a => Fin.ext ?_)
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- The second weight matrix's block at any point is the matrix. -/
theorem blk_w2 (c : Dev nD) (t : Fin cfg1.N) (x : S128x128.Idx) :
    (iblk1 V c 4 t : Vec Ideal S128x128 .f32) x = (V c (Pipeline.arrRef spec1 4) : Cert.Spec.SW.Idx → EReal) x := by
  obtain ⟨-, -, -, -, -, -, -, -, e0, e1, -⟩ := idx_facts t
  unfold iblk1
  rw [View.read_apply]
  refine congrArg (V c (Pipeline.arrRef spec1 4) : Cert.Spec.SW.Idx → EReal) (funext fun a => Fin.ext ?_)
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- The second bias row's block at any point is the row. -/
theorem blk_b2 (c : Dev nD) (t : Fin cfg1.N) (x : S1x128.Idx) :
    (iblk1 V c 5 t : Vec Ideal S1x128 .f32) x = (V c (Pipeline.arrRef spec1 5) : Cert.Spec.SB.Idx → EReal) x := by
  obtain ⟨-, -, -, -, -, -, -, -, -, -, e0, e1, -⟩ := idx_facts t
  unfold iblk1
  rw [View.read_apply]
  refine congrArg (V c (Pipeline.arrRef spec1 5) : Cert.Spec.SB.Idx → EReal) (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- The payload of six blocks that are, entry by entry, rows of the arrays the specification reads at array index `i`
    is the specification there. -/
theorem pay_eq_spec (x0 x1 : Vec Ideal S5000x128 .f32) (x2 : Vec Ideal S128x128 .f32) (x3 : Vec Ideal S1x128 .f32)
    (x4 : Vec Ideal S128x128 .f32) (x5 : Vec Ideal S1x128 .f32)
    (A0 A1 : Cert.Spec.SN.Idx → EReal) (A2 : Cert.Spec.SW.Idx → EReal) (A3 : Cert.Spec.SB.Idx → EReal)
    (A4 : Cert.Spec.SW.Idx → EReal) (A5 : Cert.Spec.SB.Idx → EReal)
    (p : Fin 5000) (q : Fin 128) (i : Cert.Spec.SN.Idx)
    (h0 : ∀ l : Fin 128, x0 (ix2 p l) = A0 (ix2 (i 0) l))
    (h1 : ∀ l : Fin 128, x1 (ix2 p l) = A1 (ix2 (i 0) l))
    (h2 : ∀ l k : Fin 128, x2 (ix2 l k) = A2 (ix2 l k))
    (h3 : ∀ k : Fin 128, x3 (ix2 (0 : Fin 1) k) = A3 (ix2 (0 : Fin 1) k))
    (h4 : ∀ k : Fin 128, x4 (ix2 k q) = A4 (ix2 k (i 1)))
    (h5 : x5 (ix2 (0 : Fin 1) q) = A5 (ix2 (0 : Fin 1) (i 1))) :
    k1_pay1 x0 x1 x2 x3 x4 x5 (ix2 p q) = Cert.Spec.mlpG A0 A1 A2 A3 A4 A5 i := by
  rw [pay_apply]
  unfold Cert.Spec.mlpG Cert.Spec.hidden
  simp only [h0, h1, h2, h3, h4, h5]

/-- The specification's layer at the contents the region is entered with. -/
abbrev atEntry (c : Dev nD) : Cert.Spec.SN.Idx → EReal :=
  Cert.Spec.mlpG (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-- What grid point `t` writes back is the specification's rows `5000 t … 5000 t + 4999`: the output block after the
    body is the payload of the six input blocks, each of which is the rows of its array the specification reads there. -/
theorem flushed_eq (c : Dev nD) (t : Fin cfg1.N) :
    (dat1 (F := Ideal) V c).flushed 6 t = ((cfg1.win 6).blk t).view.read (Elt Ideal) (atEntry V c) := by
  show (cfg1.win 6).cut (grid1.coords t) ((dat1 V c).after 6 t) = _
  rw [after1_6]
  unfold out1_6
  rw [View.canon_unit_zero zeros]
  simp only [View.ld_unit_zero (S := S5000x128) zeros, View.ld_unit_zero (S := S128x128) zeros,
    View.ld_unit_zero (S := S1x128) zeros]
  refine blk_ext _ _ fun p q => ?_
  obtain ⟨-, -, -, -, -, -, -, -, -, -, -, -, e0, e1⟩ := idx_facts t
  have hN : cfg1.N = 10 := N_1
  have ht : t.val < 10 := hN ▸ t.isLt
  have hp : p.val < 5000 := p.isLt
  rw [View.read_apply]
  have hemb : ((cfg1.win 6).blk t).view.emb (ix2 p q)
      = (ix2 (⟨t.val * 5000 + p.val, by omega⟩ : Fin 50000) q : Cert.Spec.SN.Idx) := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  refine Eq.trans ?_ (congrArg (atEntry V c) hemb).symm
  exact pay_eq_spec _ _ _ _ _ _ _ _ _ _ _ _ p q _
    (fun l => blk_x V c t (ix2 p l) _ rfl rfl) (fun l => blk_agg V c t (ix2 p l) _ rfl rfl)
    (fun l k => blk_w1 V c t (ix2 l k)) (fun k => blk_b1 V c t (ix2 (0 : Fin 1) k))
    (fun k => blk_w2 V c t (ix2 k q)) (blk_b2 V c t (ix2 (0 : Fin 1) q))

/-- An index of the output array is in point `t`'s block iff each coordinate is in the block's range on its axis. -/
theorem mem_blk (t : Fin cfg1.N) (i : Cert.Spec.SN.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

/-- Row `n` of the output array is in the block of point `n / 5000`, which is written back. -/
theorem cover (i : Cert.Spec.SN.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, -, -, -, -, e0, e1⟩ := idx_facts ⟨(i 0).val / 5000, hlt⟩
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    have e0' : win1_6.index ⟨(i 0).val / 5000, hlt⟩ (0 : Fin 2) = (i 0).val / 5000 := e0
    omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    omega

/-- After the ten grid points the output array holds the specification's layer of the entry contents. -/
theorem final (c : Dev nD) : (dat1 (F := Ideal) V c).arrAt 6 cfg1.N = atEntry V c :=
  (dat1 V c).arrAt_eq_of_cover 6 (atEntry V c) (fun t _ => flushed_eq V c t) (fun i => cover i)

end Mlp1

/-- THE VALUE OF REGION 0: after the ten grid points the output array is the specification's layer of the six input
    arrays as the region finds them. -/
theorem mlp_final1 (V : (c : Dev nD) → (b : Ref sig .tc) → Buf (Elt Ideal) ((c : Thread nD τ).loc b)) (c : Dev nD) :
    (dat1 (F := Ideal) V c).arrAt 6 cfg1.N
      = Cert.Spec.mlpG (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  Mlp1.final V c

end Cert.KernelIdeal.Val

end
-- ==== Proof.KI.MlpValue2.lean ====
/-
  The value of region 2, the third GIN layer's MLP kernel, at the ideal instance (floats are extended reals, every
  operation exact): after the ten grid points the output array holds, at row n and column j,

      Σ_k relu( Σ_l (x[n, l] + agg[n, l]) · W1[l, k] + b1[0, k] ) · W2[k, j] + b2[0, j],

  the specification's `mlpG` of the six input arrays as the region finds them.

  Three steps.  (1) The body's payload at an index: the pointwise operations read through; a block product into the zero
  block is the sum over the contracted coordinate of the products of the entries; a bias row broadcast down the rows reads
  the row; the zero word is the extended real 0.  (2) What grid point t writes back is rows 5000 t … 5000 t + 4999 of the
  specification: the node-feature and aggregated-feature blocks at t are those rows of their arrays, the weight and bias
  blocks are their whole arrays, and the output's block sits at the same rows.  (3) Row n lies in the block of point
  n / 5000, every point writes its block back, so the blocks cover the array and the array is the specification.
-/
import proofs.«421570_j62362925138436_1_alg».proof.Proof.KI.Mlp2
import proofs.«421570_j62362925138436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

namespace Mlp2

/-! ## The block product at an index -/

/-- The left operand's index at output index `j` and contraction position `k`: its row is `j`'s row, -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

/-- its column the contraction position. -/
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index there: its row is the contraction position, -/
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- its column `j`'s column. -/
theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- A 5000×128 by 128×128 block product into the zero block, at row `p` and column `q`: the sum over the contracted
    coordinate of the products of the entries. -/
theorem mm_apply (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_col _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_row _ _).trans hc
    | ⟨1, _⟩ => exact rhs_col _ _
  rw [hl, hr]

/-! ## The payload at an index -/

/-- The body's payload at row `p` and column `q` of the block: the second layer's row sum over the hidden units,
    each the rectified first layer's row sum plus its bias, plus the second bias. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 x0 x1 x2 x3 x4 x5 (ix2 p q)
      = (∑ k : Fin 128, max ((∑ l : Fin 128, (x0 (ix2 p l) + x1 (ix2 p l)) * x2 (ix2 l k)) + x3 (ix2 (0 : Fin 1) k)) 0
            * x4 (ix2 k q))
        + x5 (ix2 (0 : Fin 1) q) := by
  unfold k2_pay1
  simp only [shapeCast_self]
  rw [addf_apply, mm_apply, broadcastTo_1b_ab_apply]
  refine congrArg (· + x5 (ix2 (0 : Fin 1) q)) (Finset.sum_congr rfl fun k _ => ?_)
  rw [maximumf_apply, addf_apply, mm_apply, broadcastTo_1b_ab_apply, broadcast_apply]
  refine congrArg (· * x4 (ix2 k q)) ?_
  refine congrArg₂ max (congrArg (· + x3 (ix2 (0 : Fin 1) k)) (Finset.sum_congr rfl fun l _ => ?_)) ?_
  · rw [addf_apply]
  · show Ideal.ofBits .f32 0x00000000#32 = 0
    exact Ideal.ofBits_zero_f32

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The block index of every window at every grid point: the node features, the aggregated features and the output
    move down the rows with the point; the weights and the biases stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Two functions on a 5000×128 block that agree at every row and column are equal. -/
theorem blk_ext (f g : S5000x128.Idx → EReal) (h : ∀ (p : Fin 5000) (q : Fin 128), f (ix2 p q) = g (ix2 p q)) : f = g :=
  funext fun j => by rw [eq_ix2 j]; exact h _ _

/-- The node features' block at point `t`: rows `5000 t … 5000 t + 4999` of the array. -/
theorem blk_x (c : Dev nD) (t : Fin cfg2.N) (x : S5000x128.Idx) (k : Cert.Spec.SN.Idx)
    (h0 : (k 0).val = t.val * 5000 + (x 0).val) (h1 : (k 1).val = (x 1).val) :
    (iblk2 V c 0 t : Vec Ideal S5000x128 .f32) x = (V c (Pipeline.arrRef spec2 0) : Cert.Spec.SN.Idx → EReal) k := by
  obtain ⟨e0, e1, -⟩ := idx_facts t
  unfold iblk2
  rw [View.read_apply]
  refine congrArg (V c (Pipeline.arrRef spec2 0) : Cert.Spec.SN.Idx → EReal) (funext fun a => Fin.ext ?_)
  match a with
  | ⟨0, _⟩ => show win2_0.index t (0 : Fin 2) * 5000 + 1 * (x 0).val = (k 0).val; omega
  | ⟨1, _⟩ => show win2_0.index t (1 : Fin 2) * 128 + 1 * (x 1).val = (k 1).val; omega

/-- The aggregated features' block at point `t`: the same rows of its array. -/
theorem blk_agg (c : Dev nD) (t : Fin cfg2.N) (x : S5000x128.Idx) (k : Cert.Spec.SN.Idx)
    (h0 : (k 0).val = t.val * 5000 + (x 0).val) (h1 : (k 1).val = (x 1).val) :
    (iblk2 V c 1 t : Vec Ideal S5000x128 .f32) x = (V c (Pipeline.arrRef spec2 1) : Cert.Spec.SN.Idx → EReal) k := by
  obtain ⟨-, -, e0, e1, -⟩ := idx_facts t
  unfold iblk2
  rw [View.read_apply]
  refine congrArg (V c (Pipeline.arrRef spec2 1) : Cert.Spec.SN.Idx → EReal) (funext fun a => Fin.ext ?_)
  match a with
  | ⟨0, _⟩ => show win2_1.index t (0 : Fin 2) * 5000 + 1 * (x 0).val = (k 0).val; omega
  | ⟨1, _⟩ => show win2_1.index t (1 : Fin 2) * 128 + 1 * (x 1).val = (k 1).val; omega

/-- The first weight matrix's block at any point is the matrix. -/
theorem blk_w1 (c : Dev nD) (t : Fin cfg2.N) (x : S128x128.Idx) :
    (iblk2 V c 2 t : Vec Ideal S128x128 .f32) x = (V c (Pipeline.arrRef spec2 2) : Cert.Spec.SW.Idx → EReal) x := by
  obtain ⟨-, -, -, -, e0, e1, -⟩ := idx_facts t
  unfold iblk2
  rw [View.read_apply]
  refine congrArg (V c (Pipeline.arrRef spec2 2) : Cert.Spec.SW.Idx → EReal) (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The first bias row's block at any point is the row. -/
theorem blk_b1 (c : Dev nD) (t : Fin cfg2.N) (x : S1x128.Idx) :
    (iblk2 V c 3 t : Vec Ideal S1x128 .f32) x = (V c (Pipeline.arrRef spec2 3) : Cert.Spec.SB.Idx → EReal) x := by
  obtain ⟨-, -, -, -, -, -, e0, e1, -⟩ := idx_facts t
  unfold iblk2
  rw [View.read_apply]
  refine congrArg (V c (Pipeline.arrRef spec2 3) : Cert.Spec.SB.Idx → EReal) (funext fun a => Fin.ext ?_)
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- The second weight matrix's block at any point is the matrix. -/
theorem blk_w2 (c : Dev nD) (t : Fin cfg2.N) (x : S128x128.Idx) :
    (iblk2 V c 4 t : Vec Ideal S128x128 .f32) x = (V c (Pipeline.arrRef spec2 4) : Cert.Spec.SW.Idx → EReal) x := by
  obtain ⟨-, -, -, -, -, -, -, -, e0, e1, -⟩ := idx_facts t
  unfold iblk2
  rw [View.read_apply]
  refine congrArg (V c (Pipeline.arrRef spec2 4) : Cert.Spec.SW.Idx → EReal) (funext fun a => Fin.ext ?_)
  match a with
  | ⟨0, _⟩ => show win2_4.index t (0 : Fin 2) * 128 + 1 * (x 0).val = (x 0).val; omega
  | ⟨1, _⟩ => show win2_4.index t (1 : Fin 2) * 128 + 1 * (x 1).val = (x 1).val; omega

/-- The second bias row's block at any point is the row. -/
theorem blk_b2 (c : Dev nD) (t : Fin cfg2.N) (x : S1x128.Idx) :
    (iblk2 V c 5 t : Vec Ideal S1x128 .f32) x = (V c (Pipeline.arrRef spec2 5) : Cert.Spec.SB.Idx → EReal) x := by
  obtain ⟨-, -, -, -, -, -, -, -, -, -, e0, e1, -⟩ := idx_facts t
  unfold iblk2
  rw [View.read_apply]
  refine congrArg (V c (Pipeline.arrRef spec2 5) : Cert.Spec.SB.Idx → EReal) (funext fun a => Fin.ext ?_)
  match a with
  | ⟨0, _⟩ => show win2_5.index t (0 : Fin 2) * 1 + 1 * (x 0).val = (x 0).val; omega
  | ⟨1, _⟩ => show win2_5.index t (1 : Fin 2) * 128 + 1 * (x 1).val = (x 1).val; omega

/-- The payload of six blocks that are, entry by entry, rows of the arrays the specification reads at array index `i`
    is the specification there. -/
theorem pay_eq_spec (x0 x1 : Vec Ideal S5000x128 .f32) (x2 : Vec Ideal S128x128 .f32) (x3 : Vec Ideal S1x128 .f32)
    (x4 : Vec Ideal S128x128 .f32) (x5 : Vec Ideal S1x128 .f32)
    (A0 A1 : Cert.Spec.SN.Idx → EReal) (A2 : Cert.Spec.SW.Idx → EReal) (A3 : Cert.Spec.SB.Idx → EReal)
    (A4 : Cert.Spec.SW.Idx → EReal) (A5 : Cert.Spec.SB.Idx → EReal)
    (p : Fin 5000) (q : Fin 128) (i : Cert.Spec.SN.Idx)
    (h0 : ∀ l : Fin 128, x0 (ix2 p l) = A0 (ix2 (i 0) l))
    (h1 : ∀ l : Fin 128, x1 (ix2 p l) = A1 (ix2 (i 0) l))
    (h2 : ∀ l k : Fin 128, x2 (ix2 l k) = A2 (ix2 l k))
    (h3 : ∀ k : Fin 128, x3 (ix2 (0 : Fin 1) k) = A3 (ix2 (0 : Fin 1) k))
    (h4 : ∀ k : Fin 128, x4 (ix2 k q) = A4 (ix2 k (i 1)))
    (h5 : x5 (ix2 (0 : Fin 1) q) = A5 (ix2 (0 : Fin 1) (i 1))) :
    k2_pay1 x0 x1 x2 x3 x4 x5 (ix2 p q) = Cert.Spec.mlpG A0 A1 A2 A3 A4 A5 i := by
  rw [pay_apply]
  unfold Cert.Spec.mlpG Cert.Spec.hidden
  simp only [h0, h1, h2, h3, h4, h5]

/-- The specification's layer at the contents the region is entered with. -/
abbrev atEntry (c : Dev nD) : Cert.Spec.SN.Idx → EReal :=
  Cert.Spec.mlpG (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- What grid point `t` writes back is the specification's rows `5000 t … 5000 t + 4999`: the output block after the
    body is the payload of the six input blocks, each of which is the rows of its array the specification reads there. -/
theorem flushed_eq (c : Dev nD) (t : Fin cfg2.N) :
    (dat2 (F := Ideal) V c).flushed 6 t = ((cfg2.win 6).blk t).view.read (Elt Ideal) (atEntry V c) := by
  show (cfg2.win 6).cut (grid2.coords t) ((dat2 V c).after 6 t) = _
  rw [after2_6]
  unfold out2_6
  rw [View.canon_unit_zero zeros]
  simp only [View.ld_unit_zero (S := S5000x128) zeros, View.ld_unit_zero (S := S128x128) zeros,
    View.ld_unit_zero (S := S1x128) zeros]
  refine blk_ext _ _ fun p q => ?_
  obtain ⟨-, -, -, -, -, -, -, -, -, -, -, -, e0, e1⟩ := idx_facts t
  have hN : cfg2.N = 10 := N_2
  have ht : t.val < 10 := hN ▸ t.isLt
  have hp : p.val < 5000 := p.isLt
  rw [View.read_apply]
  have hemb : ((cfg2.win 6).blk t).view.emb (ix2 p q)
      = (ix2 (⟨t.val * 5000 + p.val, by omega⟩ : Fin 50000) q : Cert.Spec.SN.Idx) := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  refine Eq.trans ?_ (congrArg (atEntry V c) hemb).symm
  exact pay_eq_spec _ _ _ _ _ _ _ _ _ _ _ _ p q _
    (fun l => blk_x V c t (ix2 p l) _ rfl rfl) (fun l => blk_agg V c t (ix2 p l) _ rfl rfl)
    (fun l k => blk_w1 V c t (ix2 l k)) (fun k => blk_b1 V c t (ix2 (0 : Fin 1) k))
    (fun k => blk_w2 V c t (ix2 k q)) (blk_b2 V c t (ix2 (0 : Fin 1) q))

/-- An index of the output array is in point `t`'s block iff each coordinate is in the block's range on its axis. -/
theorem mem_blk (t : Fin cfg2.N) (i : Cert.Spec.SN.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Row `n` of the output array is in the block of point `n / 5000`, which is written back. -/
theorem cover (i : Cert.Spec.SN.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, -, -, -, -, e0, e1⟩ := idx_facts ⟨(i 0).val / 5000, hlt⟩
  refine ⟨⟨(i 0).val / 5000, hlt⟩, flush2_6 _, ?_⟩
  rw [mem_blk]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    have e0' : win2_6.index ⟨(i 0).val / 5000, hlt⟩ (0 : Fin 2) = (i 0).val / 5000 := e0
    omega
  | ⟨1, _⟩ =>
    show win2_6.index ⟨(i 0).val / 5000, hlt⟩ (1 : Fin 2) * 128 ≤ (i 1).val
      ∧ (i 1).val < win2_6.index ⟨(i 0).val / 5000, hlt⟩ (1 : Fin 2) * 128 + 128
    omega

/-- After the ten grid points the output array holds the specification's layer of the entry contents. -/
theorem final (c : Dev nD) : (dat2 (F := Ideal) V c).arrAt 6 cfg2.N = atEntry V c :=
  (dat2 V c).arrAt_eq_of_cover 6 (atEntry V c) (fun t _ => flushed_eq V c t) (fun i => cover i)

end Mlp2

/-- THE VALUE OF REGION 0: after the ten grid points the output array is the specification's layer of the six input
    arrays as the region finds them. -/
theorem mlp_final2 (V : (c : Dev nD) → (b : Ref sig .tc) → Buf (Elt Ideal) ((c : Thread nD τ).loc b)) (c : Dev nD) :
    (dat2 (F := Ideal) V c).arrAt 6 cfg2.N
      = Cert.Spec.mlpG (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  Mlp2.final V c

end Cert.KernelIdeal.Val

end
-- ==== Proof.KI.MlpValue3.lean ====
/-
  The value of region 3, the fourth GIN layer's MLP kernel, at the ideal instance (floats are extended reals, every
  operation exact): after the ten grid points the output array holds, at row n and column j,

      Σ_k relu( Σ_l (x[n, l] + agg[n, l]) · W1[l, k] + b1[0, k] ) · W2[k, j] + b2[0, j],

  the specification's `mlpG` of the six input arrays as the region finds them.

  Three steps.  (1) The body's payload at an index: the pointwise operations read through; a block product into the zero
  block is the sum over the contracted coordinate of the products of the entries; a bias row broadcast down the rows reads
  the row; the zero word is the extended real 0.  (2) What grid point t writes back is rows 5000 t … 5000 t + 4999 of the
  specification: the node-feature and aggregated-feature blocks at t are those rows of their arrays, the weight and bias
  blocks are their whole arrays, and the output's block sits at the same rows.  (3) Row n lies in the block of point
  n / 5000, every point writes its block back, so the blocks cover the array and the array is the specification.
-/
import proofs.«421570_j62362925138436_1_alg».proof.Proof.KI.Mlp3
import proofs.«421570_j62362925138436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

namespace Mlp3

/-! ## The block product at an index -/

/-- The left operand's index at output index `j` and contraction position `k`: its row is `j`'s row, -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

/-- its column the contraction position. -/
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index there: its row is the contraction position, -/
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- its column `j`'s column. -/
theorem rhs_col (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

/-- A 5000×128 by 128×128 block product into the zero block, at row `p` and column `q`: the sum over the contracted
    coordinate of the products of the entries. -/
theorem mm_apply (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have hl : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_row _ _
    | ⟨1, _⟩ => exact (lhs_col _ _).trans hc
  have hr : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_row _ _).trans hc
    | ⟨1, _⟩ => exact rhs_col _ _
  rw [hl, hr]

/-! ## The payload at an index -/

/-- The body's payload at row `p` and column `q` of the block: the second layer's row sum over the hidden units,
    each the rectified first layer's row sum plus its bias, plus the second bias. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 x0 x1 x2 x3 x4 x5 (ix2 p q)
      = (∑ k : Fin 128, max ((∑ l : Fin 128, (x0 (ix2 p l) + x1 (ix2 p l)) * x2 (ix2 l k)) + x3 (ix2 (0 : Fin 1) k)) 0
            * x4 (ix2 k q))
        + x5 (ix2 (0 : Fin 1) q) := by
  unfold k3_pay1
  simp only [shapeCast_self]
  rw [addf_apply, mm_apply, broadcastTo_1b_ab_apply]
  refine congrArg (· + x5 (ix2 (0 : Fin 1) q)) (Finset.sum_congr rfl fun k _ => ?_)
  rw [maximumf_apply, addf_apply, mm_apply, broadcastTo_1b_ab_apply, broadcast_apply]
  refine congrArg (· * x4 (ix2 k q)) ?_
  refine congrArg₂ max (congrArg (· + x3 (ix2 (0 : Fin 1) k)) (Finset.sum_congr rfl fun l _ => ?_)) ?_
  · rw [addf_apply]
  · show Ideal.ofBits .f32 0x00000000#32 = 0
    exact Ideal.ofBits_zero_f32

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The block index of every window at every grid point: the node features, the aggregated features and the output
    move down the rows with the point; the weights and the biases stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Two functions on a 5000×128 block that agree at every row and column are equal. -/
theorem blk_ext (f g : S5000x128.Idx → EReal) (h : ∀ (p : Fin 5000) (q : Fin 128), f (ix2 p q) = g (ix2 p q)) : f = g :=
  funext fun j => by rw [eq_ix2 j]; exact h _ _

/-- The node features' block at point `t`: rows `5000 t … 5000 t + 4999` of the array. -/
theorem blk_x (c : Dev nD) (t : Fin cfg3.N) (x : S5000x128.Idx) (k : Cert.Spec.SN.Idx)
    (h0 : (k 0).val = t.val * 5000 + (x 0).val) (h1 : (k 1).val = (x 1).val) :
    (iblk3 V c 0 t : Vec Ideal S5000x128 .f32) x = (V c (Pipeline.arrRef spec3 0) : Cert.Spec.SN.Idx → EReal) k := by
  obtain ⟨e0, e1, -⟩ := idx_facts t
  unfold iblk3
  rw [View.read_apply]
  refine congrArg (V c (Pipeline.arrRef spec3 0) : Cert.Spec.SN.Idx → EReal) (funext fun a => Fin.ext ?_)
  match a with
  | ⟨0, _⟩ => show win3_0.index t (0 : Fin 2) * 5000 + 1 * (x 0).val = (k 0).val; omega
  | ⟨1, _⟩ => show win3_0.index t (1 : Fin 2) * 128 + 1 * (x 1).val = (k 1).val; omega

/-- The aggregated features' block at point `t`: the same rows of its array. -/
theorem blk_agg (c : Dev nD) (t : Fin cfg3.N) (x : S5000x128.Idx) (k : Cert.Spec.SN.Idx)
    (h0 : (k 0).val = t.val * 5000 + (x 0).val) (h1 : (k 1).val = (x 1).val) :
    (iblk3 V c 1 t : Vec Ideal S5000x128 .f32) x = (V c (Pipeline.arrRef spec3 1) : Cert.Spec.SN.Idx → EReal) k := by
  obtain ⟨-, -, e0, e1, -⟩ := idx_facts t
  unfold iblk3
  rw [View.read_apply]
  refine congrArg (V c (Pipeline.arrRef spec3 1) : Cert.Spec.SN.Idx → EReal) (funext fun a => Fin.ext ?_)
  match a with
  | ⟨0, _⟩ => show win3_1.index t (0 : Fin 2) * 5000 + 1 * (x 0).val = (k 0).val; omega
  | ⟨1, _⟩ => show win3_1.index t (1 : Fin 2) * 128 + 1 * (x 1).val = (k 1).val; omega

/-- The first weight matrix's block at any point is the matrix. -/
theorem blk_w1 (c : Dev nD) (t : Fin cfg3.N) (x : S128x128.Idx) :
    (iblk3 V c 2 t : Vec Ideal S128x128 .f32) x = (V c (Pipeline.arrRef spec3 2) : Cert.Spec.SW.Idx → EReal) x := by
  obtain ⟨-, -, -, -, e0, e1, -⟩ := idx_facts t
  unfold iblk3
  rw [View.read_apply]
  refine congrArg (V c (Pipeline.arrRef spec3 2) : Cert.Spec.SW.Idx → EReal) (funext fun a => Fin.ext ?_)
  match a with
  | ⟨0, _⟩ => show win3_2.index t (0 : Fin 2) * 128 + 1 * (x 0).val = (x 0).val; omega
  | ⟨1, _⟩ => show win3_2.index t (1 : Fin 2) * 128 + 1 * (x 1).val = (x 1).val; omega

/-- The first bias row's block at any point is the row. -/
theorem blk_b1 (c : Dev nD) (t : Fin cfg3.N) (x : S1x128.Idx) :
    (iblk3 V c 3 t : Vec Ideal S1x128 .f32) x = (V c (Pipeline.arrRef spec3 3) : Cert.Spec.SB.Idx → EReal) x := by
  obtain ⟨-, -, -, -, -, -, e0, e1, -⟩ := idx_facts t
  unfold iblk3
  rw [View.read_apply]
  refine congrArg (V c (Pipeline.arrRef spec3 3) : Cert.Spec.SB.Idx → EReal) (funext fun a => Fin.ext ?_)
  match a with
  | ⟨0, _⟩ => show win3_3.index t (0 : Fin 2) * 1 + 1 * (x 0).val = (x 0).val; omega
  | ⟨1, _⟩ => show win3_3.index t (1 : Fin 2) * 128 + 1 * (x 1).val = (x 1).val; omega

/-- The second weight matrix's block at any point is the matrix. -/
theorem blk_w2 (c : Dev nD) (t : Fin cfg3.N) (x : S128x128.Idx) :
    (iblk3 V c 4 t : Vec Ideal S128x128 .f32) x = (V c (Pipeline.arrRef spec3 4) : Cert.Spec.SW.Idx → EReal) x := by
  obtain ⟨-, -, -, -, -, -, -, -, e0, e1, -⟩ := idx_facts t
  unfold iblk3
  rw [View.read_apply]
  refine congrArg (V c (Pipeline.arrRef spec3 4) : Cert.Spec.SW.Idx → EReal) (funext fun a => Fin.ext ?_)
  match a with
  | ⟨0, _⟩ => show win3_4.index t (0 : Fin 2) * 128 + 1 * (x 0).val = (x 0).val; omega
  | ⟨1, _⟩ => show win3_4.index t (1 : Fin 2) * 128 + 1 * (x 1).val = (x 1).val; omega

/-- The second bias row's block at any point is the row. -/
theorem blk_b2 (c : Dev nD) (t : Fin cfg3.N) (x : S1x128.Idx) :
    (iblk3 V c 5 t : Vec Ideal S1x128 .f32) x = (V c (Pipeline.arrRef spec3 5) : Cert.Spec.SB.Idx → EReal) x := by
  obtain ⟨-, -, -, -, -, -, -, -, -, -, e0, e1, -⟩ := idx_facts t
  unfold iblk3
  rw [View.read_apply]
  refine congrArg (V c (Pipeline.arrRef spec3 5) : Cert.Spec.SB.Idx → EReal) (funext fun a => Fin.ext ?_)
  match a with
  | ⟨0, _⟩ => show win3_5.index t (0 : Fin 2) * 1 + 1 * (x 0).val = (x 0).val; omega
  | ⟨1, _⟩ => show win3_5.index t (1 : Fin 2) * 128 + 1 * (x 1).val = (x 1).val; omega

/-- The payload of six blocks that are, entry by entry, rows of the arrays the specification reads at array index `i`
    is the specification there. -/
theorem pay_eq_spec (x0 x1 : Vec Ideal S5000x128 .f32) (x2 : Vec Ideal S128x128 .f32) (x3 : Vec Ideal S1x128 .f32)
    (x4 : Vec Ideal S128x128 .f32) (x5 : Vec Ideal S1x128 .f32)
    (A0 A1 : Cert.Spec.SN.Idx → EReal) (A2 : Cert.Spec.SW.Idx → EReal) (A3 : Cert.Spec.SB.Idx → EReal)
    (A4 : Cert.Spec.SW.Idx → EReal) (A5 : Cert.Spec.SB.Idx → EReal)
    (p : Fin 5000) (q : Fin 128) (i : Cert.Spec.SN.Idx)
    (h0 : ∀ l : Fin 128, x0 (ix2 p l) = A0 (ix2 (i 0) l))
    (h1 : ∀ l : Fin 128, x1 (ix2 p l) = A1 (ix2 (i 0) l))
    (h2 : ∀ l k : Fin 128, x2 (ix2 l k) = A2 (ix2 l k))
    (h3 : ∀ k : Fin 128, x3 (ix2 (0 : Fin 1) k) = A3 (ix2 (0 : Fin 1) k))
    (h4 : ∀ k : Fin 128, x4 (ix2 k q) = A4 (ix2 k (i 1)))
    (h5 : x5 (ix2 (0 : Fin 1) q) = A5 (ix2 (0 : Fin 1) (i 1))) :
    k3_pay1 x0 x1 x2 x3 x4 x5 (ix2 p q) = Cert.Spec.mlpG A0 A1 A2 A3 A4 A5 i := by
  rw [pay_apply]
  unfold Cert.Spec.mlpG Cert.Spec.hidden
  simp only [h0, h1, h2, h3, h4, h5]

/-- The specification's layer at the contents the region is entered with. -/
abbrev atEntry (c : Dev nD) : Cert.Spec.SN.Idx → EReal :=
  Cert.Spec.mlpG (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

/-- What grid point `t` writes back is the specification's rows `5000 t … 5000 t + 4999`: the output block after the
    body is the payload of the six input blocks, each of which is the rows of its array the specification reads there. -/
theorem flushed_eq (c : Dev nD) (t : Fin cfg3.N) :
    (dat3 (F := Ideal) V c).flushed 6 t = ((cfg3.win 6).blk t).view.read (Elt Ideal) (atEntry V c) := by
  show (cfg3.win 6).cut (grid3.coords t) ((dat3 V c).after 6 t) = _
  rw [after3_6]
  unfold out3_6
  rw [View.canon_unit_zero zeros]
  simp only [View.ld_unit_zero (S := S5000x128) zeros, View.ld_unit_zero (S := S128x128) zeros,
    View.ld_unit_zero (S := S1x128) zeros]
  refine blk_ext _ _ fun p q => ?_
  obtain ⟨-, -, -, -, -, -, -, -, -, -, -, -, e0, e1⟩ := idx_facts t
  have hN : cfg3.N = 10 := N_3
  have ht : t.val < 10 := hN ▸ t.isLt
  have hp : p.val < 5000 := p.isLt
  rw [View.read_apply]
  have hemb : ((cfg3.win 6).blk t).view.emb (ix2 p q)
      = (ix2 (⟨t.val * 5000 + p.val, by omega⟩ : Fin 50000) q : Cert.Spec.SN.Idx) := by
    funext a; apply Fin.ext
    match a with
    | ⟨0, _⟩ => show win3_6.index t (0 : Fin 2) * 5000 + 1 * p.val = t.val * 5000 + p.val; omega
    | ⟨1, _⟩ => show win3_6.index t (1 : Fin 2) * 128 + 1 * q.val = q.val; omega
  refine Eq.trans ?_ (congrArg (atEntry V c) hemb).symm
  exact pay_eq_spec _ _ _ _ _ _ _ _ _ _ _ _ p q _
    (fun l => blk_x V c t (ix2 p l) _ rfl rfl) (fun l => blk_agg V c t (ix2 p l) _ rfl rfl)
    (fun l k => blk_w1 V c t (ix2 l k)) (fun k => blk_b1 V c t (ix2 (0 : Fin 1) k))
    (fun k => blk_w2 V c t (ix2 k q)) (blk_b2 V c t (ix2 (0 : Fin 1) q))

/-- An index of the output array is in point `t`'s block iff each coordinate is in the block's range on its axis. -/
theorem mem_blk (t : Fin cfg3.N) (i : Cert.Spec.SN.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole (Pipeline.arrRef spec3 6)).slice (win3_6.rect t)).set ↔ _
  rw [View.set_slice_whole, Rect.mem_set_unit]
  exact Iff.rfl

/-- Row `n` of the output array is in the block of point `n / 5000`, which is written back. -/
theorem cover (i : Cert.Spec.SN.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  have hlt : (i 0).val / 5000 < cfg3.N := by rw [hN]; omega
  obtain ⟨-, -, -, -, -, -, -, -, -, -, -, -, e0, e1⟩ := idx_facts ⟨(i 0).val / 5000, hlt⟩
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    have e0' : win3_6.index ⟨(i 0).val / 5000, hlt⟩ (0 : Fin 2) = (i 0).val / 5000 := e0
    omega
  | ⟨1, _⟩ =>
    show win3_6.index ⟨(i 0).val / 5000, hlt⟩ (1 : Fin 2) * 128 ≤ (i 1).val
      ∧ (i 1).val < win3_6.index ⟨(i 0).val / 5000, hlt⟩ (1 : Fin 2) * 128 + 128
    omega

/-- After the ten grid points the output array holds the specification's layer of the entry contents. -/
theorem final (c : Dev nD) : (dat3 (F := Ideal) V c).arrAt 6 cfg3.N = atEntry V c :=
  (dat3 V c).arrAt_eq_of_cover 6 (atEntry V c) (fun t _ => flushed_eq V c t) (fun i => cover i)

end Mlp3

/-- THE VALUE OF REGION 0: after the ten grid points the output array is the specification's layer of the six input
    arrays as the region finds them. -/
theorem mlp_final3 (V : (c : Dev nD) → (b : Ref sig .tc) → Buf (Elt Ideal) ((c : Thread nD τ).loc b)) (c : Dev nD) :
    (dat3 (F := Ideal) V c).arrAt 6 cfg3.N
      = Cert.Spec.mlpG (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  Mlp3.final V c

end Cert.KernelIdeal.Val

end
-- ==== Proof.KI.PoolValue.lean ====
/-
  The VALUE of region 4 of @main, the global add pool, at the ideal instance (floats are extended reals, every
  operation exact).

  At every grid point the body adds  onehotᵀ · x  to a 512×128 accumulator, where x is the point's block of 2000
  node rows and onehot[r, g] is 1 when row r's graph id is the word g and 0 otherwise.  Over the extended reals
  0 · y = 0 and 1 · y = y for every y, so one point adds, at (g, j), the sum over the block's rows r of
  [id r = g] · x[r, j], and after the points 0 … n the accumulator holds the sum over the first 2000·(n+1) nodes.
  The last point's accumulator is what is written back, once, through the one block that is the whole output
  array; 2000 · 25 = 50000, so the array ends holding the sum over all nodes: the pool of the specification.
-/
import proofs.«421570_j62362925138436_1_alg».proof.Proof.KI.Pool
import proofs.«421570_j62362925138436_1_alg».proof.Proof.Spec
import Idealize.ShloMosaic.Lib.ValueIdx
import Idealize.ShloMosaic.Lib.Pipeline.Value
import Idealize.ShloMosaic.PureOps.Ideal.Laws
import Mathlib.Algebra.BigOperators.Fin
import Mathlib.Algebra.BigOperators.Group.Finset.Basic
import Mathlib.Data.EReal.Basic

set_option maxRecDepth 16384

noncomputable section

open scoped BigOperators

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! ## One point's update, at an index -/

/-- The one-hot entry: the comparison bit of two words, widened and read as a signed integer, is the number 1 when the
    words are equal and 0 when they are not. -/
theorem onehot_word (a b : BitVec 32) :
    (FloatOps.sitofp (F := Ideal) .f32 ((IntOp.cmpi .eq a b).setWidth 32) : EReal) = if a = b then 1 else 0 := by
  by_cases h : a = b
  · rw [if_pos h]
    have e : IntOp.cmpi .eq a b = 1#1 := by subst h; simp [IntOp.cmpi]
    rw [e]
    show (((((1#1 : BitVec 1).setWidth 32).toInt : ℤ) : ℝ) : EReal) = 1
    rw [show ((1#1 : BitVec 1).setWidth 32).toInt = 1 from by decide]
    simp
  · rw [if_neg h]
    have hb : (a == b) = false := beq_eq_false_iff_ne.mpr h
    have e : IntOp.cmpi .eq a b = 0#1 := by
      show BitVec.ofBool (a == b) = 0#1
      rw [hb]; rfl
    rw [e]
    show (((((0#1 : BitVec 1).setWidth 32).toInt : ℤ) : ℝ) : EReal) = 0
    rw [show ((0#1 : BitVec 1).setWidth 32).toInt = 0 from by decide]
    simp

/-- The matmul's left operand index on axis 0 is the contraction position; -/
theorem lhs_pool_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
/-- on axis 1 the output's row; -/
theorem lhs_pool_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- the right operand's on axis 0 the contraction position; -/
theorem rhs_pool_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
/-- on axis 1 the output's column. -/
theorem rhs_pool_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- What one point adds at (g, j): the sum, over the 2000 rows of its block, of the rows whose graph id is the word g. -/
def blockSum (ids : Vec Ideal S2000x1 .i32) (x : Vec Ideal S2000x128 .f32) (g : Fin 512) (j : Fin 128) : EReal :=
  ∑ r : Fin 2000, if ids (ix2 r (0 : Fin 1)) = BitVec.ofNat 32 g.val then x (ix2 r j) else 0

/-- The update at (g, j): the accumulator there plus the block's sum.  The one-hot factor is 1 or 0, and on the
    extended reals 1 · y = y and 0 · y = 0 for every y. -/
theorem pay2_apply (ids : Vec Ideal S2000x1 .i32) (acc : Vec Ideal S512x128 .f32) (x : Vec Ideal S2000x128 .f32)
    (g : Fin 512) (j : Fin 128) :
    k4_pay2 (F := Ideal) ids acc x (ix2 g j) = acc (ix2 g j) + blockSum ids x g j := by
  unfold k4_pay2
  simp only [shapeCast_self]
  refine (addf_apply _ _ _).trans ?_
  refine congrArg (acc (ix2 g j) + ·) ?_
  simp only [matmul]
  refine (Ideal.matmul_constant_zero_apply _ _ _ _ _).trans ?_
  rw [← Equiv.sum_comp (contrEquiv1 dot_S2000x512_S2000x128_S512x128_0_0_1_1_n_n 2000 rfl rfl).symm]
  unfold blockSum
  refine Finset.sum_congr rfl fun k _ => ?_
  have hk := contrEquiv1_symm_val dot_S2000x512_S2000x128_S512x128_0_0_1_1_n_n 2000 rfl rfl k
  have el : dot_S2000x512_S2000x128_S512x128_0_0_1_1_n_n.lhsIdx (ix2 g j) ((contrEquiv1 dot_S2000x512_S2000x128_S512x128_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x512_S2000x128_S512x128_0_0_1_1_n_n.rhsIdx (ix2 g j) ((contrEquiv1 dot_S2000x512_S2000x128_S512x128_0_0_1_1_n_n 2000 rfl rfl).symm k) = ix2 k j := funext fun a => Fin.ext (by
    match a with
    | ⟨0, _⟩ => exact (rhs_pool_0 _ _).trans hk
    | ⟨1, _⟩ => exact rhs_pool_1 _ _)
  rw [el, er]
  have eb : broadcastTo S2000x512 ids broadcasts_S2000x1_S2000x512 (ix2 k g) = ids (ix2 k (0 : Fin 1)) :=
    broadcastTo_apply ids broadcasts_S2000x1_S2000x512 (ix2 k g) (ix2 k (0 : Fin 1)) (fun a => match a with
      | ⟨0, _⟩ => rfl
      | ⟨1, _⟩ => rfl)
  have ei : iota .tc S2000x512 32 [1] iota_S2000x512_d1_w32 (ix2 k g) = BitVec.ofNat 32 g.val :=
    iota_single_apply .tc S2000x512 32 1 iota_S2000x512_d1_w32 (ix2 k g)
  show FloatOps.sitofp (F := Ideal) .f32 ((IntOp.cmpi .eq (broadcastTo S2000x512 ids broadcasts_S2000x1_S2000x512 (ix2 k g))
      (iota .tc S2000x512 32 [1] iota_S2000x512_d1_w32 (ix2 k g))).setWidth 32) * x (ix2 k j) = _
  rw [eb, ei, onehot_word]
  by_cases h : ids (ix2 k (0 : Fin 1)) = BitVec.ofNat 32 g.val
  · rw [if_pos h, if_pos h, one_mul]
  · rw [if_neg h, if_neg h, zero_mul]

/-- The cleared accumulator is 0 everywhere. -/
theorem pay1_apply (i : S512x128.Idx) : (k4_pay1 (F := Ideal)) i = 0 := by
  unfold k4_pay1
  simp only [shapeCast_self]
  exact Ideal.ofBits_zero_f32

/-! ## The blocks the body sees are rows of the arrays -/

variable (V : (c : Dev nD) → (b : Ref sig .tc) → Buf (Elt Ideal) ((c : Thread nD τ).loc b))

/-- The node features as the region finds them; -/
abbrev xarr (c : Dev nD) : Vec Ideal S50000x128 .f32 := V c (Pipeline.arrRef spec4 0)
/-- the graph ids; -/
abbrev idarr (c : Dev nD) : Vec Ideal S50000x1 .i32 := V c (Pipeline.arrRef spec4 1)
/-- the block of 2000 feature rows the body sees at point t; -/
abbrev xblk (c : Dev nD) (t : Fin cfg4.N) : Vec Ideal S2000x128 .f32 := iblk4 V c 0 t
/-- the block of 2000 ids. -/
abbrev idblk (c : Dev nD) (t : Fin cfg4.N) : Vec Ideal S2000x1 .i32 := iblk4 V c 1 t

/-- The printed index maps of the two input windows, decided over the grid: block (t, 0) at point t. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row r of the feature block at point t is row 2000·t + r of the array. -/
theorem xblk_apply (c : Dev nD) (t : Fin cfg4.N) (r : Fin 2000) (j : Fin 128) (h : 2000 * t.val + r.val < 50000) :
    xblk V c t (ix2 r j) = xarr V c (ix2 (⟨2000 * t.val + r.val, h⟩ : Fin 50000) j) := by
  obtain ⟨e0, e1, -, -⟩ := idx_facts t
  show ((cfg4.win 0).blk t).view.read (Elt Ideal) (V c (Pipeline.arrRef spec4 0)) (ix2 r j) = _
  rw [View.read_apply]
  show V c (Pipeline.arrRef spec4 0) (((cfg4.win 0).blk t).view.emb (ix2 r j)) = V c (Pipeline.arrRef spec4 0) _
  refine congrArg (V c (Pipeline.arrRef spec4 0)) (funext fun a => Fin.ext ?_)
  match a with
  | ⟨0, _⟩ => show win4_0.index t (0 : Fin 2) * 2000 + 1 * r.val = 2000 * t.val + r.val; rw [e0]; omega
  | ⟨1, _⟩ => show win4_0.index t (1 : Fin 2) * 128 + 1 * j.val = j.val; rw [e1]; omega

/-- Row r of the id block at point t is row 2000·t + r of the id column. -/
theorem idblk_apply (c : Dev nD) (t : Fin cfg4.N) (r : Fin 2000) (h : 2000 * t.val + r.val < 50000) :
    idblk V c t (ix2 r (0 : Fin 1)) = idarr V c (ix2 (⟨2000 * t.val + r.val, h⟩ : Fin 50000) (0 : Fin 1)) := by
  obtain ⟨-, -, e0, e1⟩ := idx_facts t
  show ((cfg4.win 1).blk t).view.read (Elt Ideal) (V c (Pipeline.arrRef spec4 1)) (ix2 r (0 : Fin 1)) = _
  rw [View.read_apply]
  show V c (Pipeline.arrRef spec4 1) (((cfg4.win 1).blk t).view.emb (ix2 r (0 : Fin 1))) = V c (Pipeline.arrRef spec4 1) _
  refine congrArg (V c (Pipeline.arrRef spec4 1)) (funext fun a => Fin.ext ?_)
  match a with
  | ⟨0, _⟩ => show win4_1.index t (0 : Fin 2) * 2000 + 1 * r.val = 2000 * t.val + r.val; rw [e0]; omega
  | ⟨1, _⟩ => show win4_1.index t (1 : Fin 2) * 1 + 1 * 0 = 0; rw [e1]

/-! ## The accumulator after the points 0 … n -/

/-- Node m's contribution at (g, j): its feature j when its graph id is the word g; nothing past the last node. -/
def nodeTerm (c : Dev nD) (g : Fin 512) (j : Fin 128) (m : ℕ) : EReal :=
  if h : m < 50000 then
    (if idarr V c (ix2 (⟨m, h⟩ : Fin 50000) (0 : Fin 1)) = BitVec.ofNat 32 g.val then xarr V c (ix2 (⟨m, h⟩ : Fin 50000) j) else 0)
  else 0

/-- What point t adds is the contributions of the nodes 2000·t … 2000·t + 1999. -/
theorem blockSum_eq (c : Dev nD) (t : Fin cfg4.N) (g : Fin 512) (j : Fin 128) :
    blockSum (idblk V c t) (xblk V c t) g j = ∑ r ∈ Finset.range 2000, nodeTerm V c g j (2000 * t.val + r) := by
  rw [Finset.sum_range]
  unfold blockSum
  refine Finset.sum_congr rfl fun r _ => ?_
  have hN : cfg4.N = 25 := N_4
  have h : 2000 * t.val + r.val < 50000 := by have h1 := t.isLt; have h2 := r.isLt; omega
  rw [idblk_apply V c t r h, xblk_apply V c t r j h]
  unfold nodeTerm
  rw [dif_pos h]

/-- After the points 0 … n the accumulator holds, at (g, j), the contributions of the first 2000·(n+1) nodes: by
    induction on the point, each point adding its block's. -/
theorem acc4_apply (c : Dev nD) (g : Fin 512) (j : Fin 128) : ∀ (n : ℕ) (hn : n < cfg4.N),
    acc4 (F := Ideal) V c n hn (ix2 g j) = ∑ m ∈ Finset.range (2000 * (n + 1)), nodeTerm V c g j m
  | 0, hn => by
    show k4_pay2 (F := Ideal) (idblk V c ⟨0, hn⟩) (k4_pay1 (F := Ideal)) (xblk V c ⟨0, hn⟩) (ix2 g j) = _
    rw [pay2_apply, pay1_apply, zero_add, blockSum_eq]
    show ∑ r ∈ Finset.range 2000, nodeTerm V c g j (2000 * 0 + r) = ∑ m ∈ Finset.range (2000 * (0 + 1)), nodeTerm V c g j m
    simp only [Nat.mul_zero, Nat.zero_add, Nat.mul_one]
  | n + 1, hn => by
    show k4_pay2 (F := Ideal) (idblk V c ⟨n + 1, hn⟩) (acc4 (F := Ideal) V c n (Nat.lt_of_succ_lt hn)) (xblk V c ⟨n + 1, hn⟩) (ix2 g j) = _
    rw [pay2_apply, acc4_apply c g j n (Nat.lt_of_succ_lt hn), blockSum_eq]
    rw [show 2000 * (n + 1 + 1) = 2000 * (n + 1) + 2000 from by omega, Finset.sum_range_add]

/-! ## The output array after the run -/

/-- The pool of the specification, as contents of the output array. -/
abbrev poolArr (c : Dev nD) : Vec Ideal S512x128 .f32 := Cert.Spec.poolG (xarr V c) (idarr V c)

/-- After the last point the accumulator is the pool: 2000 · 25 is the number of nodes. -/
theorem acc4_last (c : Dev nD) (h : 24 < cfg4.N) : acc4 (F := Ideal) V c 24 h = poolArr V c := by
  funext i
  obtain ⟨g, j, rfl⟩ : ∃ (g : Fin 512) (j : Fin 128), i = ix2 g j := ⟨i 0, i 1, eq_ix2 i⟩
  rw [acc4_apply V c g j 24 h]
  show ∑ m ∈ Finset.range 50000, nodeTerm V c g j m
    = ∑ n : Fin 50000, (if idarr V c (ix2 n (0 : Fin 1)) = BitVec.ofNat 32 g.val then xarr V c (ix2 n j) else 0)
  rw [Finset.sum_range]
  refine Finset.sum_congr rfl fun n _ => ?_
  unfold nodeTerm
  rw [dif_pos n.isLt]

/-- The last point of the grid. -/
abbrev tLast : Fin cfg4.N := ⟨24, by rw [show cfg4.N = 25 from N_4]; decide⟩

/-- The one write-back, at the last point, writes the pool: the output's block is the whole array, read through zero
    offsets. -/
theorem flushed_eq (c : Dev nD) (t : Fin cfg4.N) (hf : (cfg4.win 2).flush t = true) :
    (dat4 (F := Ideal) V c).flushed 2 t = ((cfg4.win 2).blk t).view.read (Elt Ideal) (poolArr V c) := by
  have hN : cfg4.N = 25 := N_4
  have h24 : t.val = 24 := by have h1 := (flush4_2 t).mp hf; have h2 := t.isLt; omega
  obtain rfl : t = tLast := Fin.ext h24
  show (cfg4.win 2).cut (grid4.coords tLast) ((dat4 (F := Ideal) V c).after 2 tLast) = _
  rw [after4_2, acc4_last]
  have hz' : (fun a => win4_2.index tLast a * main_v89.ty.shape.size a) = fun _ => 0 := funext fun a => by fin_cases a <;> decide +kernel
  exact (Memref.read_access_unit_zero (Elt Ideal) main_v89 hz' (fun a => by rw [congrFun hz' a]; simp) (poolArr V c)).symm

/-- So the output array ends holding the pool of the node features by graph id: the last point's block covers it. -/
theorem pool_final (c : Dev nD) :
    (dat4 (F := Ideal) V c).arrAt 2 cfg4.N = Cert.Spec.poolG (V c (Pipeline.arrRef spec4 0)) (V c (Pipeline.arrRef spec4 1)) :=
  (dat4 (F := Ideal) V c).arrAt_eq_of_cover 2 (poolArr V c) (flushed_eq V c) fun i =>
    ⟨tLast, (flush4_2 tLast).mpr rfl, by
      show i ∈ ((View.whole main_v89).slice (win4_2.rect tLast)).set
      rw [View.set_slice_whole, Rect.mem_set_unit]
      intro a
      have h0 : (i 0 : Nat) < 512 := (i 0).isLt
      have h1 : (i 1 : Nat) < 128 := (i 1).isLt
      match a with
      | ⟨0, _⟩ => show win4_2.index tLast 0 * win4_2.size 0 ≤ (i 0 : Nat) ∧ (i 0 : Nat) < win4_2.index tLast 0 * win4_2.size 0 + win4_2.xsize (grid4.coords tLast) 0
                  rw [show win4_2.index tLast 0 * win4_2.size 0 = 0 from by decide +kernel, show win4_2.xsize (grid4.coords tLast) 0 = 512 from by decide +kernel]; omega
      | ⟨1, _⟩ => show win4_2.index tLast 1 * win4_2.size 1 ≤ (i 1 : Nat) ∧ (i 1 : Nat) < win4_2.index tLast 1 * win4_2.size 1 + win4_2.xsize (grid4.coords tLast) 1
                  rw [show win4_2.index tLast 1 * win4_2.size 1 = 0 from by decide +kernel, show win4_2.xsize (grid4.coords tLast) 1 = 128 from by decide +kernel]; omega⟩

end Cert.KernelIdeal.Val

end
-- ==== Proof.KI.HostValue.lean ====
/-
  What the host stretches of @main compute, at the ideal instance, as functions of the buffer contents they start from.

  Before each of the four layer kernels the host prepares six arrays.  The aggregation: with the edge list's first row
  as source nodes s and its second row as destination nodes d (each row sliced off the 2 × 1600000 index array and
  flattened), a negative source index is shifted up by the node count 50000, the node features' rows are gathered at
  the sources, and the gathered rows are scatter-added at the destinations into a zero array: row n of the result is
  the sum of the feature rows x[s e] over the edges e with d e = n.  The two weight matrices: slice k of a 4 × 128 × 128
  stack, flattened to 128 × 128.  The two bias rows: row k of a 4 × 128 stack, flattened to 128 and set up again as
  1 × 128.  Layer k's stretch uses slice k; the source and destination vectors are made once, by the first stretch,
  and read again by the later ones.  Before the pooling kernel the host reshapes the graph ids to a column.

  Each lemma reads the fold of a stretch's operations at one reference: every operation rewrites its own result
  reference to its function's value of its operands' contents and leaves every other reference, so the contents of a
  reference after the stretch is the composed term of the operations it depends on, over the contents at entry.
-/
import proofs.«421570_j62362925138436_1_alg».proof.Proof.Gen.KernelIdeal.Launch
import proofs.«421570_j62362925138436_1_alg».proof.Proof.Gen.KernelIdeal.Regions
import Idealize.ShloMosaic.Lib.StableHlo.Run
import Idealize.ShloMosaic.PureOps.Ideal

set_option maxRecDepth 16384

noncomputable section

namespace Cert.KernelIdeal.Val

open Idealize.ShloMosaic Idealize.ShloMosaic.TcCoe
open Idealize.ShloMosaic.StableHlo
open Cert.KernelIdeal Cert.KernelIdeal.Gen

/-! ## The functions -/

/-- The source nodes: row 0 of the edge list, flattened. -/
def srcK (ei : IVec S2x1600000 32) : IVec S1600000 32 :=
  fun i => shapeCast S1600000 (extractStridedSlice S1x1600000 ![0, 0] ei slices_S2x1600000_S1x1600000_0_0)
    shapeCasts_S1x1600000_S1600000 i

/-- The destination nodes: row 1 of the edge list, flattened. -/
def dstK (ei : IVec S2x1600000 32) : IVec S1600000 32 :=
  fun i => shapeCast S1600000 (extractStridedSlice S1x1600000 ![1, 0] ei slices_S2x1600000_S1x1600000_1_0)
    shapeCasts_S1x1600000_S1600000 i

/-- The aggregation: the rows of `x` gathered at the sources (a negative source shifted up by 50000) and scatter-added
    at the destinations into zeros. -/
def aggK (x : FVec Ideal S50000x128 .f32) (s d : IVec S1600000 32) : FVec Ideal S50000x128 .f32 :=
  Host.scatterAdd scatter_S50000x128_S1600000x1_S1600000x128_1_0_0_1
    (broadcastInDim S50000x128 ![] bcast_S_S50000x128 (constant (F := Ideal) S_ FTy.f32 0x00000000#32))
    (broadcastInDim S1600000x1 ![0] bcast_S1600000_S1600000x1_0 d)
    (Host.gather gather_S50000x128_S1600000x1_S1600000x128_1_0_n_n_0_1_1128 x
      (broadcastInDim S1600000x1 ![0] bcast_S1600000_S1600000x1_0
        (select
          (cmpi CmpIPredicate.slt s (broadcastInDim S1600000 ![] bcast_S_S1600000 (constantI S_ 32 0#32)))
          (addi s (broadcastInDim S1600000 ![] bcast_S_S1600000 (constantI S_ 32 50000#32)))
          s)))

/-- Slice `k` of a stack of four 128 × 128 matrices, as a 128 × 128 matrix. -/
def wK (k : Fin 4) (Ws : FVec Ideal S4x128x128 .f32) : FVec Ideal S128x128 .f32 :=
  match k with
  | 0 => fun i => shapeCast S128x128 (extractStridedSlice S1x128x128 ![0, 0, 0] Ws slices_S4x128x128_S1x128x128_0_0_0)
      shapeCasts_S1x128x128_S128x128 i
  | 1 => fun i => shapeCast S128x128 (extractStridedSlice S1x128x128 ![1, 0, 0] Ws slices_S4x128x128_S1x128x128_1_0_0)
      shapeCasts_S1x128x128_S128x128 i
  | 2 => fun i => shapeCast S128x128 (extractStridedSlice S1x128x128 ![2, 0, 0] Ws slices_S4x128x128_S1x128x128_2_0_0)
      shapeCasts_S1x128x128_S128x128 i
  | 3 => fun i => shapeCast S128x128 (extractStridedSlice S1x128x128 ![3, 0, 0] Ws slices_S4x128x128_S1x128x128_3_0_0)
      shapeCasts_S1x128x128_S128x128 i

/-- Row `k` of a stack of four rows of 128, as a 1 × 128 row: sliced, flattened to 128, set up again as 1 × 128. -/
def bK (k : Fin 4) (bs : FVec Ideal S4x128 .f32) : FVec Ideal S1x128 .f32 :=
  match k with
  | 0 => fun i => shapeCast S1x128 (fun j => shapeCast S128 (extractStridedSlice S1x128 ![0, 0] bs slices_S4x128_S1x128_0_0)
      shapeCasts_S1x128_S128 j) shapeCasts_S128_S1x128 i
  | 1 => fun i => shapeCast S1x128 (fun j => shapeCast S128 (extractStridedSlice S1x128 ![1, 0] bs slices_S4x128_S1x128_1_0)
      shapeCasts_S1x128_S128 j) shapeCasts_S128_S1x128 i
  | 2 => fun i => shapeCast S1x128 (fun j => shapeCast S128 (extractStridedSlice S1x128 ![2, 0] bs slices_S4x128_S1x128_2_0)
      shapeCasts_S1x128_S128 j) shapeCasts_S128_S1x128 i
  | 3 => fun i => shapeCast S1x128 (fun j => shapeCast S128 (extractStridedSlice S1x128 ![3, 0] bs slices_S4x128_S1x128_3_0)
      shapeCasts_S1x128_S128 j) shapeCasts_S128_S1x128 i

/-- The graph ids as a column. -/
def idsK (ids : IVec S50000 32) : IVec S50000x1 32 :=
  fun i => shapeCast S50000x1 ids shapeCasts_S50000_S50000x1 i

/-! ## The stretches' results -/

variable (W : Valuation τ sig (Elt Ideal))

/-! ### Before the first layer: the edge rows, the aggregation, slice 0 of the weights and biases -/

theorem host0_v1 : StableHlo.after (hostOps0 (F := Ideal)) W (Proc.devRef .tc main_v1)
    = srcK (W (Proc.devRef .tc main_arg1)) := by
  after_results_simp; rfl

theorem host0_v3 : StableHlo.after (hostOps0 (F := Ideal)) W (Proc.devRef .tc main_v3)
    = dstK (W (Proc.devRef .tc main_arg1)) := by
  after_results_simp; rfl

set_option maxHeartbeats 1000000 in
theorem host0_v13 : StableHlo.after (hostOps0 (F := Ideal)) W (Proc.devRef .tc main_v13)
    = aggK (W (Proc.devRef .tc main_arg0)) (srcK (W (Proc.devRef .tc main_arg1))) (dstK (W (Proc.devRef .tc main_arg1))) := by
  after_results_simp; rfl

theorem host0_v15 : StableHlo.after (hostOps0 (F := Ideal)) W (Proc.devRef .tc main_v15)
    = wK 0 (W (Proc.devRef .tc main_arg3)) := by
  after_results_simp; rfl

theorem host0_v22 : StableHlo.after (hostOps0 (F := Ideal)) W (Proc.devRef .tc main_v22)
    = bK 0 (W (Proc.devRef .tc main_arg4)) := by
  after_results_simp; rfl

theorem host0_v19 : StableHlo.after (hostOps0 (F := Ideal)) W (Proc.devRef .tc main_v19)
    = wK 0 (W (Proc.devRef .tc main_arg5)) := by
  after_results_simp; rfl

theorem host0_v23 : StableHlo.after (hostOps0 (F := Ideal)) W (Proc.devRef .tc main_v23)
    = bK 0 (W (Proc.devRef .tc main_arg6)) := by
  after_results_simp; rfl

/-! ### Before the second layer: the aggregation of the previous layer's output over the same edge rows, slice 1 -/

set_option maxHeartbeats 1000000 in
theorem host1_v34 : StableHlo.after (hostOps1 (F := Ideal)) W (Proc.devRef .tc main_v34)
    = aggK (W (Proc.devRef .tc main_v24)) (W (Proc.devRef .tc main_v1)) (W (Proc.devRef .tc main_v3)) := by
  after_results_simp; rfl

theorem host1_v36 : StableHlo.after (hostOps1 (F := Ideal)) W (Proc.devRef .tc main_v36)
    = wK 1 (W (Proc.devRef .tc main_arg3)) := by
  after_results_simp; rfl

theorem host1_v43 : StableHlo.after (hostOps1 (F := Ideal)) W (Proc.devRef .tc main_v43)
    = bK 1 (W (Proc.devRef .tc main_arg4)) := by
  after_results_simp; rfl

theorem host1_v40 : StableHlo.after (hostOps1 (F := Ideal)) W (Proc.devRef .tc main_v40)
    = wK 1 (W (Proc.devRef .tc main_arg5)) := by
  after_results_simp; rfl

theorem host1_v44 : StableHlo.after (hostOps1 (F := Ideal)) W (Proc.devRef .tc main_v44)
    = bK 1 (W (Proc.devRef .tc main_arg6)) := by
  after_results_simp; rfl

/-! ### Before the third layer: the aggregation of the previous layer's output over the same edge rows, slice 2 -/

set_option maxHeartbeats 1000000 in
theorem host2_v55 : StableHlo.after (hostOps2 (F := Ideal)) W (Proc.devRef .tc main_v55)
    = aggK (W (Proc.devRef .tc main_v45)) (W (Proc.devRef .tc main_v1)) (W (Proc.devRef .tc main_v3)) := by
  after_results_simp; rfl

theorem host2_v57 : StableHlo.after (hostOps2 (F := Ideal)) W (Proc.devRef .tc main_v57)
    = wK 2 (W (Proc.devRef .tc main_arg3)) := by
  after_results_simp; rfl

theorem host2_v64 : StableHlo.after (hostOps2 (F := Ideal)) W (Proc.devRef .tc main_v64)
    = bK 2 (W (Proc.devRef .tc main_arg4)) := by
  after_results_simp; rfl

theorem host2_v61 : StableHlo.after (hostOps2 (F := Ideal)) W (Proc.devRef .tc main_v61)
    = wK 2 (W (Proc.devRef .tc main_arg5)) := by
  after_results_simp; rfl

theorem host2_v65 : StableHlo.after (hostOps2 (F := Ideal)) W (Proc.devRef .tc main_v65)
    = bK 2 (W (Proc.devRef .tc main_arg6)) := by
  after_results_simp; rfl

/-! ### Before the fourth layer: the aggregation of the previous layer's output over the same edge rows, slice 3 -/

set_option maxHeartbeats 1000000 in
theorem host3_v76 : StableHlo.after (hostOps3 (F := Ideal)) W (Proc.devRef .tc main_v76)
    = aggK (W (Proc.devRef .tc main_v66)) (W (Proc.devRef .tc main_v1)) (W (Proc.devRef .tc main_v3)) := by
  after_results_simp; rfl

theorem host3_v78 : StableHlo.after (hostOps3 (F := Ideal)) W (Proc.devRef .tc main_v78)
    = wK 3 (W (Proc.devRef .tc main_arg3)) := by
  after_results_simp; rfl

theorem host3_v85 : StableHlo.after (hostOps3 (F := Ideal)) W (Proc.devRef .tc main_v85)
    = bK 3 (W (Proc.devRef .tc main_arg4)) := by
  after_results_simp; rfl

theorem host3_v82 : StableHlo.after (hostOps3 (F := Ideal)) W (Proc.devRef .tc main_v82)
    = wK 3 (W (Proc.devRef .tc main_arg5)) := by
  after_results_simp; rfl

theorem host3_v86 : StableHlo.after (hostOps3 (F := Ideal)) W (Proc.devRef .tc main_v86)
    = bK 3 (W (Proc.devRef .tc main_arg6)) := by
  after_results_simp; rfl

/-! ### Before the pooling: the graph ids as a column -/

theorem host4_v88 : StableHlo.after (hostOps4 (F := Ideal)) W (Proc.devRef .tc main_v88)
    = idsK (W (Proc.devRef .tc main_arg2)) := by
  after_results_simp; rfl

end Cert.KernelIdeal.Val
-- ==== Proof.KI.OutK.lean ====
/-
  The idealized kernel program's result as a function of its arguments: four times the node update of the node array and
  its aggregation along the edges, with the layer's parameter slices, then the pool of the last node array at the graph
  ids as a column.
-/
import proofs.«421570_j62362925138436_1_alg».proof.Proof.KI.HostValue
import proofs.«421570_j62362925138436_1_alg».proof.Proof.Spec

noncomputable section

namespace Cert.KernelIdeal.Val

open Idealize.ShloMosaic Idealize.ShloMosaic.TcCoe Idealize.SL.Sem
open Cert.KernelIdeal Cert.KernelIdeal.Gen

/-- One layer of the kernel program: the node update of the node array, its aggregation along the edges, and the
    layer's parameters. -/
def layerK (k : Fin 4) (x : FVec Ideal S50000x128 .f32) (ei : IVec S2x1600000 32) (Ws1 : FVec Ideal S4x128x128 .f32)
    (bs1 : FVec Ideal S4x128 .f32) (Ws2 : FVec Ideal S4x128x128 .f32) (bs2 : FVec Ideal S4x128 .f32) : FVec Ideal S50000x128 .f32 :=
  Cert.Spec.mlpG x (aggK x (srcK ei) (dstK ei)) (wK k Ws1) (bK k bs1) (wK k Ws2) (bK k bs2)

/-- The kernel program's result: the pool of the fourth layer's node array. -/
def outK (x : FVec Ideal S50000x128 .f32) (ei : IVec S2x1600000 32) (ids : IVec S50000 32) (Ws1 : FVec Ideal S4x128x128 .f32)
    (bs1 : FVec Ideal S4x128 .f32) (Ws2 : FVec Ideal S4x128x128 .f32) (bs2 : FVec Ideal S4x128 .f32) : FVec Ideal S512x128 .f32 :=
  Cert.Spec.poolG (layerK 3 (layerK 2 (layerK 1 (layerK 0 x ei Ws1 bs1 Ws2 bs2) ei Ws1 bs1 Ws2 bs2) ei Ws1 bs1 Ws2 bs2) ei Ws1 bs1 Ws2 bs2) (idsK ids)

end Cert.KernelIdeal.Val

end
-- ==== Proof.KI.Trace.lean ====
/-
  The idealized kernel program's result as a function of its arguments.  Reading the boundary contents back through the
  program: each host stretch leaves, for its layer, the aggregation of the current node array along the edges, the layer's
  two weight matrices and its two bias rows; each MLP region leaves the layer's node update of those; the last stretch
  leaves the graph ids as a column; the pool region leaves the pool of the last node array.  A buffer a segment does not
  write is carried along unchanged, so the edge endpoints computed by the first stretch and the argument arrays are the
  same at every later boundary.
-/
import proofs.«421570_j62362925138436_1_alg».proof.Proof.KI.Run
import proofs.«421570_j62362925138436_1_alg».proof.Proof.KI.MlpValue0
import proofs.«421570_j62362925138436_1_alg».proof.Proof.KI.MlpValue1
import proofs.«421570_j62362925138436_1_alg».proof.Proof.KI.MlpValue2
import proofs.«421570_j62362925138436_1_alg».proof.Proof.KI.MlpValue3
import proofs.«421570_j62362925138436_1_alg».proof.Proof.KI.PoolValue
import proofs.«421570_j62362925138436_1_alg».proof.Proof.KI.OutK

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-! ## The arguments and the edge endpoints at every boundary -/
theorem Wv0_arg0 (c : Dev nD) : Wv0 m ρ c (Proc.devRef .tc main_arg0) = m ((c : Thread nD τ).loc main_arg0) := rfl
theorem Wv1_arg0 (c : Dev nD) : Wv1 m ρ c (Proc.devRef .tc main_arg0) = m ((c : Thread nD τ).loc main_arg0) :=
  (Wv1_keep m ρ c main_arg0 (by decide)).trans (Wv0_arg0 m ρ c)
theorem Wv2_arg0 (c : Dev nD) : Wv2 m ρ c (Proc.devRef .tc main_arg0) = m ((c : Thread nD τ).loc main_arg0) :=
  (Wv2_keep m ρ c main_arg0 (by decide)).trans (Wv1_arg0 m ρ c)
theorem Wv3_arg0 (c : Dev nD) : Wv3 m ρ c (Proc.devRef .tc main_arg0) = m ((c : Thread nD τ).loc main_arg0) :=
  (Wv3_keep m ρ c main_arg0 (by decide)).trans (Wv2_arg0 m ρ c)
theorem Wv4_arg0 (c : Dev nD) : Wv4 m ρ c (Proc.devRef .tc main_arg0) = m ((c : Thread nD τ).loc main_arg0) :=
  (Wv4_keep m ρ c main_arg0 (by decide)).trans (Wv3_arg0 m ρ c)
theorem Wv5_arg0 (c : Dev nD) : Wv5 m ρ c (Proc.devRef .tc main_arg0) = m ((c : Thread nD τ).loc main_arg0) :=
  (Wv5_keep m ρ c main_arg0 (by decide)).trans (Wv4_arg0 m ρ c)
theorem Wv6_arg0 (c : Dev nD) : Wv6 m ρ c (Proc.devRef .tc main_arg0) = m ((c : Thread nD τ).loc main_arg0) :=
  (Wv6_keep m ρ c main_arg0 (by decide)).trans (Wv5_arg0 m ρ c)
theorem Wv7_arg0 (c : Dev nD) : Wv7 m ρ c (Proc.devRef .tc main_arg0) = m ((c : Thread nD τ).loc main_arg0) :=
  (Wv7_keep m ρ c main_arg0 (by decide)).trans (Wv6_arg0 m ρ c)
theorem Wv8_arg0 (c : Dev nD) : Wv8 m ρ c (Proc.devRef .tc main_arg0) = m ((c : Thread nD τ).loc main_arg0) :=
  (Wv8_keep m ρ c main_arg0 (by decide)).trans (Wv7_arg0 m ρ c)
theorem Wv9_arg0 (c : Dev nD) : Wv9 m ρ c (Proc.devRef .tc main_arg0) = m ((c : Thread nD τ).loc main_arg0) :=
  (Wv9_keep m ρ c main_arg0 (by decide)).trans (Wv8_arg0 m ρ c)
theorem Wv0_arg1 (c : Dev nD) : Wv0 m ρ c (Proc.devRef .tc main_arg1) = m ((c : Thread nD τ).loc main_arg1) := rfl
theorem Wv1_arg1 (c : Dev nD) : Wv1 m ρ c (Proc.devRef .tc main_arg1) = m ((c : Thread nD τ).loc main_arg1) :=
  (Wv1_keep m ρ c main_arg1 (by decide)).trans (Wv0_arg1 m ρ c)
theorem Wv2_arg1 (c : Dev nD) : Wv2 m ρ c (Proc.devRef .tc main_arg1) = m ((c : Thread nD τ).loc main_arg1) :=
  (Wv2_keep m ρ c main_arg1 (by decide)).trans (Wv1_arg1 m ρ c)
theorem Wv3_arg1 (c : Dev nD) : Wv3 m ρ c (Proc.devRef .tc main_arg1) = m ((c : Thread nD τ).loc main_arg1) :=
  (Wv3_keep m ρ c main_arg1 (by decide)).trans (Wv2_arg1 m ρ c)
theorem Wv4_arg1 (c : Dev nD) : Wv4 m ρ c (Proc.devRef .tc main_arg1) = m ((c : Thread nD τ).loc main_arg1) :=
  (Wv4_keep m ρ c main_arg1 (by decide)).trans (Wv3_arg1 m ρ c)
theorem Wv5_arg1 (c : Dev nD) : Wv5 m ρ c (Proc.devRef .tc main_arg1) = m ((c : Thread nD τ).loc main_arg1) :=
  (Wv5_keep m ρ c main_arg1 (by decide)).trans (Wv4_arg1 m ρ c)
theorem Wv6_arg1 (c : Dev nD) : Wv6 m ρ c (Proc.devRef .tc main_arg1) = m ((c : Thread nD τ).loc main_arg1) :=
  (Wv6_keep m ρ c main_arg1 (by decide)).trans (Wv5_arg1 m ρ c)
theorem Wv7_arg1 (c : Dev nD) : Wv7 m ρ c (Proc.devRef .tc main_arg1) = m ((c : Thread nD τ).loc main_arg1) :=
  (Wv7_keep m ρ c main_arg1 (by decide)).trans (Wv6_arg1 m ρ c)
theorem Wv8_arg1 (c : Dev nD) : Wv8 m ρ c (Proc.devRef .tc main_arg1) = m ((c : Thread nD τ).loc main_arg1) :=
  (Wv8_keep m ρ c main_arg1 (by decide)).trans (Wv7_arg1 m ρ c)
theorem Wv9_arg1 (c : Dev nD) : Wv9 m ρ c (Proc.devRef .tc main_arg1) = m ((c : Thread nD τ).loc main_arg1) :=
  (Wv9_keep m ρ c main_arg1 (by decide)).trans (Wv8_arg1 m ρ c)
theorem Wv0_arg2 (c : Dev nD) : Wv0 m ρ c (Proc.devRef .tc main_arg2) = m ((c : Thread nD τ).loc main_arg2) := rfl
theorem Wv1_arg2 (c : Dev nD) : Wv1 m ρ c (Proc.devRef .tc main_arg2) = m ((c : Thread nD τ).loc main_arg2) :=
  (Wv1_keep m ρ c main_arg2 (by decide)).trans (Wv0_arg2 m ρ c)
theorem Wv2_arg2 (c : Dev nD) : Wv2 m ρ c (Proc.devRef .tc main_arg2) = m ((c : Thread nD τ).loc main_arg2) :=
  (Wv2_keep m ρ c main_arg2 (by decide)).trans (Wv1_arg2 m ρ c)
theorem Wv3_arg2 (c : Dev nD) : Wv3 m ρ c (Proc.devRef .tc main_arg2) = m ((c : Thread nD τ).loc main_arg2) :=
  (Wv3_keep m ρ c main_arg2 (by decide)).trans (Wv2_arg2 m ρ c)
theorem Wv4_arg2 (c : Dev nD) : Wv4 m ρ c (Proc.devRef .tc main_arg2) = m ((c : Thread nD τ).loc main_arg2) :=
  (Wv4_keep m ρ c main_arg2 (by decide)).trans (Wv3_arg2 m ρ c)
theorem Wv5_arg2 (c : Dev nD) : Wv5 m ρ c (Proc.devRef .tc main_arg2) = m ((c : Thread nD τ).loc main_arg2) :=
  (Wv5_keep m ρ c main_arg2 (by decide)).trans (Wv4_arg2 m ρ c)
theorem Wv6_arg2 (c : Dev nD) : Wv6 m ρ c (Proc.devRef .tc main_arg2) = m ((c : Thread nD τ).loc main_arg2) :=
  (Wv6_keep m ρ c main_arg2 (by decide)).trans (Wv5_arg2 m ρ c)
theorem Wv7_arg2 (c : Dev nD) : Wv7 m ρ c (Proc.devRef .tc main_arg2) = m ((c : Thread nD τ).loc main_arg2) :=
  (Wv7_keep m ρ c main_arg2 (by decide)).trans (Wv6_arg2 m ρ c)
theorem Wv8_arg2 (c : Dev nD) : Wv8 m ρ c (Proc.devRef .tc main_arg2) = m ((c : Thread nD τ).loc main_arg2) :=
  (Wv8_keep m ρ c main_arg2 (by decide)).trans (Wv7_arg2 m ρ c)
theorem Wv9_arg2 (c : Dev nD) : Wv9 m ρ c (Proc.devRef .tc main_arg2) = m ((c : Thread nD τ).loc main_arg2) :=
  (Wv9_keep m ρ c main_arg2 (by decide)).trans (Wv8_arg2 m ρ c)
theorem Wv0_arg3 (c : Dev nD) : Wv0 m ρ c (Proc.devRef .tc main_arg3) = m ((c : Thread nD τ).loc main_arg3) := rfl
theorem Wv1_arg3 (c : Dev nD) : Wv1 m ρ c (Proc.devRef .tc main_arg3) = m ((c : Thread nD τ).loc main_arg3) :=
  (Wv1_keep m ρ c main_arg3 (by decide)).trans (Wv0_arg3 m ρ c)
theorem Wv2_arg3 (c : Dev nD) : Wv2 m ρ c (Proc.devRef .tc main_arg3) = m ((c : Thread nD τ).loc main_arg3) :=
  (Wv2_keep m ρ c main_arg3 (by decide)).trans (Wv1_arg3 m ρ c)
theorem Wv3_arg3 (c : Dev nD) : Wv3 m ρ c (Proc.devRef .tc main_arg3) = m ((c : Thread nD τ).loc main_arg3) :=
  (Wv3_keep m ρ c main_arg3 (by decide)).trans (Wv2_arg3 m ρ c)
theorem Wv4_arg3 (c : Dev nD) : Wv4 m ρ c (Proc.devRef .tc main_arg3) = m ((c : Thread nD τ).loc main_arg3) :=
  (Wv4_keep m ρ c main_arg3 (by decide)).trans (Wv3_arg3 m ρ c)
theorem Wv5_arg3 (c : Dev nD) : Wv5 m ρ c (Proc.devRef .tc main_arg3) = m ((c : Thread nD τ).loc main_arg3) :=
  (Wv5_keep m ρ c main_arg3 (by decide)).trans (Wv4_arg3 m ρ c)
theorem Wv6_arg3 (c : Dev nD) : Wv6 m ρ c (Proc.devRef .tc main_arg3) = m ((c : Thread nD τ).loc main_arg3) :=
  (Wv6_keep m ρ c main_arg3 (by decide)).trans (Wv5_arg3 m ρ c)
theorem Wv7_arg3 (c : Dev nD) : Wv7 m ρ c (Proc.devRef .tc main_arg3) = m ((c : Thread nD τ).loc main_arg3) :=
  (Wv7_keep m ρ c main_arg3 (by decide)).trans (Wv6_arg3 m ρ c)
theorem Wv8_arg3 (c : Dev nD) : Wv8 m ρ c (Proc.devRef .tc main_arg3) = m ((c : Thread nD τ).loc main_arg3) :=
  (Wv8_keep m ρ c main_arg3 (by decide)).trans (Wv7_arg3 m ρ c)
theorem Wv9_arg3 (c : Dev nD) : Wv9 m ρ c (Proc.devRef .tc main_arg3) = m ((c : Thread nD τ).loc main_arg3) :=
  (Wv9_keep m ρ c main_arg3 (by decide)).trans (Wv8_arg3 m ρ c)
theorem Wv0_arg4 (c : Dev nD) : Wv0 m ρ c (Proc.devRef .tc main_arg4) = m ((c : Thread nD τ).loc main_arg4) := rfl
theorem Wv1_arg4 (c : Dev nD) : Wv1 m ρ c (Proc.devRef .tc main_arg4) = m ((c : Thread nD τ).loc main_arg4) :=
  (Wv1_keep m ρ c main_arg4 (by decide)).trans (Wv0_arg4 m ρ c)
theorem Wv2_arg4 (c : Dev nD) : Wv2 m ρ c (Proc.devRef .tc main_arg4) = m ((c : Thread nD τ).loc main_arg4) :=
  (Wv2_keep m ρ c main_arg4 (by decide)).trans (Wv1_arg4 m ρ c)
theorem Wv3_arg4 (c : Dev nD) : Wv3 m ρ c (Proc.devRef .tc main_arg4) = m ((c : Thread nD τ).loc main_arg4) :=
  (Wv3_keep m ρ c main_arg4 (by decide)).trans (Wv2_arg4 m ρ c)
theorem Wv4_arg4 (c : Dev nD) : Wv4 m ρ c (Proc.devRef .tc main_arg4) = m ((c : Thread nD τ).loc main_arg4) :=
  (Wv4_keep m ρ c main_arg4 (by decide)).trans (Wv3_arg4 m ρ c)
theorem Wv5_arg4 (c : Dev nD) : Wv5 m ρ c (Proc.devRef .tc main_arg4) = m ((c : Thread nD τ).loc main_arg4) :=
  (Wv5_keep m ρ c main_arg4 (by decide)).trans (Wv4_arg4 m ρ c)
theorem Wv6_arg4 (c : Dev nD) : Wv6 m ρ c (Proc.devRef .tc main_arg4) = m ((c : Thread nD τ).loc main_arg4) :=
  (Wv6_keep m ρ c main_arg4 (by decide)).trans (Wv5_arg4 m ρ c)
theorem Wv7_arg4 (c : Dev nD) : Wv7 m ρ c (Proc.devRef .tc main_arg4) = m ((c : Thread nD τ).loc main_arg4) :=
  (Wv7_keep m ρ c main_arg4 (by decide)).trans (Wv6_arg4 m ρ c)
theorem Wv8_arg4 (c : Dev nD) : Wv8 m ρ c (Proc.devRef .tc main_arg4) = m ((c : Thread nD τ).loc main_arg4) :=
  (Wv8_keep m ρ c main_arg4 (by decide)).trans (Wv7_arg4 m ρ c)
theorem Wv9_arg4 (c : Dev nD) : Wv9 m ρ c (Proc.devRef .tc main_arg4) = m ((c : Thread nD τ).loc main_arg4) :=
  (Wv9_keep m ρ c main_arg4 (by decide)).trans (Wv8_arg4 m ρ c)
theorem Wv0_arg5 (c : Dev nD) : Wv0 m ρ c (Proc.devRef .tc main_arg5) = m ((c : Thread nD τ).loc main_arg5) := rfl
theorem Wv1_arg5 (c : Dev nD) : Wv1 m ρ c (Proc.devRef .tc main_arg5) = m ((c : Thread nD τ).loc main_arg5) :=
  (Wv1_keep m ρ c main_arg5 (by decide)).trans (Wv0_arg5 m ρ c)
theorem Wv2_arg5 (c : Dev nD) : Wv2 m ρ c (Proc.devRef .tc main_arg5) = m ((c : Thread nD τ).loc main_arg5) :=
  (Wv2_keep m ρ c main_arg5 (by decide)).trans (Wv1_arg5 m ρ c)
theorem Wv3_arg5 (c : Dev nD) : Wv3 m ρ c (Proc.devRef .tc main_arg5) = m ((c : Thread nD τ).loc main_arg5) :=
  (Wv3_keep m ρ c main_arg5 (by decide)).trans (Wv2_arg5 m ρ c)
theorem Wv4_arg5 (c : Dev nD) : Wv4 m ρ c (Proc.devRef .tc main_arg5) = m ((c : Thread nD τ).loc main_arg5) :=
  (Wv4_keep m ρ c main_arg5 (by decide)).trans (Wv3_arg5 m ρ c)
theorem Wv5_arg5 (c : Dev nD) : Wv5 m ρ c (Proc.devRef .tc main_arg5) = m ((c : Thread nD τ).loc main_arg5) :=
  (Wv5_keep m ρ c main_arg5 (by decide)).trans (Wv4_arg5 m ρ c)
theorem Wv6_arg5 (c : Dev nD) : Wv6 m ρ c (Proc.devRef .tc main_arg5) = m ((c : Thread nD τ).loc main_arg5) :=
  (Wv6_keep m ρ c main_arg5 (by decide)).trans (Wv5_arg5 m ρ c)
theorem Wv7_arg5 (c : Dev nD) : Wv7 m ρ c (Proc.devRef .tc main_arg5) = m ((c : Thread nD τ).loc main_arg5) :=
  (Wv7_keep m ρ c main_arg5 (by decide)).trans (Wv6_arg5 m ρ c)
theorem Wv8_arg5 (c : Dev nD) : Wv8 m ρ c (Proc.devRef .tc main_arg5) = m ((c : Thread nD τ).loc main_arg5) :=
  (Wv8_keep m ρ c main_arg5 (by decide)).trans (Wv7_arg5 m ρ c)
theorem Wv9_arg5 (c : Dev nD) : Wv9 m ρ c (Proc.devRef .tc main_arg5) = m ((c : Thread nD τ).loc main_arg5) :=
  (Wv9_keep m ρ c main_arg5 (by decide)).trans (Wv8_arg5 m ρ c)
theorem Wv0_arg6 (c : Dev nD) : Wv0 m ρ c (Proc.devRef .tc main_arg6) = m ((c : Thread nD τ).loc main_arg6) := rfl
theorem Wv1_arg6 (c : Dev nD) : Wv1 m ρ c (Proc.devRef .tc main_arg6) = m ((c : Thread nD τ).loc main_arg6) :=
  (Wv1_keep m ρ c main_arg6 (by decide)).trans (Wv0_arg6 m ρ c)
theorem Wv2_arg6 (c : Dev nD) : Wv2 m ρ c (Proc.devRef .tc main_arg6) = m ((c : Thread nD τ).loc main_arg6) :=
  (Wv2_keep m ρ c main_arg6 (by decide)).trans (Wv1_arg6 m ρ c)
theorem Wv3_arg6 (c : Dev nD) : Wv3 m ρ c (Proc.devRef .tc main_arg6) = m ((c : Thread nD τ).loc main_arg6) :=
  (Wv3_keep m ρ c main_arg6 (by decide)).trans (Wv2_arg6 m ρ c)
theorem Wv4_arg6 (c : Dev nD) : Wv4 m ρ c (Proc.devRef .tc main_arg6) = m ((c : Thread nD τ).loc main_arg6) :=
  (Wv4_keep m ρ c main_arg6 (by decide)).trans (Wv3_arg6 m ρ c)
theorem Wv5_arg6 (c : Dev nD) : Wv5 m ρ c (Proc.devRef .tc main_arg6) = m ((c : Thread nD τ).loc main_arg6) :=
  (Wv5_keep m ρ c main_arg6 (by decide)).trans (Wv4_arg6 m ρ c)
theorem Wv6_arg6 (c : Dev nD) : Wv6 m ρ c (Proc.devRef .tc main_arg6) = m ((c : Thread nD τ).loc main_arg6) :=
  (Wv6_keep m ρ c main_arg6 (by decide)).trans (Wv5_arg6 m ρ c)
theorem Wv7_arg6 (c : Dev nD) : Wv7 m ρ c (Proc.devRef .tc main_arg6) = m ((c : Thread nD τ).loc main_arg6) :=
  (Wv7_keep m ρ c main_arg6 (by decide)).trans (Wv6_arg6 m ρ c)
theorem Wv8_arg6 (c : Dev nD) : Wv8 m ρ c (Proc.devRef .tc main_arg6) = m ((c : Thread nD τ).loc main_arg6) :=
  (Wv8_keep m ρ c main_arg6 (by decide)).trans (Wv7_arg6 m ρ c)
theorem Wv9_arg6 (c : Dev nD) : Wv9 m ρ c (Proc.devRef .tc main_arg6) = m ((c : Thread nD τ).loc main_arg6) :=
  (Wv9_keep m ρ c main_arg6 (by decide)).trans (Wv8_arg6 m ρ c)

theorem Wv1_v1 (c : Dev nD) : Wv1 m ρ c (Proc.devRef .tc main_v1) = srcK (m ((c : Thread nD τ).loc main_arg1)) :=
  host0_v1 (Wv0 m ρ c)
theorem Wv1_v3 (c : Dev nD) : Wv1 m ρ c (Proc.devRef .tc main_v3) = dstK (m ((c : Thread nD τ).loc main_arg1)) :=
  host0_v3 (Wv0 m ρ c)
theorem Wv2_v1 (c : Dev nD) : Wv2 m ρ c (Proc.devRef .tc main_v1) = srcK (m ((c : Thread nD τ).loc main_arg1)) :=
  (Wv2_keep m ρ c main_v1 (by decide)).trans (Wv1_v1 m ρ c)
theorem Wv2_v3 (c : Dev nD) : Wv2 m ρ c (Proc.devRef .tc main_v3) = dstK (m ((c : Thread nD τ).loc main_arg1)) :=
  (Wv2_keep m ρ c main_v3 (by decide)).trans (Wv1_v3 m ρ c)
theorem Wv3_v1 (c : Dev nD) : Wv3 m ρ c (Proc.devRef .tc main_v1) = srcK (m ((c : Thread nD τ).loc main_arg1)) :=
  (Wv3_keep m ρ c main_v1 (by decide)).trans (Wv2_v1 m ρ c)
theorem Wv3_v3 (c : Dev nD) : Wv3 m ρ c (Proc.devRef .tc main_v3) = dstK (m ((c : Thread nD τ).loc main_arg1)) :=
  (Wv3_keep m ρ c main_v3 (by decide)).trans (Wv2_v3 m ρ c)
theorem Wv4_v1 (c : Dev nD) : Wv4 m ρ c (Proc.devRef .tc main_v1) = srcK (m ((c : Thread nD τ).loc main_arg1)) :=
  (Wv4_keep m ρ c main_v1 (by decide)).trans (Wv3_v1 m ρ c)
theorem Wv4_v3 (c : Dev nD) : Wv4 m ρ c (Proc.devRef .tc main_v3) = dstK (m ((c : Thread nD τ).loc main_arg1)) :=
  (Wv4_keep m ρ c main_v3 (by decide)).trans (Wv3_v3 m ρ c)
theorem Wv5_v1 (c : Dev nD) : Wv5 m ρ c (Proc.devRef .tc main_v1) = srcK (m ((c : Thread nD τ).loc main_arg1)) :=
  (Wv5_keep m ρ c main_v1 (by decide)).trans (Wv4_v1 m ρ c)
theorem Wv5_v3 (c : Dev nD) : Wv5 m ρ c (Proc.devRef .tc main_v3) = dstK (m ((c : Thread nD τ).loc main_arg1)) :=
  (Wv5_keep m ρ c main_v3 (by decide)).trans (Wv4_v3 m ρ c)
theorem Wv6_v1 (c : Dev nD) : Wv6 m ρ c (Proc.devRef .tc main_v1) = srcK (m ((c : Thread nD τ).loc main_arg1)) :=
  (Wv6_keep m ρ c main_v1 (by decide)).trans (Wv5_v1 m ρ c)
theorem Wv6_v3 (c : Dev nD) : Wv6 m ρ c (Proc.devRef .tc main_v3) = dstK (m ((c : Thread nD τ).loc main_arg1)) :=
  (Wv6_keep m ρ c main_v3 (by decide)).trans (Wv5_v3 m ρ c)

/-! ## The node array after each layer -/

/-- One layer, from what its region reads: the node update of the six arrays is the layer function of the previous node
    array and the launch arguments, once each array is identified. -/
theorem layer_step (k : Fin 4) {X A : Cert.Spec.SN.Idx → EReal} {W1 W2 : Cert.Spec.SW.Idx → EReal} {B1 B2 : Cert.Spec.SB.Idx → EReal}
    (x : FVec Ideal S50000x128 .f32) (ei : IVec S2x1600000 32) (Ws1 : FVec Ideal S4x128x128 .f32)
    (bs1 : FVec Ideal S4x128 .f32) (Ws2 : FVec Ideal S4x128x128 .f32) (bs2 : FVec Ideal S4x128 .f32)
    (hx : X = x) (hagg : A = aggK x (srcK ei) (dstK ei)) (hw1 : W1 = wK k Ws1) (hb1 : B1 = bK k bs1)
    (hw2 : W2 = wK k Ws2) (hb2 : B2 = bK k bs2) :
    Cert.Spec.mlpG X A W1 B1 W2 B2 = layerK k x ei Ws1 bs1 Ws2 bs2 := by
  subst hx hagg hw1 hb1 hw2 hb2; rfl

/-- The pool, from what its region reads. -/
theorem pool_step {X : Cert.Spec.SN.Idx → EReal} {I : Cert.Spec.SI.Idx → BitVec 32}
    (x : FVec Ideal S50000x128 .f32) (ids : IVec S50000 32) (hx : X = x) (hids : I = idsK ids) :
    Cert.Spec.poolG X I = Cert.Spec.poolG x (idsK ids) := by
  subst hx hids; rfl

/-- The node array after one, two, three and four layers, as functions of the launch memory. -/
def xK1 (c : Dev nD) : FVec Ideal S50000x128 .f32 := layerK 0 (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))
def xK2 (c : Dev nD) : FVec Ideal S50000x128 .f32 := layerK 1 (xK1 m c) (m ((c : Thread nD τ).loc main_arg1)) (m ((c : Thread nD τ).loc main_arg3))
      (m ((c : Thread nD τ).loc main_arg4)) (m ((c : Thread nD τ).loc main_arg5)) (m ((c : Thread nD τ).loc main_arg6))
def xK3 (c : Dev nD) : FVec Ideal S50000x128 .f32 := layerK 2 (xK2 m c) (m ((c : Thread nD τ).loc main_arg1)) (m ((c : Thread nD τ).loc main_arg3))
      (m ((c : Thread nD τ).loc main_arg4)) (m ((c : Thread nD τ).loc main_arg5)) (m ((c : Thread nD τ).loc main_arg6))
def xK4 (c : Dev nD) : FVec Ideal S50000x128 .f32 := layerK 3 (xK3 m c) (m ((c : Thread nD τ).loc main_arg1)) (m ((c : Thread nD τ).loc main_arg3))
      (m ((c : Thread nD τ).loc main_arg4)) (m ((c : Thread nD τ).loc main_arg5)) (m ((c : Thread nD τ).loc main_arg6))

set_option maxHeartbeats 4000000 in
/-- After region 0 the layer's output array holds the node array after 1 layer. -/
theorem Wv2_v24 (c : Dev nD) : Wv2 m ρ c (Proc.devRef .tc main_v24) = xK1 m c := by
  refine (Wv2_arr m ρ c 6).trans ((mlp_final0 (Vr1 m ρ) c).trans ?_)
  have hx : Vr1 m ρ c (Pipeline.arrRef spec0 0) = (m ((c : Thread nD τ).loc main_arg0)) := (Wv1_arg0 m ρ c)
  have hagg : Vr1 m ρ c (Pipeline.arrRef spec0 1) = aggK ((m ((c : Thread nD τ).loc main_arg0))) (srcK (m ((c : Thread nD τ).loc main_arg1))) (dstK (m ((c : Thread nD τ).loc main_arg1))) := (host0_v13 (Wv0 m ρ c))
  have hw1 : Vr1 m ρ c (Pipeline.arrRef spec0 2) = wK 0 (m ((c : Thread nD τ).loc main_arg3)) :=
    (host0_v15 (Wv0 m ρ c)).trans (by rw [Wv0_arg3 m ρ c])
  have hb1 : Vr1 m ρ c (Pipeline.arrRef spec0 3) = bK 0 (m ((c : Thread nD τ).loc main_arg4)) :=
    (host0_v22 (Wv0 m ρ c)).trans (by rw [Wv0_arg4 m ρ c])
  have hw2 : Vr1 m ρ c (Pipeline.arrRef spec0 4) = wK 0 (m ((c : Thread nD τ).loc main_arg5)) :=
    (host0_v19 (Wv0 m ρ c)).trans (by rw [Wv0_arg5 m ρ c])
  have hb2 : Vr1 m ρ c (Pipeline.arrRef spec0 5) = bK 0 (m ((c : Thread nD τ).loc main_arg6)) :=
    (host0_v23 (Wv0 m ρ c)).trans (by rw [Wv0_arg6 m ρ c])
  exact layer_step 0 _ _ _ _ _ _ hx hagg hw1 hb1 hw2 hb2

set_option maxHeartbeats 4000000 in
/-- After region 1 the layer's output array holds the node array after 2 layers. -/
theorem Wv4_v45 (c : Dev nD) : Wv4 m ρ c (Proc.devRef .tc main_v45) = xK2 m c := by
  refine (Wv4_arr m ρ c 6).trans ((mlp_final1 (Vr3 m ρ) c).trans ?_)
  have hx : Vr3 m ρ c (Pipeline.arrRef spec1 0) = xK1 m c := ((Wv3_keep m ρ c main_v24 (by decide)).trans (Wv2_v24 m ρ c))
  have hagg : Vr3 m ρ c (Pipeline.arrRef spec1 1) = aggK (xK1 m c) (srcK (m ((c : Thread nD τ).loc main_arg1))) (dstK (m ((c : Thread nD τ).loc main_arg1))) := ((host1_v34 (Wv2 m ρ c)).trans (by rw [Wv2_v24 m ρ c, Wv2_v1 m ρ c, Wv2_v3 m ρ c]))
  have hw1 : Vr3 m ρ c (Pipeline.arrRef spec1 2) = wK 1 (m ((c : Thread nD τ).loc main_arg3)) :=
    (host1_v36 (Wv2 m ρ c)).trans (by rw [Wv2_arg3 m ρ c])
  have hb1 : Vr3 m ρ c (Pipeline.arrRef spec1 3) = bK 1 (m ((c : Thread nD τ).loc main_arg4)) :=
    (host1_v43 (Wv2 m ρ c)).trans (by rw [Wv2_arg4 m ρ c])
  have hw2 : Vr3 m ρ c (Pipeline.arrRef spec1 4) = wK 1 (m ((c : Thread nD τ).loc main_arg5)) :=
    (host1_v40 (Wv2 m ρ c)).trans (by rw [Wv2_arg5 m ρ c])
  have hb2 : Vr3 m ρ c (Pipeline.arrRef spec1 5) = bK 1 (m ((c : Thread nD τ).loc main_arg6)) :=
    (host1_v44 (Wv2 m ρ c)).trans (by rw [Wv2_arg6 m ρ c])
  exact layer_step 1 _ _ _ _ _ _ hx hagg hw1 hb1 hw2 hb2

set_option maxHeartbeats 4000000 in
/-- After region 2 the layer's output array holds the node array after 3 layers. -/
theorem Wv6_v66 (c : Dev nD) : Wv6 m ρ c (Proc.devRef .tc main_v66) = xK3 m c := by
  refine (Wv6_arr m ρ c 6).trans ((mlp_final2 (Vr5 m ρ) c).trans ?_)
  have hx : Vr5 m ρ c (Pipeline.arrRef spec2 0) = xK2 m c := ((Wv5_keep m ρ c main_v45 (by decide)).trans (Wv4_v45 m ρ c))
  have hagg : Vr5 m ρ c (Pipeline.arrRef spec2 1) = aggK (xK2 m c) (srcK (m ((c : Thread nD τ).loc main_arg1))) (dstK (m ((c : Thread nD τ).loc main_arg1))) := ((host2_v55 (Wv4 m ρ c)).trans (by rw [Wv4_v45 m ρ c, Wv4_v1 m ρ c, Wv4_v3 m ρ c]))
  have hw1 : Vr5 m ρ c (Pipeline.arrRef spec2 2) = wK 2 (m ((c : Thread nD τ).loc main_arg3)) :=
    (host2_v57 (Wv4 m ρ c)).trans (by rw [Wv4_arg3 m ρ c])
  have hb1 : Vr5 m ρ c (Pipeline.arrRef spec2 3) = bK 2 (m ((c : Thread nD τ).loc main_arg4)) :=
    (host2_v64 (Wv4 m ρ c)).trans (by rw [Wv4_arg4 m ρ c])
  have hw2 : Vr5 m ρ c (Pipeline.arrRef spec2 4) = wK 2 (m ((c : Thread nD τ).loc main_arg5)) :=
    (host2_v61 (Wv4 m ρ c)).trans (by rw [Wv4_arg5 m ρ c])
  have hb2 : Vr5 m ρ c (Pipeline.arrRef spec2 5) = bK 2 (m ((c : Thread nD τ).loc main_arg6)) :=
    (host2_v65 (Wv4 m ρ c)).trans (by rw [Wv4_arg6 m ρ c])
  exact layer_step 2 _ _ _ _ _ _ hx hagg hw1 hb1 hw2 hb2

set_option maxHeartbeats 4000000 in
/-- After region 3 the layer's output array holds the node array after 4 layers. -/
theorem Wv8_v87 (c : Dev nD) : Wv8 m ρ c (Proc.devRef .tc main_v87) = xK4 m c := by
  refine (Wv8_arr m ρ c 6).trans ((mlp_final3 (Vr7 m ρ) c).trans ?_)
  have hx : Vr7 m ρ c (Pipeline.arrRef spec3 0) = xK3 m c := ((Wv7_keep m ρ c main_v66 (by decide)).trans (Wv6_v66 m ρ c))
  have hagg : Vr7 m ρ c (Pipeline.arrRef spec3 1) = aggK (xK3 m c) (srcK (m ((c : Thread nD τ).loc main_arg1))) (dstK (m ((c : Thread nD τ).loc main_arg1))) := ((host3_v76 (Wv6 m ρ c)).trans (by rw [Wv6_v66 m ρ c, Wv6_v1 m ρ c, Wv6_v3 m ρ c]))
  have hw1 : Vr7 m ρ c (Pipeline.arrRef spec3 2) = wK 3 (m ((c : Thread nD τ).loc main_arg3)) :=
    (host3_v78 (Wv6 m ρ c)).trans (by rw [Wv6_arg3 m ρ c])
  have hb1 : Vr7 m ρ c (Pipeline.arrRef spec3 3) = bK 3 (m ((c : Thread nD τ).loc main_arg4)) :=
    (host3_v85 (Wv6 m ρ c)).trans (by rw [Wv6_arg4 m ρ c])
  have hw2 : Vr7 m ρ c (Pipeline.arrRef spec3 4) = wK 3 (m ((c : Thread nD τ).loc main_arg5)) :=
    (host3_v82 (Wv6 m ρ c)).trans (by rw [Wv6_arg5 m ρ c])
  have hb2 : Vr7 m ρ c (Pipeline.arrRef spec3 5) = bK 3 (m ((c : Thread nD τ).loc main_arg6)) :=
    (host3_v86 (Wv6 m ρ c)).trans (by rw [Wv6_arg6 m ρ c])
  exact layer_step 3 _ _ _ _ _ _ hx hagg hw1 hb1 hw2 hb2

/-! ## The result -/

set_option maxHeartbeats 4000000 in
/-- The pool region's output array is the kernel program's result function of the launch memory. -/
theorem kernel_value (c : Dev nD) : (dat4 (Vr9 m ρ) c).arrAt 2 cfg4.N
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (pool_final (Vr9 m ρ) c).trans ?_
  have hx : Vr9 m ρ c (Pipeline.arrRef spec4 0) = xK4 m c :=
    (Wv9_keep m ρ c main_v87 (by decide)).trans (Wv8_v87 m ρ c)
  have hids : Vr9 m ρ c (Pipeline.arrRef spec4 1) = idsK (m ((c : Thread nD τ).loc main_arg2)) :=
    (host4_v88 (Wv8 m ρ c)).trans (by rw [Wv8_arg2 m ρ c])
  exact pool_step _ _ hx hids

end Cert.KernelIdeal.Val

end
-- ==== Proof.Ref.Value.lean ====
/-
  The reference program's result as a function of its arguments.

  One layer of the reference is  x ↦ mlp (x, agg x)  with  agg x  the sum of x over incoming edges, and the program's
  result is the add pool of the fourth layer's output by graph id.  The definitions below name the pieces; the theorems
  say that the program's run ends with its result buffer at `outR` of the arguments.
-/
import proofs.«421570_j62362925138436_1_alg».proof.Proof.Gen.ReferenceIdeal.Read
import proofs.«421570_j62362925138436_1_alg».proof.Proof.Spec

noncomputable section

open scoped BigOperators

namespace Cert.ReferenceIdeal.RefValue

open Cert.Spec Cert.ReferenceIdeal Cert.ReferenceIdeal.Gen Idealize.ShloMosaic Idealize.ShloMosaic.TcCoe Idealize.SL.Sem
  Idealize.ShloMosaic.StableHlo Idealize.ShloMosaic.ValueIdx

/-- Two rank-2 indices with equal coordinates are equal. -/
theorem idx2_ext {n0 n1 : Nat} (p q : (⟨2, ![n0, n1]⟩ : Shape).Idx) (h0 : p 0 = q 0) (h1 : p 1 = q 1) : p = q := by
  funext a
  match a with
  | ⟨0, _⟩ => exact h0
  | ⟨1, _⟩ => exact h1

/-- One layer's node update from its steps read at an index: `s = x + agg`, `h1 = s · w1` (a contraction over the
    feature axis, its operand indices given by `li1`, `ri1`), `a1 = h1 + b1` broadcast along the nodes, `r = max a1 0`,
    `h2 = r · w2`, `o = h2 + b2` broadcast along the nodes. -/
theorem mlp_of_reads
    (x agg : SN.Idx → EReal) (w1 : SW.Idx → EReal) (b1 : SB.Idx → EReal) (w2 : SW.Idx → EReal) (b2 : SB.Idx → EReal)
    (s h1 b1b a1 z r h2 b2b o : SN.Idx → EReal)
    (li1 li2 : SN.Idx → Fin 128 → SN.Idx) (ri1 ri2 : SN.Idx → Fin 128 → SW.Idx) (bi1 bi2 : SN.Idx → SB.Idx)
    (hli1 : ∀ i k, li1 i k = ix2 (n0 := 50000) (n1 := 128) (i 0) k)
    (hri1 : ∀ i k, ri1 i k = ix2 (n0 := 128) (n1 := 128) k (i 1))
    (hbi1 : ∀ i, bi1 i = ix2 (n0 := 1) (n1 := 128) (0 : Fin 1) (i 1))
    (hli2 : ∀ i k, li2 i k = ix2 (n0 := 50000) (n1 := 128) (i 0) k)
    (hri2 : ∀ i k, ri2 i k = ix2 (n0 := 128) (n1 := 128) k (i 1))
    (hbi2 : ∀ i, bi2 i = ix2 (n0 := 1) (n1 := 128) (0 : Fin 1) (i 1))
    (hs : ∀ i, s i = x i + agg i)
    (hh1 : ∀ i, h1 i = ∑ k : Fin 128, s (li1 i k) * w1 (ri1 i k))
    (hb1 : ∀ i, b1b i = b1 (bi1 i))
    (ha1 : ∀ i, a1 i = h1 i + b1b i)
    (hz : ∀ i, z i = 0)
    (hr : ∀ i, r i = max (a1 i) (z i))
    (hh2 : ∀ i, h2 i = ∑ k : Fin 128, r (li2 i k) * w2 (ri2 i k))
    (hb2 : ∀ i, b2b i = b2 (bi2 i))
    (ho : ∀ i, o i = h2 i + b2b i) :
    o = mlpG x agg w1 b1 w2 b2 := by
  funext i
  rw [ho, hh2, hb2, hbi2]
  show _ = (∑ k : Fin 128, hidden x agg w1 b1 (i 0) k * w2 (ix2 k (i 1))) + b2 (ix2 (0 : Fin 1) (i 1))
  refine congrArg₂ (· + ·) (Finset.sum_congr rfl fun k _ => ?_) rfl
  rw [hli2, hri2, hr, hz, ha1, hh1, hb1, hbi1]
  simp only [hli1, hri1, hs]
  rfl

section Pool

variable (wf : ScatterDims.WF SG SI SN [1] [0] [0] 1)

/-- The pool's scatter dimension numbers: the update's axis 1 is the window, the operand's axis 0 is the one the
    graph id selects, and each scatter index is one word. -/
abbrev poolDims : ScatterDims SG SI SN := ⟨[1], [0], [0], 1, wf⟩

/-- On the graph axis an update row starts at its graph id, read signed. -/
theorem start0 (j : SN.Idx) (idc : IVec SI 32) : (poolDims wf).start j idc 0 = (idc (ix2 (j 0) 0)).toInt := by
  unfold ScatterDims.start
  rw [dif_pos (show (0 : Fin SG.rank) ∈ (poolDims wf).scatterDimsToOperandDims from (by decide : (0 : Fin SG.rank) ∈ ([0] : List (Fin SG.rank))))]
  congr 2
  funext a
  match a with
  | ⟨0, _⟩ => rfl
  | ⟨1, _⟩ => rfl

/-- On the feature axis an update starts at 0. -/
theorem start1 (j : SN.Idx) (idc : IVec SI 32) : (poolDims wf).start j idc 1 = 0 := by
  unfold ScatterDims.start
  rw [dif_neg (show ¬ (1 : Fin SG.rank) ∈ (poolDims wf).scatterDimsToOperandDims from (by decide : ¬ (1 : Fin SG.rank) ∈ ([0] : List (Fin SG.rank))))]

/-- The graph axis carries no window coordinate. -/
theorem window0 (j : SN.Idx) : (poolDims wf).window j 0 = 0 := by
  unfold ScatterDims.window
  rw [dif_neg (show ¬ (0 : Fin SG.rank) ∈ (poolDims wf).sKept from (by decide : ¬ (0 : Fin SG.rank) ∈ SG.kept [0]))]

/-- The feature axis' window coordinate is the update's feature index. -/
theorem window1 (j : SN.Idx) : (poolDims wf).window j 1 = (j 1).val := by
  unfold ScatterDims.window
  rw [dif_pos (show (1 : Fin SG.rank) ∈ (poolDims wf).sKept from (by decide : (1 : Fin SG.rank) ∈ SG.kept [0]))]
  rfl

/-- A 32-bit word is the number `g` below 512 exactly when its signed reading is `g`. -/
theorem word_eq_ofNat_iff (w : BitVec 32) (g : Nat) (hg : g < 512) : w = BitVec.ofNat 32 g ↔ w.toInt = (g : Int) := by
  have hsmall : (BitVec.ofNat 32 g).toInt = (g : Int) := by
    rw [BitVec.toInt_ofNat']
    exact Int.bmod_eq_of_le (by omega) (by omega)
  constructor
  · rintro rfl; exact hsmall
  · intro h; exact BitVec.eq_of_toInt_eq (h.trans hsmall.symm)

/-- The update element `(n, b)` lands at `i` exactly when node `n`'s graph id is the number `i 0` and `b = i 1`. -/
theorem resultIdx_iff (n : Fin 50000) (b : Fin 128) (idc : IVec SI 32) (i : SG.Idx) :
    (poolDims wf).resultIdx? (ix2 n b) idc = some i ↔ (idc (ix2 n 0) = BitVec.ofNat 32 (i 0).val ∧ b = i 1) := by
  have hs0 : (poolDims wf).start (ix2 n b) idc 0 = (idc (ix2 n 0)).toInt := start0 wf (ix2 n b) idc
  have hs1 := start1 wf (ix2 n b) idc
  have hw0 := window0 wf (ix2 n b)
  have hw1 : (poolDims wf).window (ix2 n b) 1 = b.val := window1 wf (ix2 n b)
  have hi0 : (i 0).val < 512 := (i 0).isLt
  have hi1 : (i 1).val < 128 := (i 1).isLt
  have hb : b.val < 128 := b.isLt
  rw [word_eq_ofNat_iff _ _ hi0]
  unfold ScatterDims.resultIdx?
  constructor
  · intro H
    by_cases h : ∀ a, 0 ≤ (poolDims wf).start (ix2 n b) idc a + (poolDims wf).window (ix2 n b) a ∧ (poolDims wf).start (ix2 n b) idc a + (poolDims wf).window (ix2 n b) a < SG.size a
    · rw [dif_pos h] at H
      have H' := Option.some.inj H
      have e0 := congrArg (fun f => (f 0).val) H'
      have e1 := congrArg (fun f => (f 1).val) H'
      have h0 := h 0
      simp only [hs0, hs1, hw0, hw1] at e0 e1 h0
      refine ⟨by omega, Fin.ext (by omega)⟩
    · rw [dif_neg h] at H; exact absurd H (by simp)
  · rintro ⟨h0, h1⟩
    have h : ∀ a, 0 ≤ (poolDims wf).start (ix2 n b) idc a + (poolDims wf).window (ix2 n b) a ∧ (poolDims wf).start (ix2 n b) idc a + (poolDims wf).window (ix2 n b) a < SG.size a := by
      intro a
      match a with
      | ⟨0, _⟩ =>
        show 0 ≤ (poolDims wf).start (ix2 n b) idc 0 + (poolDims wf).window (ix2 n b) 0 ∧ (poolDims wf).start (ix2 n b) idc 0 + (poolDims wf).window (ix2 n b) 0 < (512 : Nat)
        rw [hs0, hw0]; omega
      | ⟨1, _⟩ =>
        show 0 ≤ (poolDims wf).start (ix2 n b) idc 1 + (poolDims wf).window (ix2 n b) 1 ∧ (poolDims wf).start (ix2 n b) idc 1 + (poolDims wf).window (ix2 n b) 1 < (128 : Nat)
        rw [hs1, hw1]; omega
    rw [dif_pos h]
    congr 1
    funext a
    match a with
    | ⟨0, _⟩ =>
      apply Fin.ext
      show ((poolDims wf).start (ix2 n b) idc 0 + (poolDims wf).window (ix2 n b) 0).toNat = (i 0).val
      rw [hs0, hw0]; omega
    | ⟨1, _⟩ =>
      apply Fin.ext
      show ((poolDims wf).start (ix2 n b) idc 1 + (poolDims wf).window (ix2 n b) 1).toNat = (i 1).val
      rw [hs1, hw1, h1]; omega

/-- The same with the result index given by its coordinates. -/
theorem resultIdx_iff' (n : Fin 50000) (b : Fin 128) (idc : IVec SI 32) (g : Fin 512) (j : Fin 128) :
    (poolDims wf).resultIdx? (ix2 n b) idc = some (ix2 g j) ↔ (idc (ix2 n 0) = BitVec.ofNat 32 g.val ∧ b = j) :=
  resultIdx_iff wf n b idc (ix2 g j)

/-- The scatter-add of the node rows at their graph ids into a zero array is the add pool. -/
theorem pool_eq (z : SG.Idx → EReal) (hz : ∀ i, z i = 0) (idc : IVec SI 32) (x : SN.Idx → EReal) :
    Ideal.hostScatterAdd (poolDims wf) z idc x = poolG x idc := by
  funext i
  obtain ⟨g, j, rfl⟩ : ∃ (g : Fin 512) (j : Fin 128), i = ix2 g j := ⟨i 0, i 1, eq_ix2 i⟩
  unfold Ideal.hostScatterAdd poolG
  change _ + _ = ∑ n : Fin 50000, if idc (ix2 n (0 : Fin 1)) = BitVec.ofNat 32 g.val then x (ix2 n j) else 0
  rw [hz, zero_add, Finset.sum_filter, sum_idx2]
  refine Finset.sum_congr rfl fun n _ => ?_
  have e : ∀ b : Fin 128, (if (poolDims wf).resultIdx? (ix2 n b) idc = some (ix2 g j) then x (ix2 n b) else 0)
      = if b = j then (if idc (ix2 n (0 : Fin 1)) = BitVec.ofNat 32 g.val then x (ix2 n b) else 0) else 0 := by
    intro b
    rw [if_congr (resultIdx_iff' wf n b idc g j) rfl rfl]
    by_cases h1 : b = j <;> by_cases h2 : idc (ix2 n (0 : Fin 1)) = BitVec.ofNat 32 g.val <;> simp [h1, h2]
  rw [Finset.sum_congr rfl (fun b _ => e b), Finset.sum_ite_eq', if_pos (Finset.mem_univ _)]

end Pool

/-- One layer's aggregation of the node array `x` along the edges `ei`: at node `n` the sum of `x`'s rows at the sources
    of the edges whose destination is `n`. -/
def aggR (x : FVec Ideal S50000x128 .f32) (ei : IVec S2x1600000 32) : FVec Ideal S50000x128 .f32 :=
  Read.val_main_v13 (F := Ideal) x ei

/-- Slice `k` of a stack of four weight matrices. -/
def wR (k : Fin 4) (Ws : FVec Ideal S4x128x128 .f32) : FVec Ideal S128x128 .f32 :=
  match k with
  | ⟨0, _⟩ => Read.val_main_v16 (F := Ideal) Ws
  | ⟨1, _⟩ => Read.val_main_v44 (F := Ideal) Ws
  | ⟨2, _⟩ => Read.val_main_v72 (F := Ideal) Ws
  | ⟨3, _⟩ => Read.val_main_v100 (F := Ideal) Ws

/-- Row `k` of a stack of four bias vectors, as a 1×128 array. -/
def bR (k : Fin 4) (bs : FVec Ideal S4x128 .f32) : FVec Ideal S1x128 .f32 :=
  match k with
  | ⟨0, _⟩ => Read.val_main_v20 (F := Ideal) bs
  | ⟨1, _⟩ => Read.val_main_v48 (F := Ideal) bs
  | ⟨2, _⟩ => Read.val_main_v76 (F := Ideal) bs
  | ⟨3, _⟩ => Read.val_main_v104 (F := Ideal) bs

/-- The graph ids as a column. -/
def idsR (ids : IVec S50000 32) : IVec S50000x1 32 :=
  Read.val_main_v117 (F := Ideal) ids

/-- Layer `k` of the reference on the node array `x`. -/
def layerR (k : Fin 4) (x : FVec Ideal S50000x128 .f32) (ei : IVec S2x1600000 32)
    (Ws1 : FVec Ideal S4x128x128 .f32) (bs1 : FVec Ideal S4x128 .f32)
    (Ws2 : FVec Ideal S4x128x128 .f32) (bs2 : FVec Ideal S4x128 .f32) : FVec Ideal S50000x128 .f32 :=
  Cert.Spec.mlpG x (aggR x ei) (wR k Ws1) (bR k bs1) (wR k Ws2) (bR k bs2)

/-- The reference's result: four layers, then the add pool by graph id. -/
def outR (x : FVec Ideal S50000x128 .f32) (ei : IVec S2x1600000 32) (ids : IVec S50000 32)
    (Ws1 : FVec Ideal S4x128x128 .f32) (bs1 : FVec Ideal S4x128 .f32)
    (Ws2 : FVec Ideal S4x128x128 .f32) (bs2 : FVec Ideal S4x128 .f32) : FVec Ideal S512x128 .f32 :=
  Cert.Spec.poolG
    (layerR 3 (layerR 2 (layerR 1 (layerR 0 x ei Ws1 bs1 Ws2 bs2) ei Ws1 bs1 Ws2 bs2) ei Ws1 bs1 Ws2 bs2) ei Ws1 bs1 Ws2 bs2)
    (idsR ids)

/-- The zero array layer 0's maximum is taken against. -/
theorem zero0_read (i : S50000x128.Idx) : Read.val_main_call0_v0 (F := Ideal) i = 0 :=
  (Read.val_main_call0_v0_apply (F := Ideal) i).trans ((Read.val_main_call0_cst_apply (F := Ideal) _).trans Ideal.ofBits_zero_f32)

/-- Layer 0's output stage is the node update of its input, its aggregation and its weight and bias stages. -/
theorem stage0_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v31 (F := Ideal) x0 x1 x3 x4 x5 x6) = Cert.Spec.mlpG x0 (Read.val_main_v13 (F := Ideal) x0 x1) (Read.val_main_v16 (F := Ideal) x3) (Read.val_main_v20 (F := Ideal) x4) (Read.val_main_v25 (F := Ideal) x5) (Read.val_main_v29 (F := Ideal) x6) :=
  mlp_of_reads _ _ _ _ _ _ (Read.val_main_v14 (F := Ideal) x0 x1) (Read.val_main_v17 (F := Ideal) x0 x1 x3) (Read.val_main_v21 (F := Ideal) x4) (Read.val_main_v22 (F := Ideal) x0 x1 x3 x4) (Read.val_main_call0_v0 (F := Ideal)) (Read.val_main_v23 (F := Ideal) x0 x1 x3 x4) (Read.val_main_v26 (F := Ideal) x0 x1 x3 x4 x5) (Read.val_main_v30 (F := Ideal) x6) (Read.val_main_v31 (F := Ideal) x0 x1 x3 x4 x5 x6)
    Read.lidx_main_v17 Read.lidx_main_v26 Read.ridx_main_v17 Read.ridx_main_v26 Read.idx_main_v21 Read.idx_main_v30
    (fun _ _ => idx2_ext _ _ rfl rfl) (fun _ _ => idx2_ext _ _ rfl rfl) (fun _ => idx2_ext _ _ rfl rfl)
    (fun _ _ => idx2_ext _ _ rfl rfl) (fun _ _ => idx2_ext _ _ rfl rfl) (fun _ => idx2_ext _ _ rfl rfl)
    (fun i => Read.val_main_v14_apply (F := Ideal) x0 x1 i)
    (fun i => Read.val_main_v17_apply x0 x1 x3 i)
    (fun i => Read.val_main_v21_apply (F := Ideal) x4 i)
    (fun i => Read.val_main_v22_apply (F := Ideal) x0 x1 x3 x4 i)
    zero0_read
    (fun i => Read.val_main_v23_apply (F := Ideal) x0 x1 x3 x4 i)
    (fun i => Read.val_main_v26_apply x0 x1 x3 x4 x5 i)
    (fun i => Read.val_main_v30_apply (F := Ideal) x6 i)
    (fun i => Read.val_main_v31_apply (F := Ideal) x0 x1 x3 x4 x5 x6 i)

/-- Layer 0's output stage is `layerR 0` of its input. -/
theorem layer0_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v31 (F := Ideal) x0 x1 x3 x4 x5 x6) = layerR 0 x0 x1 x3 x4 x5 x6 :=
  (stage0_eq x0 x1 x3 x4 x5 x6).trans rfl

/-- The zero array layer 1's maximum is taken against. -/
theorem zero1_read (i : S50000x128.Idx) : Read.val_main_call1_v0 (F := Ideal) i = 0 :=
  (Read.val_main_call1_v0_apply (F := Ideal) i).trans ((Read.val_main_call1_cst_apply (F := Ideal) _).trans Ideal.ofBits_zero_f32)

/-- Layer 1's output stage is the node update of its input, its aggregation and its weight and bias stages. -/
theorem stage1_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v59 (F := Ideal) x0 x1 x3 x4 x5 x6) = Cert.Spec.mlpG (Read.val_main_v31 (F := Ideal) x0 x1 x3 x4 x5 x6) (Read.val_main_v41 (F := Ideal) x0 x1 x3 x4 x5 x6) (Read.val_main_v44 (F := Ideal) x3) (Read.val_main_v48 (F := Ideal) x4) (Read.val_main_v53 (F := Ideal) x5) (Read.val_main_v57 (F := Ideal) x6) :=
  mlp_of_reads _ _ _ _ _ _ (Read.val_main_v42 (F := Ideal) x0 x1 x3 x4 x5 x6) (Read.val_main_v45 (F := Ideal) x0 x1 x3 x4 x5 x6) (Read.val_main_v49 (F := Ideal) x4) (Read.val_main_v50 (F := Ideal) x0 x1 x3 x4 x5 x6) (Read.val_main_call1_v0 (F := Ideal)) (Read.val_main_v51 (F := Ideal) x0 x1 x3 x4 x5 x6) (Read.val_main_v54 (F := Ideal) x0 x1 x3 x4 x5 x6) (Read.val_main_v58 (F := Ideal) x6) (Read.val_main_v59 (F := Ideal) x0 x1 x3 x4 x5 x6)
    Read.lidx_main_v45 Read.lidx_main_v54 Read.ridx_main_v45 Read.ridx_main_v54 Read.idx_main_v49 Read.idx_main_v58
    (fun _ _ => idx2_ext _ _ rfl rfl) (fun _ _ => idx2_ext _ _ rfl rfl) (fun _ => idx2_ext _ _ rfl rfl)
    (fun _ _ => idx2_ext _ _ rfl rfl) (fun _ _ => idx2_ext _ _ rfl rfl) (fun _ => idx2_ext _ _ rfl rfl)
    (fun i => Read.val_main_v42_apply (F := Ideal) x0 x1 x3 x4 x5 x6 i)
    (fun i => Read.val_main_v45_apply x0 x1 x3 x4 x5 x6 i)
    (fun i => Read.val_main_v49_apply (F := Ideal) x4 i)
    (fun i => Read.val_main_v50_apply (F := Ideal) x0 x1 x3 x4 x5 x6 i)
    zero1_read
    (fun i => Read.val_main_v51_apply (F := Ideal) x0 x1 x3 x4 x5 x6 i)
    (fun i => Read.val_main_v54_apply x0 x1 x3 x4 x5 x6 i)
    (fun i => Read.val_main_v58_apply (F := Ideal) x6 i)
    (fun i => Read.val_main_v59_apply (F := Ideal) x0 x1 x3 x4 x5 x6 i)

/-- Layer 1's output stage is `layerR 1` of its input. -/
theorem layer1_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v59 (F := Ideal) x0 x1 x3 x4 x5 x6) = layerR 1 (Read.val_main_v31 (F := Ideal) x0 x1 x3 x4 x5 x6) x1 x3 x4 x5 x6 :=
  (stage1_eq x0 x1 x3 x4 x5 x6).trans rfl

/-- The zero array layer 2's maximum is taken against. -/
theorem zero2_read (i : S50000x128.Idx) : Read.val_main_call2_v0 (F := Ideal) i = 0 :=
  (Read.val_main_call2_v0_apply (F := Ideal) i).trans ((Read.val_main_call2_cst_apply (F := Ideal) _).trans Ideal.ofBits_zero_f32)

/-- Layer 2's output stage is the node update of its input, its aggregation and its weight and bias stages. -/
theorem stage2_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v87 (F := Ideal) x0 x1 x3 x4 x5 x6) = Cert.Spec.mlpG (Read.val_main_v59 (F := Ideal) x0 x1 x3 x4 x5 x6) (Read.val_main_v69 (F := Ideal) x0 x1 x3 x4 x5 x6) (Read.val_main_v72 (F := Ideal) x3) (Read.val_main_v76 (F := Ideal) x4) (Read.val_main_v81 (F := Ideal) x5) (Read.val_main_v85 (F := Ideal) x6) :=
  mlp_of_reads _ _ _ _ _ _ (Read.val_main_v70 (F := Ideal) x0 x1 x3 x4 x5 x6) (Read.val_main_v73 (F := Ideal) x0 x1 x3 x4 x5 x6) (Read.val_main_v77 (F := Ideal) x4) (Read.val_main_v78 (F := Ideal) x0 x1 x3 x4 x5 x6) (Read.val_main_call2_v0 (F := Ideal)) (Read.val_main_v79 (F := Ideal) x0 x1 x3 x4 x5 x6) (Read.val_main_v82 (F := Ideal) x0 x1 x3 x4 x5 x6) (Read.val_main_v86 (F := Ideal) x6) (Read.val_main_v87 (F := Ideal) x0 x1 x3 x4 x5 x6)
    Read.lidx_main_v73 Read.lidx_main_v82 Read.ridx_main_v73 Read.ridx_main_v82 Read.idx_main_v77 Read.idx_main_v86
    (fun _ _ => idx2_ext _ _ rfl rfl) (fun _ _ => idx2_ext _ _ rfl rfl) (fun _ => idx2_ext _ _ rfl rfl)
    (fun _ _ => idx2_ext _ _ rfl rfl) (fun _ _ => idx2_ext _ _ rfl rfl) (fun _ => idx2_ext _ _ rfl rfl)
    (fun i => Read.val_main_v70_apply (F := Ideal) x0 x1 x3 x4 x5 x6 i)
    (fun i => Read.val_main_v73_apply x0 x1 x3 x4 x5 x6 i)
    (fun i => Read.val_main_v77_apply (F := Ideal) x4 i)
    (fun i => Read.val_main_v78_apply (F := Ideal) x0 x1 x3 x4 x5 x6 i)
    zero2_read
    (fun i => Read.val_main_v79_apply (F := Ideal) x0 x1 x3 x4 x5 x6 i)
    (fun i => Read.val_main_v82_apply x0 x1 x3 x4 x5 x6 i)
    (fun i => Read.val_main_v86_apply (F := Ideal) x6 i)
    (fun i => Read.val_main_v87_apply (F := Ideal) x0 x1 x3 x4 x5 x6 i)

/-- Layer 2's output stage is `layerR 2` of its input. -/
theorem layer2_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v87 (F := Ideal) x0 x1 x3 x4 x5 x6) = layerR 2 (Read.val_main_v59 (F := Ideal) x0 x1 x3 x4 x5 x6) x1 x3 x4 x5 x6 :=
  (stage2_eq x0 x1 x3 x4 x5 x6).trans rfl

/-- The zero array layer 3's maximum is taken against. -/
theorem zero3_read (i : S50000x128.Idx) : Read.val_main_call3_v0 (F := Ideal) i = 0 :=
  (Read.val_main_call3_v0_apply (F := Ideal) i).trans ((Read.val_main_call3_cst_apply (F := Ideal) _).trans Ideal.ofBits_zero_f32)

/-- Layer 3's output stage is the node update of its input, its aggregation and its weight and bias stages. -/
theorem stage3_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v115 (F := Ideal) x0 x1 x3 x4 x5 x6) = Cert.Spec.mlpG (Read.val_main_v87 (F := Ideal) x0 x1 x3 x4 x5 x6) (Read.val_main_v97 (F := Ideal) x0 x1 x3 x4 x5 x6) (Read.val_main_v100 (F := Ideal) x3) (Read.val_main_v104 (F := Ideal) x4) (Read.val_main_v109 (F := Ideal) x5) (Read.val_main_v113 (F := Ideal) x6) :=
  mlp_of_reads _ _ _ _ _ _ (Read.val_main_v98 (F := Ideal) x0 x1 x3 x4 x5 x6) (Read.val_main_v101 (F := Ideal) x0 x1 x3 x4 x5 x6) (Read.val_main_v105 (F := Ideal) x4) (Read.val_main_v106 (F := Ideal) x0 x1 x3 x4 x5 x6) (Read.val_main_call3_v0 (F := Ideal)) (Read.val_main_v107 (F := Ideal) x0 x1 x3 x4 x5 x6) (Read.val_main_v110 (F := Ideal) x0 x1 x3 x4 x5 x6) (Read.val_main_v114 (F := Ideal) x6) (Read.val_main_v115 (F := Ideal) x0 x1 x3 x4 x5 x6)
    Read.lidx_main_v101 Read.lidx_main_v110 Read.ridx_main_v101 Read.ridx_main_v110 Read.idx_main_v105 Read.idx_main_v114
    (fun _ _ => idx2_ext _ _ rfl rfl) (fun _ _ => idx2_ext _ _ rfl rfl) (fun _ => idx2_ext _ _ rfl rfl)
    (fun _ _ => idx2_ext _ _ rfl rfl) (fun _ _ => idx2_ext _ _ rfl rfl) (fun _ => idx2_ext _ _ rfl rfl)
    (fun i => Read.val_main_v98_apply (F := Ideal) x0 x1 x3 x4 x5 x6 i)
    (fun i => Read.val_main_v101_apply x0 x1 x3 x4 x5 x6 i)
    (fun i => Read.val_main_v105_apply (F := Ideal) x4 i)
    (fun i => Read.val_main_v106_apply (F := Ideal) x0 x1 x3 x4 x5 x6 i)
    zero3_read
    (fun i => Read.val_main_v107_apply (F := Ideal) x0 x1 x3 x4 x5 x6 i)
    (fun i => Read.val_main_v110_apply x0 x1 x3 x4 x5 x6 i)
    (fun i => Read.val_main_v114_apply (F := Ideal) x6 i)
    (fun i => Read.val_main_v115_apply (F := Ideal) x0 x1 x3 x4 x5 x6 i)

/-- Layer 3's output stage is `layerR 3` of its input. -/
theorem layer3_eq (x0 : FVec Ideal S50000x128 .f32) (x1 : IVec S2x1600000 32) (x3 : FVec Ideal S4x128x128 .f32) (x4 : FVec Ideal S4x128 .f32) (x5 : FVec Ideal S4x128x128 .f32) (x6 : FVec Ideal S4x128 .f32) :
    (Read.val_main_v115 (F := Ideal) x0 x1 x3 x4 x5 x6) = layerR 3 (Read.val_main_v87 (F := Ideal) x0 x1 x3 x4 x5 x6) x1 x3 x4 x5 x6 :=
  (stage3_eq x0 x1 x3 x4 x5 x6).trans rfl

/-- The zero array the pool accumulates into. -/
theorem zeroG_read (i : S512x128.Idx) : Read.val_main_v116 (F := Ideal) i = 0 :=
  (Read.val_main_v116_apply (F := Ideal) i).trans ((Read.val_main_cst_10_apply (F := Ideal) _).trans Ideal.ofBits_zero_f32)

/-- The program's last stage is `outR` of the arguments. -/
theorem out_eq (x0 : FVec Ideal S50000x128 .f32) (x1 : IVec S2x1600000 32) (x2 : IVec S50000 32) (x3 : FVec Ideal S4x128x128 .f32) (x4 : FVec Ideal S4x128 .f32) (x5 : FVec Ideal S4x128x128 .f32) (x6 : FVec Ideal S4x128 .f32) :
    Read.val_main_v118 (F := Ideal) x0 x1 x2 x3 x4 x5 x6 = outR x0 x1 x2 x3 x4 x5 x6 := by
  unfold Read.val_main_v118
  rw [layer3_eq, layer2_eq, layer1_eq, layer0_eq]
  exact pool_eq _ _ zeroG_read _ _

/-- On every device, from any memory with zero counters: every weakly fair execution of the reference terminates with
    its result buffer at `outR` of the arguments' launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((Read.val_main_v118_eq m c).trans (out_eq _ _ _ _ _ _ _)), (h c).2⟩)
    (Cert.ReferenceIdeal.Value.run (F := Ideal) m ρ)

end Cert.ReferenceIdeal.RefValue

end
-- ==== Proof.Glue.lean ====
/-
  The host stretches of the kernel program compute what the reference program computes.

  The aggregation is the same gather and scatter-add over the same edge rows; a weight slice is the same slice and
  cast.  Two places differ in spelling only.  The kernel's host sets a bias vector of 128 up as a 1 × 128 row by a
  cast where the reference broadcasts it along the row's second axis; and it sets the 50000 graph ids up as a column
  by a cast where the reference broadcasts them along the column's first axis.  A cast keeps row-major positions, and
  a 1 × n row's (0, i) and an n × 1 column's (i, 0) sit at position i, so each cast reads the vector at i, which is what
  the broadcast reads.
-/
import proofs.«421570_j62362925138436_1_alg».proof.Proof.KI.OutK
import proofs.«421570_j62362925138436_1_alg».proof.Proof.Ref.Value
import Idealize.ShloMosaic.Lib.ValueLayout
import Idealize.ShloMosaic.Lib.ValueIdx

set_option maxRecDepth 16384

noncomputable section

namespace Cert.Glue

open Idealize.ShloMosaic Idealize.ShloMosaic.ValueIdx

/-! ## Two layout facts -/

/-- A vector of `n` set up as a `1 × n` row by a cast is the same row as the vector broadcast along the row's second axis:
    either reads, at `(0, i)`, the vector at `i`. -/
theorem row_cast_eq_bcast {α : Type} (z : (⟨1, ![128]⟩ : Shape).Idx → α)
    (h : (⟨1, ![128]⟩ : Shape).ShapeCasts ⟨2, ![1, 128]⟩)
    (h' : (⟨1, ![128]⟩ : Shape).BroadcastsInDim ⟨2, ![1, 128]⟩ ![1]) :
    shapeCast ⟨2, ![1, 128]⟩ z h = broadcastInDim ⟨2, ![1, 128]⟩ ![1] h' z := by
  funext j
  obtain ⟨u, i, rfl⟩ : ∃ u i, j = ix2 u i := ⟨_, _, eq_ix2 j⟩
  rw [shapeCast_a_1a_apply z h u i]
  refine (broadcastInDim_apply ![1] h' z (ix2 u i) (ix1 i) fun a => ?_).symm
  match a with
  | ⟨0, _⟩ =>
    show i.val = if (128 : ℕ) = 1 then 0 else i.val
    rw [if_neg (by decide)]

/-- A vector of `n` set up as an `n × 1` column by a cast is the same column as the vector broadcast along the column's
    first axis: either reads, at `(i, 0)`, the vector at `i`. -/
theorem col_cast_eq_bcast {α : Type} (z : (⟨1, ![50000]⟩ : Shape).Idx → α)
    (h : (⟨1, ![50000]⟩ : Shape).ShapeCasts ⟨2, ![50000, 1]⟩)
    (h' : (⟨1, ![50000]⟩ : Shape).BroadcastsInDim ⟨2, ![50000, 1]⟩ ![0]) :
    shapeCast ⟨2, ![50000, 1]⟩ z h = broadcastInDim ⟨2, ![50000, 1]⟩ ![0] h' z := by
  funext j
  obtain ⟨i, u, rfl⟩ : ∃ i u, j = ix2 i u := ⟨_, _, eq_ix2 j⟩
  have e1 : shapeCast ⟨2, ![50000, 1]⟩ z h (ix2 i u) = z (ix1 i) :=
    shapeCast_apply z h _ _ (by
      have hu : u.val = 0 := by omega
      rw [Shape.rowMajor_val_two, Shape.rowMajor_val_one]
      show i.val = i.val * 1 + u.val
      rw [hu, Nat.mul_one, Nat.add_zero])
  rw [e1]
  refine (broadcastInDim_apply ![0] h' z (ix2 i u) (ix1 i) fun a => ?_).symm
  match a with
  | ⟨0, _⟩ =>
    show i.val = if (50000 : ℕ) = 1 then 0 else i.val
    rw [if_neg (by decide)]

/-! ## The host stretches' functions are the reference's -/

open Cert.KernelIdeal.Val Cert.ReferenceIdeal.RefValue

/-- The aggregation: the same operations over the same dimension numbers. -/
theorem agg_eq (x : FVec Ideal Cert.KernelIdeal.S50000x128 .f32) (ei : IVec Cert.KernelIdeal.S2x1600000 32) :
    aggK x (srcK ei) (dstK ei) = aggR x ei := by
  unfold aggK srcK dstK aggR
  rfl

/-- Slice `k` of a weight stack: the same slice and the same cast. -/
theorem w_eq (k : Fin 4) (Ws : FVec Ideal Cert.KernelIdeal.S4x128x128 .f32) : wK k Ws = wR k Ws := by
  match k with
  | 0 => unfold wK wR; rfl
  | 1 => unfold wK wR; rfl
  | 2 => unfold wK wR; rfl
  | 3 => unfold wK wR; rfl

/-- Row `k` of a bias stack as a 1 × 128 row: the flattened slice cast to a row is the flattened slice broadcast to a row. -/
theorem b_eq (k : Fin 4) (bs : FVec Ideal Cert.KernelIdeal.S4x128 .f32) : bK k bs = bR k bs := by
  match k with
  | 0 => unfold bK bR; exact row_cast_eq_bcast _ _ _
  | 1 => unfold bK bR; exact row_cast_eq_bcast _ _ _
  | 2 => unfold bK bR; exact row_cast_eq_bcast _ _ _
  | 3 => unfold bK bR; exact row_cast_eq_bcast _ _ _

/-- The graph ids as a column: the cast is the broadcast. -/
theorem ids_eq (ids : IVec Cert.KernelIdeal.S50000 32) : idsK ids = idsR ids := by
  unfold idsK idsR; exact col_cast_eq_bcast _ _ _

/-- One layer: the node update of the same six arrays. -/
theorem layer_eq (k : Fin 4) (x : FVec Ideal Cert.KernelIdeal.S50000x128 .f32) (ei : IVec Cert.KernelIdeal.S2x1600000 32)
    (Ws1 : FVec Ideal Cert.KernelIdeal.S4x128x128 .f32) (bs1 : FVec Ideal Cert.KernelIdeal.S4x128 .f32)
    (Ws2 : FVec Ideal Cert.KernelIdeal.S4x128x128 .f32) (bs2 : FVec Ideal Cert.KernelIdeal.S4x128 .f32) :
    layerK k x ei Ws1 bs1 Ws2 bs2 = layerR k x ei Ws1 bs1 Ws2 bs2 := by
  unfold layerK layerR
  rw [agg_eq, w_eq, b_eq, w_eq, b_eq]

/-- The whole result: four layers, then the pool at the graph ids as a column. -/
theorem outK_eq_outR (x : FVec Ideal Cert.KernelIdeal.S50000x128 .f32) (ei : IVec Cert.KernelIdeal.S2x1600000 32)
    (ids : IVec Cert.KernelIdeal.S50000 32)
    (Ws1 : FVec Ideal Cert.KernelIdeal.S4x128x128 .f32) (bs1 : FVec Ideal Cert.KernelIdeal.S4x128 .f32)
    (Ws2 : FVec Ideal Cert.KernelIdeal.S4x128x128 .f32) (bs2 : FVec Ideal Cert.KernelIdeal.S4x128 .f32) :
    Cert.KernelIdeal.Val.outK x ei ids Ws1 bs1 Ws2 bs2 = Cert.ReferenceIdeal.RefValue.outR x ei ids Ws1 bs1 Ws2 bs2 := by
  unfold outK outR
  rw [ids_eq, layer_eq, layer_eq, layer_eq, layer_eq]

end Cert.Glue
-- ==== Proof.lean ====
/-
  The certificate of the GIN message-passing kernel against its jnp reference.

  The kernel program runs, per layer, a stretch of host operations (the aggregation of the node features along the edges,
  the layer's parameter slices) and an MLP kernel region over blocks of 5000 nodes, and at the end a pool region that
  accumulates  onehot(graph id)ᵀ · x  over blocks of 2000 nodes.  Its frame (at the word level and at the ideal instance
  alike): the launch theorem for a list of host and kernel segments, each region's body run once per grid point.
  Its value at the ideal instance: each MLP region leaves  relu((x + agg)·W1 + b1)·W2 + b2  of the arrays it reads, the
  pool region the sum over all nodes of the rows whose graph id is the result's row.  The reference computes the same
  layer update with host matrix products and the pool as a scatter-add into zeros: on the extended reals 0·y = 0 and
  1·y = y for every y, and sums may be regrouped freely, so the two results are equal index by index for all inputs;
  the precondition is not used.  No operation of the kernel was rewritten by the ideal pass, so there is nothing to
  preserve.
-/
import proofs.«421570_j62362925138436_1_alg».proof.Defs
import proofs.«421570_j62362925138436_1_alg».proof.Proof.Gen.Kernel
import proofs.«421570_j62362925138436_1_alg».proof.Proof.Gen.KernelIdeal
import proofs.«421570_j62362925138436_1_alg».proof.Proof.Gen.ReferenceIdeal
import proofs.«421570_j62362925138436_1_alg».proof.Proof.Gen.Pre_finite_inputs
import proofs.«421570_j62362925138436_1_alg».proof.Proof.KB.Run
import proofs.«421570_j62362925138436_1_alg».proof.Proof.KI.Trace
import proofs.«421570_j62362925138436_1_alg».proof.Proof.Ref.Value
import proofs.«421570_j62362925138436_1_alg».proof.Proof.Glue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame (F := Bits) m ρ

/-- So does the kernel program read at the ideal instance. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: the kernel program's result
    function of its arguments is the reference's. -/
theorem algebraic : Cert.algebraic_KernelIdeal_ReferenceIdeal := by
  intro m ρ m' ρ' _ hagree
  refine ⟨fun c => Cert.KernelIdeal.Val.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.kernel_value m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.RefValue.ref_run m' ρ')
    rw [(hagree c).1, (hagree c).2.1, (hagree c).2.2.1, (hagree c).2.2.2.1, (hagree c).2.2.2.2.1, (hagree c).2.2.2.2.2.1,
      (hagree c).2.2.2.2.2.2]
    exact (Cert.Glue.outK_eq_outR _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
